-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x64 : Shape := ⟨2, ![32768, 64]⟩
abbrev S32768x8192 : Shape := ⟨2, ![32768, 8192]⟩
abbrev S64x64 : Shape := ⟨2, ![64, 64]⟩
abbrev S64 : Shape := ⟨1, ![64]⟩
abbrev S_ : Shape := ⟨0, ![]⟩

class Facts : Prop where
  bcast_S_S32768x64 : S_.BroadcastsInDim S32768x64 (![] : Fin 0 → Fin S32768x64.rank)
  reducesTo_S32768x64_S_d0_1 : S32768x64.ReducesTo [0, 1] S_
  h_S_ : 0 < S_.numel
  bcast_S_S32768x8192 : S_.BroadcastsInDim S32768x8192 (![] : Fin 0 → Fin S32768x8192.rank)
  reducesTo_S32768x8192_S_d0_1 : S32768x8192.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S32768x64 .f32) (main_arg1 : FVec F S32768x8192 .f32) (main_arg2 : FVec F S64x64 .f32) (main_arg3 : FVec F S64 .f32) : IVec S_ 1 :=
  let main_v0 : FVec F S32768x64 .f32 := Host.absf main_arg0
  let main_cst : FVec F S_ .f32 := constant S_ .f32 0x7F800000#32
  let main_v1 : FVec F S32768x64 .f32 := broadcastInDim S32768x64 ![] bcast_S_S32768x64 main_cst
  let main_v2 : IVec S32768x64 1 := cmpf .olt main_v0 main_v1
  let main_c : IVec S_ 1 := constantI S_ 1 1#1
  let main_v3 : IVec S_ 1 := (fun x v => Host.reduce IntOp.andi x v reducesTo_S32768x64_S_d0_1 h_S_) main_v2 main_c
  let main_v4 : FVec F S32768x8192 .f32 := Host.absf main_arg1
  let main_cst_0 : FVec F S_ .f32 := constant S_ .f32 0x7F800000#32
  let main_v5 : FVec F S32768x8192 .f32 := broadcastInDim S32768x8192 ![] bcast_S_S32768x8192 main_cst_0
  let main_v6 : IVec S32768x8192 1 := cmpf .olt main_v4 main_v5
  let main_c_1 : IVec S_ 1 := constantI S_ 1 1#1
  let main_v7 : IVec S_ 1 := (fun x v => Host.reduce IntOp.andi x v reducesTo_S32768x8192_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S32768x64 : Shape := ⟨2, ![32768, 64]⟩
abbrev S32768x8192 : Shape := ⟨2, ![32768, 8192]⟩
abbrev S64x64 : Shape := ⟨2, ![64, 64]⟩
abbrev S64 : Shape := ⟨1, ![64]⟩
abbrev S32768 : Shape := ⟨1, ![32768]⟩
abbrev S8192 : Shape := ⟨1, ![8192]⟩
abbrev S256x8192 : Shape := ⟨2, ![256, 8192]⟩
abbrev S256 : Shape := ⟨1, ![256]⟩
abbrev S8192x64 : Shape := ⟨2, ![8192, 64]⟩
abbrev S256x64 : Shape := ⟨2, ![256, 64]⟩
abbrev S256x1 : Shape := ⟨2, ![256, 1]⟩
abbrev S8192x1 : Shape := ⟨2, ![8192, 1]⟩
abbrev S1x64 : Shape := ⟨2, ![1, 64]⟩

abbrev nBuf : Space → Nat
  | .hbm => 8
  | .vmem => 22
  | .smem => 0
  | _ => 0

abbrev bufTy : (tb : Table) → Fin (tcTables nBuf tb) → BufTy
  | .hbm, ⟨0, _⟩ => ⟨S32768x64, .f32⟩
  | .hbm, ⟨1, _⟩ => ⟨S32768x8192, .f32⟩
  | .hbm, ⟨2, _⟩ => ⟨S64x64, .f32⟩
  | .hbm, ⟨3, _⟩ => ⟨S64, .f32⟩
  | .hbm, ⟨4, _⟩ => ⟨S32768, .f32⟩
  | .hbm, ⟨5, _⟩ => ⟨S8192, .f32⟩
  | .hbm, ⟨6, _⟩ => ⟨S8192x64, .f32⟩
  | .hbm, ⟨7, _⟩ => ⟨S32768x64, .f32⟩
  | .local _ .vmem, ⟨0, _⟩ => ⟨S256x8192, .f32⟩
  | .local _ .vmem, ⟨1, _⟩ => ⟨S256x8192, .f32⟩
  | .local _ .vmem, ⟨2, _⟩ => ⟨S256, .f32⟩
  | .local _ .vmem, ⟨3, _⟩ => ⟨S256, .f32⟩
  | .local _ .vmem, ⟨4, _⟩ => ⟨S8192, .f32⟩
  | .local _ .vmem, ⟨5, _⟩ => ⟨S256x8192, .f32⟩
  | .local _ .vmem, ⟨6, _⟩ => ⟨S256x8192, .f32⟩
  | .local _ .vmem, ⟨7, _⟩ => ⟨S256x64, .f32⟩
  | .local _ .vmem, ⟨8, _⟩ => ⟨S256x64, .f32⟩
  | .local _ .vmem, ⟨9, _⟩ => ⟨S64x64, .f32⟩
  | .local _ .vmem, ⟨10, _⟩ => ⟨S256, .f32⟩
  | .local _ .vmem, ⟨11, _⟩ => ⟨S256, .f32⟩
  | .local _ .vmem, ⟨12, _⟩ => ⟨S8192, .f32⟩
  | .local _ .vmem, ⟨13, _⟩ => ⟨S8192x64, .f32⟩
  | .local _ .vmem, ⟨14, _⟩ => ⟨S256x8192, .f32⟩
  | .local _ .vmem, ⟨15, _⟩ => ⟨S256x8192, .f32⟩
  | .local _ .vmem, ⟨16, _⟩ => ⟨S8192x64, .f32⟩
  | .local _ .vmem, ⟨17, _⟩ => ⟨S256, .f32⟩
  | .local _ .vmem, ⟨18, _⟩ => ⟨S256, .f32⟩
  | .local _ .vmem, ⟨19, _⟩ => ⟨S64, .f32⟩
  | .local _ .vmem, ⟨20, _⟩ => ⟨S256x64, .f32⟩
  | .local _ .vmem, ⟨21, _⟩ => ⟨S256x64, .f32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem5_0 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![128], ![false]⟩

def k0_cond1 (i : grid0.Coords) : BitVec 1 :=
  let arg0 : BitVec 32 := BitVec.ofNat 32 (i 0).val
  let c0_i32 : BitVec 32 := 0#32
  let v9 : BitVec 1 := Scalar.cmpi .eq arg0 c0_i32
  let v10 : BitVec 32 := Scalar.extui v9
  let c0_i32_5 : BitVec 32 := 0#32
  let v11 : BitVec 1 := Scalar.cmpi .ne v10 c0_i32_5
  v11

def k0_cond2 (i : grid0.Coords) : BitVec 1 :=
  let arg0 : BitVec 32 := BitVec.ofNat 32 (i 0).val
  let c0_i32_6 : BitVec 32 := 0#32
  let v12 : BitVec 1 := Scalar.cmpi .ne arg0 c0_i32_6
  let v13 : BitVec 32 := Scalar.extui v12
  let c0_i32_7 : BitVec 32 := 0#32
  let v14 : BitVec 1 := Scalar.cmpi .ne v13 c0_i32_7
  v14

def k0_cond3 (i : grid0.Coords) : BitVec 1 :=
  let arg0 : BitVec 32 := BitVec.ofNat 32 (i 0).val
  let c127_i32 : BitVec 32 := 127#32
  let v15 : BitVec 1 := Scalar.cmpi .eq arg0 c127_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  ![arg0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S8192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8192x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  ![arg0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  inb_S256x8192_S256x8192_0_0 : ∀ a, (![0, 0] : Fin 2 → Nat) a + S256x8192.size a ≤ S256x8192.size a
  h_S256x8192 : 0 < S256x8192.numel
  reduces_S256x8192_S256 : S256x8192.Reduces [1] S256
  inb_S256_S256_0 : ∀ a, (![0] : Fin 1 → Nat) a + S256.size a ≤ S256.size a
  h_S256 : 0 < S256.numel
  reduces_S256x8192_S8192 : S256x8192.Reduces [0] S8192
  inb_S8192_S8192_0 : ∀ a, (![0] : Fin 1 → Nat) a + S8192.size a ≤ S8192.size a
  h_S8192 : 0 < S8192.numel
  shapeCasts_S8192_S8192 : S8192.ShapeCasts S8192
  inb_S8192x64_S8192x64_0_0 : ∀ a, (![0, 0] : Fin 2 → Nat) a + S8192x64.size a ≤ S8192x64.size a
  h_S8192x64 : 0 < S8192x64.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S64x64_S64x64_0_0 : ∀ a, (![0, 0] : Fin 2 → Nat) a + S64x64.size a ≤ S64x64.size a
  h_S64x64 : 0 < S64x64.numel
  shapeCasts_S256_S256 : S256.ShapeCasts S256
  shapeCasts_S256_S256x1 : S256.ShapeCasts S256x1
  broadcasts_S256x1_S256x64 : S256x1.Broadcasts S256x64
  shapeCasts_S8192x64_S8192x64 : S8192x64.ShapeCasts S8192x64
  shapeCasts_S8192_S8192x1 : S8192.ShapeCasts S8192x1
  broadcasts_S8192x1_S8192x64 : S8192x1.Broadcasts S8192x64
  inb_S64_S64_0 : ∀ a, (![0] : Fin 1 → Nat) a + S64.size a ≤ S64.size a
  h_S64 : 0 < S64.numel
  shapeCasts_S64_S1x64 : S64.ShapeCasts S1x64
  broadcasts_S1x64_S256x64 : S1x64.Broadcasts S256x64
  dot_S256x64_S64x64_S256x64_1_0_0_1_n_n_wf : DotDims.WF S256x64 S64x64 S256x64 [1] [0] [0] [1] [] []
  dot_S256x8192_S256x64_S8192x64_0_0_1_1_n_n_wf : DotDims.WF S256x8192 S256x64 S8192x64 [0] [0] [1] [1] [] []
  dot_S256x8192_S8192x64_S256x64_1_0_0_1_n_n_wf : DotDims.WF S256x8192 S8192x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S32768x8192.size a
  hwx0_0 : ∀ i : grid0.Coords, EltTy.bits .f32 = 32 ∨ (Rect.block (s := S32768x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256.size a ≤ S32768.size a
  hwx0_1 : ∀ i : grid0.Coords, EltTy.bits .f32 = 32 ∨ (Rect.block (s := S32768) S256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192.size a ≤ S8192.size a
  hwx0_2 : ∀ i : grid0.Coords, EltTy.bits .f32 = 32 ∨ (Rect.block (s := S8192) S8192.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S32768x8192.size a
  hwx1_0 : ∀ i : grid1.Coords, EltTy.bits .f32 = 32 ∨ (Rect.block (s := S32768x8192) S256x8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S32768x64.size a
  hwx1_1 : ∀ i : grid1.Coords, EltTy.bits .f32 = 32 ∨ (Rect.block (s := S32768x64) S256x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S32768.size a
  hwx1_3 : ∀ i : grid1.Coords, EltTy.bits .f32 = 32 ∨ (Rect.block (s := S32768) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8192.size a ≤ S8192.size a
  hwx1_4 : ∀ i : grid1.Coords, EltTy.bits .f32 = 32 ∨ (Rect.block (s := S8192) S8192.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8192x64.size a ≤ S8192x64.size a
  hwx1_5 : ∀ i : grid1.Coords, EltTy.bits .f32 = 32 ∨ (Rect.block (s := S8192x64) S8192x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x8192.size a ≤ S32768x8192.size a
  hwx2_0 : ∀ i : grid2.Coords, EltTy.bits .f32 = 32 ∨ (Rect.block (s := S32768x8192) S256x8192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S8192x64.size a
  hwx2_1 : ∀ i : grid2.Coords, EltTy.bits .f32 = 32 ∨ (Rect.block (s := S8192x64) S8192x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256.size a ≤ S32768.size a
  hwx2_2 : ∀ i : grid2.Coords, EltTy.bits .f32 = 32 ∨ (Rect.block (s := S32768) S256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x64.size a ≤ S32768x64.size a
  hwx2_4 : ∀ i : grid2.Coords, EltTy.bits .f32 = 32 ∨ (Rect.block (s := S32768x64) S256x64.size (cc2_transform_4 i) (hinb2_4 i)).WholeWords (EltTy.packing .f32)

variable [Facts₀]

def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x8192_S256x64_S8192x64_0_0_1_1_n_n : DotDims S256x8192 S256x64 S8192x64 where
  lhsContracting := [0]
  rhsContracting := [0]
  lhsNonContracting := [1]
  rhsNonContracting := [1]
  lhsBatch := []
  rhsBatch := []
  wf := dot_S256x8192_S256x64_S8192x64_0_0_1_1_n_n_wf
def dot_S256x8192_S8192x64_S256x64_1_0_0_1_n_n : DotDims S256x8192 S8192x64 S256x64 where
  lhsContracting := [1]
  rhsContracting := [0]
  lhsNonContracting := [0]
  rhsNonContracting := [1]
  lhsBatch := []
  rhsBatch := []
  wf := dot_S256x8192_S8192x64_S256x64_1_0_0_1_n_n_wf

abbrev win0_0 : Pipeline.Window sig grid0 :=
  Pipeline.Window.ofSpec (Memref.whole main_arg1) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S256.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S8192.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) && !(k0_cond3 i == 1#1) | ⟨_ + 3, h⟩ => absurd h (Nat.not_lt.2 (Nat.le_add_left _ _))

abbrev win1_0 : Pipeline.Window sig grid1 :=
  Pipeline.Window.ofSpec (Memref.whole main_arg1) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S256x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0_0) S256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0_1) S8192.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S8192x64.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg1) S256x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S8192x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0_0) S256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v2) S256x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S32768x64 : Shape := ⟨2, ![32768, 64]⟩
abbrev S32768x8192 : Shape := ⟨2, ![32768, 8192]⟩
abbrev S64x64 : Shape := ⟨2, ![64, 64]⟩
abbrev S64 : Shape := ⟨1, ![64]⟩
abbrev S_ : Shape := ⟨0, ![]⟩
abbrev S32768 : Shape := ⟨1, ![32768]⟩
abbrev S8192 : Shape := ⟨1, ![8192]⟩
abbrev S32768x1 : Shape := ⟨2, ![32768, 1]⟩
abbrev S8192x32768 : Shape := ⟨2, ![8192, 32768]⟩
abbrev S8192x64 : Shape := ⟨2, ![8192, 64]⟩
abbrev S8192x1 : Shape := ⟨2, ![8192, 1]⟩
abbrev S1x64 : Shape := ⟨2, ![1, 64]⟩

abbrev nBuf : Space → Nat
  | .hbm => 37
  | .vmem => 0
  | .smem => 0
  | _ => 0

abbrev bufTy : (tb : Table) → Fin (tcTables nBuf tb) → BufTy
  | .hbm, ⟨0, _⟩ => ⟨S32768x64, .f32⟩
  | .hbm, ⟨1, _⟩ => ⟨S32768x8192, .f32⟩
  | .hbm, ⟨2, _⟩ => ⟨S64x64, .f32⟩
  | .hbm, ⟨3, _⟩ => ⟨S64, .f32⟩
  | .hbm, ⟨4, _⟩ => ⟨S_, .f32⟩
  | .hbm, ⟨5, _⟩ => ⟨S32768, .f32⟩
  | .hbm, ⟨6, _⟩ => ⟨S_, .f32⟩
  | .hbm, ⟨7, _⟩ => ⟨S32768, .f32⟩
  | .hbm, ⟨8, _⟩ => ⟨S32768, .f32⟩
  | .hbm, ⟨9, _⟩ => ⟨S32768, .f32⟩
  | .hbm, ⟨10, _⟩ => ⟨S_, .f32⟩
  | .hbm, ⟨11, _⟩ => ⟨S32768, .f32⟩
  | .hbm, ⟨12, _⟩ => ⟨S32768, .f32⟩
  | .hbm, ⟨13, _⟩ => ⟨S_, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S32768x64, .f32⟩
  | .hbm, ⟨22, _⟩ => ⟨S32768x1, .f32⟩
  | .hbm, ⟨23, _⟩ => ⟨S32768x64, .f32⟩
  | .hbm, ⟨24, _⟩ => ⟨S32768x64, .f32⟩
  | .hbm, ⟨25, _⟩ => ⟨S8192x32768, .f32⟩
  | .hbm, ⟨26, _⟩ => ⟨S8192x64, .f32⟩
  | .hbm, ⟨27, _⟩ => ⟨S8192x1, .f32⟩
  | .hbm, ⟨28, _⟩ => ⟨S8192x64, .f32⟩
  | .hbm, ⟨29, _⟩ => ⟨S8192x64, .f32⟩
  | .hbm, ⟨30, _⟩ => ⟨S32768x64, .f32⟩
  | .hbm, ⟨31, _⟩ => ⟨S32768x1, .f32⟩
  | .hbm, ⟨32, _⟩ => ⟨S32768x64, .f32⟩
  | .hbm, ⟨33, _⟩ => ⟨S32768x64, .f32⟩
  | .hbm, ⟨34, _⟩ => ⟨S1x64, .f32⟩
  | .hbm, ⟨35, _⟩ => ⟨S32768x64, .f32⟩
  | .hbm, ⟨36, _⟩ => ⟨S32768x64, .f32⟩
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev main_cst_4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  reducesTo_S32768x8192_S32768_d1 : S32768x8192.ReducesTo [1] S32768
  h_S_ : 0 < S_.numel
  bcast_S_S32768 : S_.BroadcastsInDim S32768 (![] : Fin 0 → Fin S32768.rank)
  reducesTo_S32768x8192_S8192_d0 : S32768x8192.ReducesTo [0] S8192
  bcast_S_S8192 : S_.BroadcastsInDim S8192 (![] : Fin 0 → Fin S8192.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  transposes_S32768x8192_S8192x32768_1_0 : S32768x8192.Transposes [1, 0] S8192x32768
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  dot_S32768x64_S64x64_S32768x64_1_0_0_1_n_n_wf : DotDims.WF S32768x64 S64x64 S32768x64 [1] [0] [0] [1] [] []
  dot_S8192x32768_S32768x64_S8192x64_1_0_0_1_n_n_wf : DotDims.WF S8192x32768 S32768x64 S8192x64 [1] [0] [0] [1] [] []
  dot_S32768x8192_S8192x64_S32768x64_1_0_0_1_n_n_wf : DotDims.WF S32768x8192 S8192x64 S32768x64 [1] [0] [0] [1] [] []

variable [Facts₀]

def dot_S32768x64_S64x64_S32768x64_1_0_0_1_n_n : DotDims S32768x64 S64x64 S32768x64 where
  lhsContracting := [1]
  rhsContracting := [0]
  lhsNonContracting := [0]
  rhsNonContracting := [1]
  lhsBatch := []
  rhsBatch := []
  wf := dot_S32768x64_S64x64_S32768x64_1_0_0_1_n_n_wf
def dot_S8192x32768_S32768x64_S8192x64_1_0_0_1_n_n : DotDims S8192x32768 S32768x64 S8192x64 where
  lhsContracting := [1]
  rhsContracting := [0]
  lhsNonContracting := [0]
  rhsNonContracting := [1]
  lhsBatch := []
  rhsBatch := []
  wf := dot_S8192x32768_S32768x64_S8192x64_1_0_0_1_n_n_wf
def dot_S32768x8192_S8192x64_S32768x64_1_0_0_1_n_n : DotDims S32768x8192 S8192x64 S32768x64 where
  lhsContracting := [1]
  rhsContracting := [0]
  lhsNonContracting := [0]
  rhsNonContracting := [1]
  lhsBatch := []
  rhsBatch := []
  wf := dot_S32768x8192_S8192x64_S32768x64_1_0_0_1_n_n_wf

class Facts : Prop extends Facts₀ where

variable [Facts]
-- ==== Proof.K.R0.lean ====
/-
  Region 0 (the degree kernel, 128 points): its frame half at the entry contents `V`, and the recursion of the
  output it carries across points, in payload terms, at any float instance.

  At every point the body stores window 1 whole (the reciprocal square root of the block's row sums plus ε). Window 2
  is ONE block, written back after the last point only: the body stores the block's column sums at point 0, adds
  them to what the point before left at every later point, and at point 127 then replaces the sum by 1/(sum + ε).
  So the control has three cases, selected by the grid point alone; each case's whole-body run finds what it leaves
  in window 2's buffer, and `deAt0` is the recursion over the points.
-/
import proofs.«156100_j87445534147336_1_alg».proof.Proof.Gen.Kernel.Launch
import proofs.«156100_j87445534147336_1_alg».proof.Proof.Gen.Kernel.Skeleton
import proofs.«156100_j87445534147336_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's three conditions, in closed form over the grid -/

/-- The first conditional is taken at the first point only. -/
theorem hcond0_1 : ∀ t : Fin cfg0.N, k0_cond1 (grid0.coords t) = 1#1 ↔ t.val = 0 :=
  (by decide +kernel : ∀ t : Fin grid0.N, k0_cond1 (grid0.coords t) = 1#1 ↔ t.val = 0)
/-- The second at every point but the first. -/
theorem hcond0_2 : ∀ t : Fin cfg0.N, k0_cond2 (grid0.coords t) = 1#1 ↔ t.val ≠ 0 :=
  (by decide +kernel : ∀ t : Fin grid0.N, k0_cond2 (grid0.coords t) = 1#1 ↔ t.val ≠ 0)
/-- The third at the last point only. -/
theorem hcond0_3 : ∀ t : Fin cfg0.N, k0_cond3 (grid0.coords t) = 1#1 ↔ t.val = 127 :=
  (by decide +kernel : ∀ t : Fin grid0.N, k0_cond3 (grid0.coords t) = 1#1 ↔ t.val = 127)

/-- At every coordinate one of the first two conditionals is taken, so window 2 is stored everywhere. -/
theorem idle0_2 : ∀ i : grid0.Coords, cfg0.idle 2 i = false := fun i =>
  (by decide +kernel : ∀ v : Fin 128,
    (!(Scalar.cmpi .ne (Scalar.extui (Scalar.cmpi .eq (BitVec.ofNat 32 v.val) 0#32)) 0#32 == 1#1)
      && !(Scalar.cmpi .ne (Scalar.extui (Scalar.cmpi .ne (BitVec.ofNat 32 v.val) 0#32)) 0#32 == 1#1)
      && !(Scalar.cmpi .ne (Scalar.extui (Scalar.cmpi .eq (BitVec.ofNat 32 v.val) 127#32)) 0#32 == 1#1)) = false) (i 0)

private theorem hz1 : (![0] : Fin 1 → Nat) = fun _ => 0 := funext fun a => by fin_cases a; rfl
private theorem hz2 : (![0, 0] : Fin 2 → Nat) = fun _ => 0 := funext fun a => by fin_cases a <;> rfl

/-! ## Window 1: one covering store at every point -/

abbrev r0_0 : Rect S256x8192 := Rect.unit (s := S256x8192) ![0, 0] S256x8192.size inb_S256x8192_S256x8192_0_0
abbrev r0_1 : Rect S256 := Rect.unit (s := S256) ![0] S256.size inb_S256_S256_0
abbrev r0_2 : Rect S8192 := Rect.unit (s := S8192) ![0] S8192.size inb_S8192_S8192_0

/-- What the body leaves in window 1's buffer, from window 0's block: its one store. -/
def dvOut0 (x0 : Vec F S256x8192 .f32) : Vec F S256 .f32 :=
  View.canon [⟨r0_1, k0_pay1 (View.ld x0 r0_0)⟩]

/-- That store covers the buffer. -/
theorem cover0_1 (p0 : Vec F S256 .f32) (y : S256.Idx) :
    ∃ pc ∈ ([⟨r0_1, p0⟩] : List (View.Piece (Elt F) S256 .f32)), y ∈ pc.1.set :=
  ⟨_, List.mem_singleton_self _, View.mem_set_unit_zero (S := S256) hz1 inb_S256_S256_0 y⟩

/-! ## The body, case by case -/

set_option maxHeartbeats 1000000 in
/-- CASE A (the first conditional alone taken: point 0). On whole staging memrefs, window 0's at its block and the
    outputs' at anything, the body runs to the continuation holding window 0's as it was, window 1's at `dvOut0` of the
    block and window 2's with the pieces the run finds written. -/
noncomputable def kernelRun0_A (c : Dev nD) (i : grid0.Coords) (arg1 : Memref sig .tc .vmem S256x8192 .f32) (harg1 : arg1.IsWhole)
    (arg2 : Memref sig .tc .vmem S256 .f32) (harg2 : arg2.IsWhole) (arg3 : Memref sig .tc .vmem S8192 .f32) (harg3 : arg3.IsWhole)
    (hc1 : k0_cond1 i = 1#1) (hc2 : ¬k0_cond2 i = 1#1) (hc3 : ¬k0_cond3 i = 1#1)
    (x0 : Vec F S256x8192 .f32) :
    { L2 : List (View.Piece (Elt F) S8192 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ owns (c : Thread nD τ) arg2 fullShare (dvOut0 x0)
                ∗ (∃ f, arg3.view.loc (c : Thread nD τ) ↦[arg3.view.set]{fullShare} arg3.view.writes (Elt F) f L2)) -∗ K ⟨⟩))
          ⊢ wp frame (wpE (defs₀ (F := F)) Variants.none c none) E (cc0__degree_kernel i arg1 harg1 arg2 harg2 arg3 harg3) K } := by
  refine ⟨?_, fun E K => ?run⟩
  case run =>
    simp only [cc0__degree_kernel_eq_skeleton]; unfold cc0__degree_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc1 | exact hc2 | exact hc3)
    sl_step
    iapply Hk
    isplitl [H0]
    · iexists _; isplitr; · ipureintro; exact harg1.read_unread _
      iexact H0
    isplitl [H1]
    · iexists _; isplitr
      swap; · iexact H1
      ipureintro
      exact (View.read_writes_eq_canon _ _ _ (cover0_1 _)).trans (by unfold dvOut0; simp only [View.readAt_eq_ld, harg1.read_unread])
    iexists _; iexact H2

set_option maxHeartbeats 1000000 in
/-- CASE B (the second conditional alone taken: points 1 to 126). As case A, window 2's buffer entering at the running
    contents `xo2`, which the body reads before it stores. -/
noncomputable def kernelRun0_B (c : Dev nD) (i : grid0.Coords) (arg1 : Memref sig .tc .vmem S256x8192 .f32) (harg1 : arg1.IsWhole)
    (arg2 : Memref sig .tc .vmem S256 .f32) (harg2 : arg2.IsWhole) (arg3 : Memref sig .tc .vmem S8192 .f32) (harg3 : arg3.IsWhole)
    (hc1 : ¬k0_cond1 i = 1#1) (hc2 : k0_cond2 i = 1#1) (hc3 : ¬k0_cond3 i = 1#1)
    (x0 : Vec F S256x8192 .f32) (xo2 : Vec F S8192 .f32) :
    { L2 : List (View.Piece (Elt F) S8192 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xo2
            ∗ (iprop(owns (c : Thread nD τ) arg1 fullShare x0 ∗ owns (c : Thread nD τ) arg2 fullShare (dvOut0 x0)
                ∗ (∃ f, arg3.view.loc (c : Thread nD τ) ↦[arg3.view.set]{fullShare} arg3.view.writes (Elt F) f L2)) -∗ K ⟨⟩))
          ⊢ wp frame (wpE (defs₀ (F := F)) Variants.none c none) E (cc0__degree_kernel i arg1 harg1 arg2 harg2 arg3 harg3) K } := by
  refine ⟨?_, fun E K => ?run⟩
  case run =>
    simp only [cc0__degree_kernel_eq_skeleton]; unfold cc0__degree_kernel_skel
    unfold owns
    iintro ⟨⟨%f0, %hf0, H0⟩, ⟨%d1, %f1, -, H1⟩, ⟨%f2, %hf2, H2⟩, Hk⟩
    obtain rfl := harg1.eq_unread hf0; obtain rfl := harg3.eq_unread hf2
    sl_exec (disch := first | exact hc1 | exact hc2 | exact hc3)
    sl_step
    iapply Hk
    isplitl [H0]
    · iexists _; isplitr; · ipureintro; exact harg1.read_unread _
      iexact H0
    isplitl [H1]
    · iexists _; isplitr
      swap; · iexact H1
      ipureintro
      exact (View.read_writes_eq_canon _ _ _ (cover0_1 _)).trans (by unfold dvOut0; simp only [View.readAt_eq_ld, harg1.read_unread])
    iexists _; iexact H2

set_option maxHeartbeats 1000000 in
/-- CASE C (the second and third conditionals taken: point 127). As case B; the third conditional reads back what the
    second stored. -/
noncomputable def kernelRun0_C (c : Dev nD) (i : grid0.Coords) (arg1 : Memref sig .tc .vmem S256x8192 .f32) (harg1 : arg1.IsWhole)
    (arg2 : Memref sig .tc .vmem S256 .f32) (harg2 : arg2.IsWhole) (arg3 : Memref sig .tc .vmem S8192 .f32) (harg3 : arg3.IsWhole)
    (hc1 : ¬k0_cond1 i = 1#1) (hc2 : k0_cond2 i = 1#1) (hc3 : k0_cond3 i = 1#1)
    (x0 : Vec F S256x8192 .f32) (xo2 : Vec F S8192 .f32) :
    { L2 : List (View.Piece (Elt F) S8192 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xo2
            ∗ (iprop(owns (c : Thread nD τ) arg1 fullShare x0 ∗ owns (c : Thread nD τ) arg2 fullShare (dvOut0 x0)
                ∗ (∃ f, arg3.view.loc (c : Thread nD τ) ↦[arg3.view.set]{fullShare} arg3.view.writes (Elt F) f L2)) -∗ K ⟨⟩))
          ⊢ wp frame (wpE (defs₀ (F := F)) Variants.none c none) E (cc0__degree_kernel i arg1 harg1 arg2 harg2 arg3 harg3) K } := by
  refine ⟨?_, fun E K => ?run⟩
  case run =>
    simp only [cc0__degree_kernel_eq_skeleton]; unfold cc0__degree_kernel_skel
    unfold owns
    iintro ⟨⟨%f0, %hf0, H0⟩, ⟨%d1, %f1, -, H1⟩, ⟨%f2, %hf2, H2⟩, Hk⟩
    obtain rfl := harg1.eq_unread hf0; obtain rfl := harg3.eq_unread hf2
    sl_exec (disch := first | exact hc1 | exact hc2 | exact hc3)
    sl_step
    iapply Hk
    isplitl [H0]
    · iexists _; isplitr; · ipureintro; exact harg1.read_unread _
      iexact H0
    isplitl [H1]
    · iexists _; isplitr
      swap; · iexact H1
      ipureintro
      exact (View.read_writes_eq_canon _ _ _ (cover0_1 _)).trans (by unfold dvOut0; simp only [View.readAt_eq_ld, harg1.read_unread])
    iexists _; iexact H2

/-! ## What each case leaves in window 2's buffer -/

/-- One staging buffer of window 2, through which its contents are stated (the choice does not matter). -/
abbrev VO0_2 : View sig .tc .vmem S8192 .f32 := (Memref.whole cc0_stg2_0 : Memref sig .tc .vmem S8192 .f32).view

/-- Case A's pieces for window 2 tile its buffer, so they cover it. -/
theorem cover0_A_2 (c : Dev nD) (i : grid0.Coords) (arg1 : Memref sig .tc .vmem S256x8192 .f32) (harg1 : arg1.IsWhole)
    (arg2 : Memref sig .tc .vmem S256 .f32) (harg2 : arg2.IsWhole) (arg3 : Memref sig .tc .vmem S8192 .f32) (harg3 : arg3.IsWhole)
    (hc1 : k0_cond1 i = 1#1) (hc2 : ¬k0_cond2 i = 1#1) (hc3 : ¬k0_cond3 i = 1#1)
    (x0 : Vec F S256x8192 .f32) (y : S8192.Idx) :
    ∃ pc ∈ (kernelRun0_A c i arg1 harg1 arg2 harg2 arg3 harg3 hc1 hc2 hc3 x0).1, y ∈ pc.1.set :=
  View.cover_of_tiledL (kernelRun0_A c i arg1 harg1 arg2 harg2 arg3 harg3 hc1 hc2 hc3 x0).1 S8192.size (by sl_kernel_rfl) y

/-- What case A leaves in window 2's buffer: its pieces read back over junk. -/
def out0_A_2 (c : Dev nD) (i : grid0.Coords) (arg1 : Memref sig .tc .vmem S256x8192 .f32) (harg1 : arg1.IsWhole)
    (arg2 : Memref sig .tc .vmem S256 .f32) (harg2 : arg2.IsWhole) (arg3 : Memref sig .tc .vmem S8192 .f32) (harg3 : arg3.IsWhole)
    (hc1 : k0_cond1 i = 1#1) (hc2 : ¬k0_cond2 i = 1#1) (hc3 : ¬k0_cond3 i = 1#1)
    (x0 : Vec F S256x8192 .f32) : Vec F S8192 .f32 :=
  VO0_2.read (Elt F) (VO0_2.writes (Elt F) VO0_2.junk (kernelRun0_A c i arg1 harg1 arg2 harg2 arg3 harg3 hc1 hc2 hc3 x0).1)

/-- Case B's pieces for window 2 tile its buffer, so they cover it. -/
theorem cover0_B_2 (c : Dev nD) (i : grid0.Coords) (arg1 : Memref sig .tc .vmem S256x8192 .f32) (harg1 : arg1.IsWhole)
    (arg2 : Memref sig .tc .vmem S256 .f32) (harg2 : arg2.IsWhole) (arg3 : Memref sig .tc .vmem S8192 .f32) (harg3 : arg3.IsWhole)
    (hc1 : ¬k0_cond1 i = 1#1) (hc2 : k0_cond2 i = 1#1) (hc3 : ¬k0_cond3 i = 1#1)
    (x0 : Vec F S256x8192 .f32) (xo2 : Vec F S8192 .f32) (y : S8192.Idx) :
    ∃ pc ∈ (kernelRun0_B c i arg1 harg1 arg2 harg2 arg3 harg3 hc1 hc2 hc3 x0 xo2).1, y ∈ pc.1.set :=
  View.cover_of_tiledL (kernelRun0_B c i arg1 harg1 arg2 harg2 arg3 harg3 hc1 hc2 hc3 x0 xo2).1 S8192.size (by sl_kernel_rfl) y

/-- What case B leaves in window 2's buffer: its pieces read back over junk. -/
def out0_B_2 (c : Dev nD) (i : grid0.Coords) (arg1 : Memref sig .tc .vmem S256x8192 .f32) (harg1 : arg1.IsWhole)
    (arg2 : Memref sig .tc .vmem S256 .f32) (harg2 : arg2.IsWhole) (arg3 : Memref sig .tc .vmem S8192 .f32) (harg3 : arg3.IsWhole)
    (hc1 : ¬k0_cond1 i = 1#1) (hc2 : k0_cond2 i = 1#1) (hc3 : ¬k0_cond3 i = 1#1)
    (x0 : Vec F S256x8192 .f32) (xo2 : Vec F S8192 .f32) : Vec F S8192 .f32 :=
  VO0_2.read (Elt F) (VO0_2.writes (Elt F) VO0_2.junk (kernelRun0_B c i arg1 harg1 arg2 harg2 arg3 harg3 hc1 hc2 hc3 x0 xo2).1)

/-- Case C's pieces for window 2 tile its buffer, so they cover it. -/
theorem cover0_C_2 (c : Dev nD) (i : grid0.Coords) (arg1 : Memref sig .tc .vmem S256x8192 .f32) (harg1 : arg1.IsWhole)
    (arg2 : Memref sig .tc .vmem S256 .f32) (harg2 : arg2.IsWhole) (arg3 : Memref sig .tc .vmem S8192 .f32) (harg3 : arg3.IsWhole)
    (hc1 : ¬k0_cond1 i = 1#1) (hc2 : k0_cond2 i = 1#1) (hc3 : k0_cond3 i = 1#1)
    (x0 : Vec F S256x8192 .f32) (xo2 : Vec F S8192 .f32) (y : S8192.Idx) :
    ∃ pc ∈ (kernelRun0_C c i arg1 harg1 arg2 harg2 arg3 harg3 hc1 hc2 hc3 x0 xo2).1, y ∈ pc.1.set :=
  View.cover_of_tiledL (kernelRun0_C c i arg1 harg1 arg2 harg2 arg3 harg3 hc1 hc2 hc3 x0 xo2).1 S8192.size (by sl_kernel_rfl) y

/-- What case C leaves in window 2's buffer: its pieces read back over junk. -/
def out0_C_2 (c : Dev nD) (i : grid0.Coords) (arg1 : Memref sig .tc .vmem S256x8192 .f32) (harg1 : arg1.IsWhole)
    (arg2 : Memref sig .tc .vmem S256 .f32) (harg2 : arg2.IsWhole) (arg3 : Memref sig .tc .vmem S8192 .f32) (harg3 : arg3.IsWhole)
    (hc1 : ¬k0_cond1 i = 1#1) (hc2 : k0_cond2 i = 1#1) (hc3 : k0_cond3 i = 1#1)
    (x0 : Vec F S256x8192 .f32) (xo2 : Vec F S8192 .f32) : Vec F S8192 .f32 :=
  VO0_2.read (Elt F) (VO0_2.writes (Elt F) VO0_2.junk (kernelRun0_C c i arg1 harg1 arg2 harg2 arg3 harg3 hc1 hc2 hc3 x0 xo2).1)

/-! ## The staging memrefs at a point -/

/-- Each window's current staging memref at point `t`, as the pipeline passes it, and its wholeness. -/
abbrev ms0_0 (t : Fin cfg0.N) : Memref sig .tc .vmem S256x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192 .f32 := win0_2.stage (cfg0.slots t 2)
abbrev hs0_2 (t : Fin cfg0.N) : (ms0_2 t).IsWhole := hstage0_2 ((cfg0.slots t 2).cast nbuf0_2)

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What window 2's buffer holds after each point -/

/-- THE ACCUMULATION. What window 2's staging buffer holds after the body at position `n`: the case the closed forms
    select at `n`, run at the point's memrefs and window 0's block, over what this leaves at `n - 1` (the buffer is
    not written back between). -/
def deAt0 (c : Dev nD) : (n : ℕ) → n < cfg0.N → Vec F S8192 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩)
      ((hcond0_1 ⟨0, hn⟩).mpr rfl) (fun h => (hcond0_2 ⟨0, hn⟩).mp h rfl) (fun h => absurd ((hcond0_3 ⟨0, hn⟩).mp h) (show ¬(0 : ℕ) = 127 by decide))
      (iblk0 V c 0 ⟨0, hn⟩)
  | n + 1, hn =>
    if h127 : n + 1 = 127 then
      out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
        (fun h => Nat.succ_ne_zero n ((hcond0_1 ⟨n + 1, hn⟩).mp h)) ((hcond0_2 ⟨n + 1, hn⟩).mpr (Nat.succ_ne_zero n)) ((hcond0_3 ⟨n + 1, hn⟩).mpr h127)
        (iblk0 V c 0 ⟨n + 1, hn⟩) (deAt0 c n (Nat.lt_of_succ_lt hn))
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
        (fun h => Nat.succ_ne_zero n ((hcond0_1 ⟨n + 1, hn⟩).mp h)) ((hcond0_2 ⟨n + 1, hn⟩).mpr (Nat.succ_ne_zero n)) (fun h => h127 ((hcond0_3 ⟨n + 1, hn⟩).mp h))
        (iblk0 V c 0 ⟨n + 1, hn⟩) (deAt0 c n (Nat.lt_of_succ_lt hn))

/-- `deAt0` at the first point: case A's contents. -/
theorem deAt0_A (c : Dev nD) (t : Fin cfg0.N) (h0 : t.val = 0) :
    deAt0 V c t.val t.isLt = out0_A_2 c (grid0.coords t) (ms0_0 t) (hs0_0 t) (ms0_1 t) (hs0_1 t) (ms0_2 t) (hs0_2 t)
      ((hcond0_1 t).mpr h0) (fun h => (hcond0_2 t).mp h h0) (fun h => by have := (hcond0_3 t).mp h; omega) (iblk0 V c 0 t) := by
  obtain ⟨n, hn⟩ := t
  cases n with
  | zero => exact rfl
  | succ n => exact absurd h0 (Nat.succ_ne_zero n)

/-- `deAt0` at a middle point: case B's contents, over what the point before left. -/
theorem deAt0_B (c : Dev nD) (t : Fin cfg0.N) (h0 : t.val ≠ 0) (h127 : t.val ≠ 127) :
    deAt0 V c t.val t.isLt = out0_B_2 c (grid0.coords t) (ms0_0 t) (hs0_0 t) (ms0_1 t) (hs0_1 t) (ms0_2 t) (hs0_2 t)
      (fun h => h0 ((hcond0_1 t).mp h)) ((hcond0_2 t).mpr h0) (fun h => h127 ((hcond0_3 t).mp h)) (iblk0 V c 0 t)
      (deAt0 V c (t.val - 1) (Nat.lt_of_le_of_lt (Nat.sub_le _ _) t.isLt)) := by
  obtain ⟨n, hn⟩ := t
  cases n with
  | zero => exact absurd rfl h0
  | succ n => exact (dif_neg h127).trans rfl

/-- `deAt0` at the last point: case C's contents, over what the point before left. -/
theorem deAt0_C (c : Dev nD) (t : Fin cfg0.N) (h0 : t.val ≠ 0) (h127 : t.val = 127) :
    deAt0 V c t.val t.isLt = out0_C_2 c (grid0.coords t) (ms0_0 t) (hs0_0 t) (ms0_1 t) (hs0_1 t) (ms0_2 t) (hs0_2 t)
      (fun h => h0 ((hcond0_1 t).mp h)) ((hcond0_2 t).mpr h0) ((hcond0_3 t).mpr h127) (iblk0 V c 0 t)
      (deAt0 V c (t.val - 1) (Nat.lt_of_le_of_lt (Nat.sub_le _ _) t.isLt)) := by
  obtain ⟨n, hn⟩ := t
  cases n with
  | zero => exact absurd rfl h0
  | succ n => exact (dif_pos h127).trans rfl

/-! ## The pipeline's proof data -/

/-- The proof data of pipeline 0 on core `c`: the arrays as the region finds them; after the body at point `t` window 0's
    buffer at its block, window 1's at `dvOut0` of it and window 2's at `deAt0`; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => dvOut0 (iblk0 V c 0 t)
    | ⟨2, _⟩ => deAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = dvOut0 (iblk0 V c 0 t) := by dsimp only [dat0]
theorem after0_2 (c : Dev nD) (t : Fin cfg0.N) : (dat0 V c).after 2 t = deAt0 V c t.val t.isLt := by dsimp only [dat0]

/-- Window 0's current staging buffer holds its block at every point, for any proof data whose array is the entry
    contents' and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

/-- After the first point window 2's current staging buffer holds what the body left at the point before: the buffer
    is written back at the last point only, and the window is live and uncut. -/
theorem before0_2_pos (c : Dev nD) (t : Fin cfg0.N) (h0 : t.val ≠ 0) (d) :
    (dat0 V c).before 2 t d = deAt0 V c (t.val - 1) (Nat.lt_of_le_of_lt (Nat.sub_le _ _) t.isLt) := by
  have hN : t.val < 128 := lt_of_lt_of_eq t.isLt (show cfg0.N = 128 from N_0)
  rw [Dat.before_out_kept _ 2 rfl t h0 (Bool.eq_false_iff.mpr fun h => by have := (flush0_2 _).mp h; dsimp only at this; omega)
    idle0_2 (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 1000000 in
/-- The body at any point: window 0's memref holds its block; the closed forms say which case the point is in; after the
    first point window 2's holds what the point before left; so the case's run applies; the invariant passes through
    unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  have hN : t.val < 128 := lt_of_lt_of_eq t.isLt (show cfg0.N = 128 from N_0)
  by_cases h0 : t.val = 0
  ·
    rw [deAt0_A V c t h0]
    unfold out0_A_2
    iintro ⟨HΦ, Ho, ⟨%d0, H0⟩, ⟨%d1, H1⟩, ⟨%d2, H2⟩⟩
    iapply ((kernelRun0_A c (grid0.coords t) _ _ _ _ _ _ ((hcond0_1 t).mpr h0) (fun h => (hcond0_2 t).mp h h0) (fun h => by have := (hcond0_3 t).mp h; omega) (iblk0 V c 0 t)).2 Set.univ _)
    isplitl [H0]; · iexact H0
    isplitl [H1]; · iexists _; iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _ _)
  · simp only [before0_2_pos V c t h0]
    by_cases h127 : t.val = 127
    ·
      rw [deAt0_C V c t h0 h127]
      unfold out0_C_2
      iintro ⟨HΦ, Ho, ⟨%d0, H0⟩, ⟨%d1, H1⟩, ⟨%d2, H2⟩⟩
      iapply ((kernelRun0_C c (grid0.coords t) _ _ _ _ _ _ (fun h => h0 ((hcond0_1 t).mp h)) ((hcond0_2 t).mpr h0) ((hcond0_3 t).mpr h127) (iblk0 V c 0 t) _).2 Set.univ _)
      isplitl [H0]; · iexact H0
      isplitl [H1]; · iexists _; iexact H1
      isplitl [H2]; · iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _)
    ·
      rw [deAt0_B V c t h0 h127]
      unfold out0_B_2
      iintro ⟨HΦ, Ho, ⟨%d0, H0⟩, ⟨%d1, H1⟩, ⟨%d2, H2⟩⟩
      iapply ((kernelRun0_B c (grid0.coords t) _ _ _ _ _ _ (fun h => h0 ((hcond0_1 t).mp h)) ((hcond0_2 t).mpr h0) (fun h => h127 ((hcond0_3 t).mp h)) (iblk0 V c 0 t) _).2 Set.univ _)
      isplitl [H0]; · iexact H0
      isplitl [H1]; · iexists _; iexact H1
      isplitl [H2]; · iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (cover0_B_2 c _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  rw [idle0_2 (cfg0.grid.coords t)]
  exact sound_body0 V c t

/-! ## The recursion in payload terms -/

theorem dvOut0_eq (x0 : Vec F S256x8192 .f32) : dvOut0 x0 = k0_pay1 x0 := by
  unfold dvOut0
  rw [View.canon_unit_zero (S := S256) hz1, View.ld_unit_zero (S := S256x8192) hz2]

/-- CASE A's value: the column sums of the block. -/
theorem out0_A_2_eq (c : Dev nD) (i : grid0.Coords) (a1 : Memref sig .tc .vmem S256x8192 .f32) (h1 : a1.IsWhole)
    (a2 : Memref sig .tc .vmem S256 .f32) (h2 : a2.IsWhole) (a3 : Memref sig .tc .vmem S8192 .f32) (h3 : a3.IsWhole)
    (hc1 : k0_cond1 i = 1#1) (hc2 : ¬k0_cond2 i = 1#1) (hc3 : ¬k0_cond3 i = 1#1) (x : Vec F S256x8192 .f32) :
    out0_A_2 c i a1 h1 a2 h2 a3 h3 hc1 hc2 hc3 x = k0_pay2 x := by
  unfold out0_A_2
  rw [View.read_writes_eq_canon _ _ _ (cover0_A_2 c i a1 h1 a2 h2 a3 h3 hc1 hc2 hc3 x)]
  unfold kernelRun0_A
  dsimp only
  rw [View.canon_unit_zero (S := S8192) hz1]
  simp only [View.readAt_eq_ld, h1.read_unread, View.ld_unit_zero (S := S256x8192) hz2]

/-- CASE B's value: the running contents plus the column sums of the block. -/
theorem out0_B_2_eq (c : Dev nD) (i : grid0.Coords) (a1 : Memref sig .tc .vmem S256x8192 .f32) (h1 : a1.IsWhole)
    (a2 : Memref sig .tc .vmem S256 .f32) (h2 : a2.IsWhole) (a3 : Memref sig .tc .vmem S8192 .f32) (h3 : a3.IsWhole)
    (hc1 : ¬k0_cond1 i = 1#1) (hc2 : k0_cond2 i = 1#1) (hc3 : ¬k0_cond3 i = 1#1) (x : Vec F S256x8192 .f32) (xo : Vec F S8192 .f32) :
    out0_B_2 c i a1 h1 a2 h2 a3 h3 hc1 hc2 hc3 x xo = k0_pay3 x xo := by
  unfold out0_B_2
  rw [View.read_writes_eq_canon _ _ _ (cover0_B_2 c i a1 h1 a2 h2 a3 h3 hc1 hc2 hc3 x xo)]
  unfold kernelRun0_B
  dsimp only
  rw [View.canon_unit_zero (S := S8192) hz1]
  simp only [View.readAt_eq_ld, h1.read_unread, h3.read_unread, View.ld_unit_zero (S := S256x8192) hz2, View.ld_unit_zero (S := S8192) hz1]

/-- CASE C's value: as case B, then the reciprocal of what was just stored. -/
theorem out0_C_2_eq (c : Dev nD) (i : grid0.Coords) (a1 : Memref sig .tc .vmem S256x8192 .f32) (h1 : a1.IsWhole)
    (a2 : Memref sig .tc .vmem S256 .f32) (h2 : a2.IsWhole) (a3 : Memref sig .tc .vmem S8192 .f32) (h3 : a3.IsWhole)
    (hc1 : ¬k0_cond1 i = 1#1) (hc2 : k0_cond2 i = 1#1) (hc3 : k0_cond3 i = 1#1) (x : Vec F S256x8192 .f32) (xo : Vec F S8192 .f32) :
    out0_C_2 c i a1 h1 a2 h2 a3 h3 hc1 hc2 hc3 x xo = k0_pay4 (k0_pay3 x xo) := by
  unfold out0_C_2
  rw [View.read_writes_eq_canon _ _ _ (cover0_C_2 c i a1 h1 a2 h2 a3 h3 hc1 hc2 hc3 x xo)]
  unfold kernelRun0_C
  dsimp only
  sl_unfold_words
  rw [View.canon_cons_unit_zero (S := S8192) hz1, View.readCov_unit_zero (S := S8192) _ hz1]
  simp only [View.readAt_eq_ld, h1.read_unread, h3.read_unread, View.ld_unit_zero (S := S256x8192) hz2, View.ld_unit_zero (S := S8192) hz1]

/-- At the first point window 2's buffer is left at the column sums of the block. -/
theorem deAt0_zero (c : Dev nD) (h : 0 < cfg0.N) : deAt0 V c 0 h = k0_pay2 (iblk0 V c 0 ⟨0, h⟩) :=
  (deAt0_A V c ⟨0, h⟩ rfl).trans
    (out0_A_2_eq c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      ((hcond0_1 ⟨0, h⟩).mpr rfl) (fun h' => (hcond0_2 ⟨0, h⟩).mp h' rfl) (fun h' => absurd ((hcond0_3 ⟨0, h⟩).mp h') (show ¬(0 : ℕ) = 127 by decide)) (iblk0 V c 0 ⟨0, h⟩))

/-- At a middle point it is left at what the point before left plus the column sums of the block. -/
theorem deAt0_mid (c : Dev nD) (n : ℕ) (hn : n + 1 < cfg0.N) (h127 : n + 1 ≠ 127) :
    deAt0 V c (n + 1) hn = k0_pay3 (iblk0 V c 0 ⟨n + 1, hn⟩) (deAt0 V c n (Nat.lt_of_succ_lt hn)) :=
  (deAt0_B V c ⟨n + 1, hn⟩ (Nat.succ_ne_zero n) h127).trans
    (out0_B_2_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
      (fun h => Nat.succ_ne_zero n ((hcond0_1 ⟨n + 1, hn⟩).mp h)) ((hcond0_2 ⟨n + 1, hn⟩).mpr (Nat.succ_ne_zero n)) (fun h => h127 ((hcond0_3 ⟨n + 1, hn⟩).mp h))
      (iblk0 V c 0 ⟨n + 1, hn⟩) (deAt0 V c n (Nat.lt_of_succ_lt hn)))

/-- At the last point it is left at the reciprocal form of that sum. -/
theorem deAt0_last (c : Dev nD) (hn : 127 < cfg0.N) :
    deAt0 V c 127 hn = k0_pay4 (k0_pay3 (iblk0 V c 0 ⟨127, hn⟩) (deAt0 V c 126 (Nat.lt_of_succ_lt hn))) :=
  (deAt0_C V c ⟨127, hn⟩ (show (127 : ℕ) ≠ 0 by decide) rfl).trans
    (out0_C_2_eq c (grid0.coords ⟨127, hn⟩) (ms0_0 ⟨127, hn⟩) (hs0_0 ⟨127, hn⟩) (ms0_1 ⟨127, hn⟩) (hs0_1 ⟨127, hn⟩) (ms0_2 ⟨127, hn⟩) (hs0_2 ⟨127, hn⟩)
      (fun h => absurd ((hcond0_1 ⟨127, hn⟩).mp h) (show ¬(127 : ℕ) = 0 by decide)) ((hcond0_2 ⟨127, hn⟩).mpr (show (127 : ℕ) ≠ 0 by decide)) ((hcond0_3 ⟨127, hn⟩).mpr rfl)
      (iblk0 V c 0 ⟨127, hn⟩) (deAt0 V c 126 (Nat.lt_of_succ_lt hn)))

end Cert.Kernel.Fr

end
-- ==== Proof.K.R1.lean ====
/-
  Region 1 of the hypergraph convolution, Z = diag(de) · Hᵀ · (dv · (X W)): the 128 row tiles of H (256 vertices
  each) are folded into ONE accumulator Z [8192, 64], which stays in the output window's staging buffer from the
  first grid point to the last and is written back to its array after the last point only:
    point 0:            Z₀   = 0 + Hₜᵀ · (dvₜ · (Xₜ W))
    point t, 0<t<127:   Zₜ   = Zₜ₋₁ + Hₜᵀ · (dvₜ · (Xₜ W))
    point 127:          Z₁₂₇ = de · (Z₁₂₆ + Hₜᵀ · (dvₜ · (Xₜ W)))      (each edge's row scaled by its degree factor)
  Everything here is stated at a PARAMETER `V` (the core's buffer contents when the region is entered) and for any
  float instance: each window's block at a point; the two branch conditions in closed form over the grid; the body
  run whole in each of its three control cases, the stores each case leaves being the witness of the run; the
  accumulator `zAt1` by recursion on the point; the pipeline's proof data and the body obligation; and last the
  recursion read in the payload terms of the body's skeleton (`zAt1_zero`, `zAt1_mid`, `zAt1_last`): every load
  and store of the body is of a whole buffer, so a case's stores read back as the payloads of the input blocks.
-/
import proofs.«156100_j87445534147336_1_alg».proof.Proof.Gen.Kernel.Launch
import proofs.«156100_j87445534147336_1_alg».proof.Proof.Gen.Kernel.Skeleton
import proofs.«156100_j87445534147336_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: Z = diag(de) · Hᵀ · (dv · X W), accumulated over the 128 row tiles

## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the two
    windows with a constant index map are fetched at the first point only, and their block never moves), for any
    proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions -/

/-- The first `scf.if`: the grid coordinate is 0 (the accumulator is zeroed). -/
abbrev cond1_0 (i : grid1.Coords) : Prop := (Scalar.cmpi .ne (Scalar.extui (Scalar.cmpi .eq (BitVec.ofNat 32 (i 0).val) 0#32)) 0#32) = 1#1
/-- It holds at the first point only — decided over the grid. -/
theorem hcond1_0 : ∀ t : Fin cfg1.N, cond1_0 (grid1.coords t) ↔ t.val = 0 :=
  (by decide +kernel : ∀ t : Fin grid1.N, cond1_0 (grid1.coords t) ↔ t.val = 0)
/-- The second `scf.if`: the grid coordinate is 127 (the accumulated sum is scaled by the edge degrees). -/
abbrev cond1_1 (i : grid1.Coords) : Prop := (Scalar.cmpi .ne (Scalar.extui (Scalar.cmpi .eq (BitVec.ofNat 32 (i 0).val) 127#32)) 0#32) = 1#1
/-- It holds at the last point only — decided over the grid. -/
theorem hcond1_1 : ∀ t : Fin cfg1.N, cond1_1 (grid1.coords t) ↔ t.val = 127 :=
  (by decide +kernel : ∀ t : Fin grid1.N, cond1_1 (grid1.coords t) ↔ t.val = 127)

/-! ## The staging memrefs the body is called with -/

/-- The output window's one staging buffer, through which its contents are stated. -/
abbrev VO1_5 : View sig .tc .vmem S8192x64 .f32 := (Memref.whole cc1_stg5_0 : Memref sig .tc .vmem S8192x64 .f32).view
abbrev ms1_0 (t : Fin cfg1.N) : Memref sig .tc .vmem S256x8192 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8192 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8192x64 .f32 := win1_5.stage (cfg1.slots t 5)
abbrev hs1_5 (t : Fin cfg1.N) : (ms1_5 t).IsWhole := hstage1_5 ((cfg1.slots t 5).cast nbuf1_5)

/-! ## The body run whole, in each of its three control cases

On whole staging memrefs, the five inputs' at their contents, the body runs to the continuation holding the inputs'
as they were and the output's buffer with the case's stores written, as pieces (last first): the pieces are the
witness the run finds. -/

set_option maxHeartbeats 1000000 in
/-- THE FIRST POINT (the coordinate is 0): the output's buffer, at anything, is zeroed, read back, and the tile's product added to it. -/
noncomputable def kernelRun1_A (c : Dev nD) (i : grid1.Coords) (arg1 : Memref sig .tc .vmem S256x8192 .f32) (harg1 : arg1.IsWhole) (arg2 : Memref sig .tc .vmem S256x64 .f32) (harg2 : arg2.IsWhole) (arg3 : Memref sig .tc .vmem S64x64 .f32) (harg3 : arg3.IsWhole) (arg4 : Memref sig .tc .vmem S256 .f32) (harg4 : arg4.IsWhole) (arg5 : Memref sig .tc .vmem S8192 .f32) (harg5 : arg5.IsWhole) (arg6 : Memref sig .tc .vmem S8192x64 .f32) (harg6 : arg6.IsWhole) (hc0 : cond1_0 i) (hc1 : ¬cond1_1 i)
    (x0 : Vec F S256x8192 .f32) (x1 : Vec F S256x64 .f32) (x2 : Vec F S64x64 .f32) (x3 : Vec F S256 .f32) (x4 : Vec F S8192 .f32) :
    { L5 : List (View.Piece (Elt F) S8192x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc1__matmul1_kernel i arg1 harg1 arg2 harg2 arg3 harg3 arg4 harg4 arg5 harg5 arg6 harg6) K } := by
  refine ⟨?_, fun E K => ?run⟩
  case run =>
    simp only [cc1__matmul1_kernel_eq_skeleton]; unfold cc1__matmul1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

set_option maxHeartbeats 1000000 in
/-- A MIDDLE POINT (the coordinate is neither 0 nor 127): the output's buffer, at its running contents `xo5`, is read and the tile's product added to it. -/
noncomputable def kernelRun1_B (c : Dev nD) (i : grid1.Coords) (arg1 : Memref sig .tc .vmem S256x8192 .f32) (harg1 : arg1.IsWhole) (arg2 : Memref sig .tc .vmem S256x64 .f32) (harg2 : arg2.IsWhole) (arg3 : Memref sig .tc .vmem S64x64 .f32) (harg3 : arg3.IsWhole) (arg4 : Memref sig .tc .vmem S256 .f32) (harg4 : arg4.IsWhole) (arg5 : Memref sig .tc .vmem S8192 .f32) (harg5 : arg5.IsWhole) (arg6 : Memref sig .tc .vmem S8192x64 .f32) (harg6 : arg6.IsWhole) (hc0 : ¬cond1_0 i) (hc1 : ¬cond1_1 i)
    (x0 : Vec F S256x8192 .f32) (x1 : Vec F S256x64 .f32) (x2 : Vec F S64x64 .f32) (x3 : Vec F S256 .f32) (x4 : Vec F S8192 .f32) (xo5 : Vec F S8192x64 .f32) :
    { L5 : List (View.Piece (Elt F) S8192x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc1__matmul1_kernel i arg1 harg1 arg2 harg2 arg3 harg3 arg4 harg4 arg5 harg5 arg6 harg6) K } := by
  refine ⟨?_, fun E K => ?run⟩
  case run =>
    simp only [cc1__matmul1_kernel_eq_skeleton]; unfold cc1__matmul1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

set_option maxHeartbeats 1000000 in
/-- THE LAST POINT (the coordinate is 127): as at a middle point, then the sum is read back and each row scaled by its edge degree. -/
noncomputable def kernelRun1_C (c : Dev nD) (i : grid1.Coords) (arg1 : Memref sig .tc .vmem S256x8192 .f32) (harg1 : arg1.IsWhole) (arg2 : Memref sig .tc .vmem S256x64 .f32) (harg2 : arg2.IsWhole) (arg3 : Memref sig .tc .vmem S64x64 .f32) (harg3 : arg3.IsWhole) (arg4 : Memref sig .tc .vmem S256 .f32) (harg4 : arg4.IsWhole) (arg5 : Memref sig .tc .vmem S8192 .f32) (harg5 : arg5.IsWhole) (arg6 : Memref sig .tc .vmem S8192x64 .f32) (harg6 : arg6.IsWhole) (hc0 : ¬cond1_0 i) (hc1 : cond1_1 i)
    (x0 : Vec F S256x8192 .f32) (x1 : Vec F S256x64 .f32) (x2 : Vec F S64x64 .f32) (x3 : Vec F S256 .f32) (x4 : Vec F S8192 .f32) (xo5 : Vec F S8192x64 .f32) :
    { L5 : List (View.Piece (Elt F) S8192x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc1__matmul1_kernel i arg1 harg1 arg2 harg2 arg3 harg3 arg4 harg4 arg5 harg5 arg6 harg6) K } := by
  refine ⟨?_, fun E K => ?run⟩
  case run =>
    simp only [cc1__matmul1_kernel_eq_skeleton]; unfold cc1__matmul1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

/-! ## What each case leaves in the output window's buffer -/

/-- The first point's two stores (the zeroing, then the sum) are each of the whole block, so they cover it. -/
theorem cover1_A_5 (c : Dev nD) (i : grid1.Coords) (arg1 : Memref sig .tc .vmem S256x8192 .f32) (harg1 : arg1.IsWhole) (arg2 : Memref sig .tc .vmem S256x64 .f32) (harg2 : arg2.IsWhole) (arg3 : Memref sig .tc .vmem S64x64 .f32) (harg3 : arg3.IsWhole) (arg4 : Memref sig .tc .vmem S256 .f32) (harg4 : arg4.IsWhole) (arg5 : Memref sig .tc .vmem S8192 .f32) (harg5 : arg5.IsWhole) (arg6 : Memref sig .tc .vmem S8192x64 .f32) (harg6 : arg6.IsWhole) (hc0 : cond1_0 i) (hc1 : ¬cond1_1 i)
    (x0 : Vec F S256x8192 .f32) (x1 : Vec F S256x64 .f32) (x2 : Vec F S64x64 .f32) (x3 : Vec F S256 .f32) (x4 : Vec F S8192 .f32) (y : S8192x64.Idx) :
    ∃ pc ∈ (kernelRun1_A c i arg1 harg1 arg2 harg2 arg3 harg3 arg4 harg4 arg5 harg5 arg6 harg6 hc0 hc1 x0 x1 x2 x3 x4).1, y ∈ pc.1.set :=
  View.cover_of_tiledL (kernelRun1_A c i arg1 harg1 arg2 harg2 arg3 harg3 arg4 harg4 arg5 harg5 arg6 harg6 hc0 hc1 x0 x1 x2 x3 x4).1 S8192x64.size (by sl_kernel_rfl) y

/-- What the first point leaves in the output's staging buffer: its pieces read back over junk. -/
def out1_A_5 (c : Dev nD) (i : grid1.Coords) (arg1 : Memref sig .tc .vmem S256x8192 .f32) (harg1 : arg1.IsWhole) (arg2 : Memref sig .tc .vmem S256x64 .f32) (harg2 : arg2.IsWhole) (arg3 : Memref sig .tc .vmem S64x64 .f32) (harg3 : arg3.IsWhole) (arg4 : Memref sig .tc .vmem S256 .f32) (harg4 : arg4.IsWhole) (arg5 : Memref sig .tc .vmem S8192 .f32) (harg5 : arg5.IsWhole) (arg6 : Memref sig .tc .vmem S8192x64 .f32) (harg6 : arg6.IsWhole) (hc0 : cond1_0 i) (hc1 : ¬cond1_1 i)
    (x0 : Vec F S256x8192 .f32) (x1 : Vec F S256x64 .f32) (x2 : Vec F S64x64 .f32) (x3 : Vec F S256 .f32) (x4 : Vec F S8192 .f32) : Vec F S8192x64 .f32 :=
  VO1_5.read (Elt F) (VO1_5.writes (Elt F) VO1_5.junk (kernelRun1_A c i arg1 harg1 arg2 harg2 arg3 harg3 arg4 harg4 arg5 harg5 arg6 harg6 hc0 hc1 x0 x1 x2 x3 x4).1)

/-- A middle point's one store is of the whole block, so it covers it. -/
theorem cover1_B_5 (c : Dev nD) (i : grid1.Coords) (arg1 : Memref sig .tc .vmem S256x8192 .f32) (harg1 : arg1.IsWhole) (arg2 : Memref sig .tc .vmem S256x64 .f32) (harg2 : arg2.IsWhole) (arg3 : Memref sig .tc .vmem S64x64 .f32) (harg3 : arg3.IsWhole) (arg4 : Memref sig .tc .vmem S256 .f32) (harg4 : arg4.IsWhole) (arg5 : Memref sig .tc .vmem S8192 .f32) (harg5 : arg5.IsWhole) (arg6 : Memref sig .tc .vmem S8192x64 .f32) (harg6 : arg6.IsWhole) (hc0 : ¬cond1_0 i) (hc1 : ¬cond1_1 i)
    (x0 : Vec F S256x8192 .f32) (x1 : Vec F S256x64 .f32) (x2 : Vec F S64x64 .f32) (x3 : Vec F S256 .f32) (x4 : Vec F S8192 .f32) (xo5 : Vec F S8192x64 .f32) (y : S8192x64.Idx) :
    ∃ pc ∈ (kernelRun1_B c i arg1 harg1 arg2 harg2 arg3 harg3 arg4 harg4 arg5 harg5 arg6 harg6 hc0 hc1 x0 x1 x2 x3 x4 xo5).1, y ∈ pc.1.set :=
  View.cover_of_tiledL (kernelRun1_B c i arg1 harg1 arg2 harg2 arg3 harg3 arg4 harg4 arg5 harg5 arg6 harg6 hc0 hc1 x0 x1 x2 x3 x4 xo5).1 S8192x64.size (by sl_kernel_rfl) y

/-- What a middle point leaves in the output's staging buffer: its piece read back over junk. -/
def out1_B_5 (c : Dev nD) (i : grid1.Coords) (arg1 : Memref sig .tc .vmem S256x8192 .f32) (harg1 : arg1.IsWhole) (arg2 : Memref sig .tc .vmem S256x64 .f32) (harg2 : arg2.IsWhole) (arg3 : Memref sig .tc .vmem S64x64 .f32) (harg3 : arg3.IsWhole) (arg4 : Memref sig .tc .vmem S256 .f32) (harg4 : arg4.IsWhole) (arg5 : Memref sig .tc .vmem S8192 .f32) (harg5 : arg5.IsWhole) (arg6 : Memref sig .tc .vmem S8192x64 .f32) (harg6 : arg6.IsWhole) (hc0 : ¬cond1_0 i) (hc1 : ¬cond1_1 i)
    (x0 : Vec F S256x8192 .f32) (x1 : Vec F S256x64 .f32) (x2 : Vec F S64x64 .f32) (x3 : Vec F S256 .f32) (x4 : Vec F S8192 .f32) (xo5 : Vec F S8192x64 .f32) : Vec F S8192x64 .f32 :=
  VO1_5.read (Elt F) (VO1_5.writes (Elt F) VO1_5.junk (kernelRun1_B c i arg1 harg1 arg2 harg2 arg3 harg3 arg4 harg4 arg5 harg5 arg6 harg6 hc0 hc1 x0 x1 x2 x3 x4 xo5).1)

/-- The last point's two stores (the sum, then the scaling) are each of the whole block, so they cover it. -/
theorem cover1_C_5 (c : Dev nD) (i : grid1.Coords) (arg1 : Memref sig .tc .vmem S256x8192 .f32) (harg1 : arg1.IsWhole) (arg2 : Memref sig .tc .vmem S256x64 .f32) (harg2 : arg2.IsWhole) (arg3 : Memref sig .tc .vmem S64x64 .f32) (harg3 : arg3.IsWhole) (arg4 : Memref sig .tc .vmem S256 .f32) (harg4 : arg4.IsWhole) (arg5 : Memref sig .tc .vmem S8192 .f32) (harg5 : arg5.IsWhole) (arg6 : Memref sig .tc .vmem S8192x64 .f32) (harg6 : arg6.IsWhole) (hc0 : ¬cond1_0 i) (hc1 : cond1_1 i)
    (x0 : Vec F S256x8192 .f32) (x1 : Vec F S256x64 .f32) (x2 : Vec F S64x64 .f32) (x3 : Vec F S256 .f32) (x4 : Vec F S8192 .f32) (xo5 : Vec F S8192x64 .f32) (y : S8192x64.Idx) :
    ∃ pc ∈ (kernelRun1_C c i arg1 harg1 arg2 harg2 arg3 harg3 arg4 harg4 arg5 harg5 arg6 harg6 hc0 hc1 x0 x1 x2 x3 x4 xo5).1, y ∈ pc.1.set :=
  View.cover_of_tiledL (kernelRun1_C c i arg1 harg1 arg2 harg2 arg3 harg3 arg4 harg4 arg5 harg5 arg6 harg6 hc0 hc1 x0 x1 x2 x3 x4 xo5).1 S8192x64.size (by sl_kernel_rfl) y

/-- What the last point leaves in the output's staging buffer: its pieces read back over junk. -/
def out1_C_5 (c : Dev nD) (i : grid1.Coords) (arg1 : Memref sig .tc .vmem S256x8192 .f32) (harg1 : arg1.IsWhole) (arg2 : Memref sig .tc .vmem S256x64 .f32) (harg2 : arg2.IsWhole) (arg3 : Memref sig .tc .vmem S64x64 .f32) (harg3 : arg3.IsWhole) (arg4 : Memref sig .tc .vmem S256 .f32) (harg4 : arg4.IsWhole) (arg5 : Memref sig .tc .vmem S8192 .f32) (harg5 : arg5.IsWhole) (arg6 : Memref sig .tc .vmem S8192x64 .f32) (harg6 : arg6.IsWhole) (hc0 : ¬cond1_0 i) (hc1 : cond1_1 i)
    (x0 : Vec F S256x8192 .f32) (x1 : Vec F S256x64 .f32) (x2 : Vec F S64x64 .f32) (x3 : Vec F S256 .f32) (x4 : Vec F S8192 .f32) (xo5 : Vec F S8192x64 .f32) : Vec F S8192x64 .f32 :=
  VO1_5.read (Elt F) (VO1_5.writes (Elt F) VO1_5.junk (kernelRun1_C c i arg1 harg1 arg2 harg2 arg3 harg3 arg4 harg4 arg5 harg5 arg6 harg6 hc0 hc1 x0 x1 x2 x3 x4 xo5).1)

/-! ## The accumulator, point by point -/

/-- THE ACCUMULATION. What the output window's staging buffer holds after the body at position `n`: the case the
    closed forms select at `n`, run at the point's memrefs and input blocks, over what this leaves at `n - 1` (the
    buffer is not written back before the last point). -/
def zAt1 (c : Dev nD) : (n : ℕ) → n < cfg1.N → Vec F S8192x64 .f32
  | 0, hn => out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr rfl) (fun h => absurd ((hcond1_1 ⟨0, hn⟩).mp h) (show ¬(0 : ℕ) = 127 by decide)) (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn =>
    if h1 : n + 1 = 127 then
      out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (zAt1 c n (Nat.lt_of_succ_lt hn))
    else
      out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (zAt1 c n (Nat.lt_of_succ_lt hn))

/-- `zAt1` at the first point. -/
theorem zAt1_A (c : Dev nD) (t : Fin cfg1.N) (h0 : t.val = 0) (h1 : ¬t.val = 127) :
    zAt1 V c t.val t.isLt = out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (fun h => h1 ((hcond1_1 t).mp h)) (iblk1 V c 0 t) (iblk1 V c 1 t) (iblk1 V c 2 t) (iblk1 V c 3 t) (iblk1 V c 4 t) := by
  obtain ⟨n, hn⟩ := t
  cases n with
  | zero => exact rfl
  | succ n => exact absurd h0 (Nat.succ_ne_zero n)

/-- `zAt1` at a middle point: over what the point before left. -/
theorem zAt1_B (c : Dev nD) (t : Fin cfg1.N) (h0 : ¬t.val = 0) (h1 : ¬t.val = 127) :
    zAt1 V c t.val t.isLt = out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (fun h => h1 ((hcond1_1 t).mp h)) (iblk1 V c 0 t) (iblk1 V c 1 t) (iblk1 V c 2 t) (iblk1 V c 3 t) (iblk1 V c 4 t) (zAt1 V c (t.val - 1) (Nat.lt_of_le_of_lt (Nat.sub_le _ _) t.isLt)) := by
  obtain ⟨n, hn⟩ := t
  cases n with
  | zero => exact absurd rfl h0
  | succ n => exact (dif_neg h1).trans rfl

/-- `zAt1` at the last point: over what the point before left. -/
theorem zAt1_C (c : Dev nD) (t : Fin cfg1.N) (h0 : ¬t.val = 0) (h1 : t.val = 127) :
    zAt1 V c t.val t.isLt = out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) ((hcond1_1 t).mpr h1) (iblk1 V c 0 t) (iblk1 V c 1 t) (iblk1 V c 2 t) (iblk1 V c 3 t) (iblk1 V c 4 t) (zAt1 V c (t.val - 1) (Nat.lt_of_le_of_lt (Nat.sub_le _ _) t.isLt)) := by
  obtain ⟨n, hn⟩ := t
  cases n with
  | zero => exact absurd rfl h0
  | succ n => exact (dif_pos h1).trans rfl

/-! ## The pipeline's proof data -/

/-- The proof data of region 1 on core `c`: the arrays as the region finds them (`V`); after the body at point `t`
    each input's buffer at its block and the output's at the accumulator `zAt1`; the invariant holds the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => zAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = zAt1 V c t.val t.isLt := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
/-- After the first point the output's staging buffer holds what the body left at the point before: the buffer is
    written back at the last point only, so never between two points; the window is live and uncut. -/
theorem before1_5_kept (c : Dev nD) (t : Fin cfg1.N) (h0 : ¬t.val = 0) (d) :
    (dat1 V c).before 5 t d = zAt1 V c (t.val - 1) (Nat.lt_of_le_of_lt (Nat.sub_le _ _) t.isLt) := by
  have hN : t.val < 128 := lt_of_lt_of_eq t.isLt (show cfg1.N = 128 from N_1)
  rw [Dat.before_out_kept _ 5 rfl t h0 (Bool.eq_false_iff.mpr fun h => by have := (flush1_5 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 1000000 in
/-- The body at any point: the inputs' memrefs hold their blocks; the closed forms say which case the point is in;
    after the first point the output's buffer holds what the point before left; so the case's run applies; the
    invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  have hN : t.val < 128 := lt_of_lt_of_eq t.isLt (show cfg1.N = 128 from N_1)
  by_cases h0 : t.val = 0
  · by_cases h1 : t.val = 127
    · exfalso; omega
    ·
      rw [zAt1_A V c t h0 h1]
      unfold out1_A_5
      iintro ⟨HΦ, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_A_5 c _ _ _ _ _ _ _ _ _ _ _ _ _ _ _ _ _ _ _ _)
  · by_cases h1 : t.val = 127
    ·
      rw [zAt1_C V c t h0 h1]
      simp only [before1_5_kept V c t h0]
      unfold out1_C_5
      iintro ⟨HΦ, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _)
    ·
      rw [zAt1_B V c t h0 h1]
      simp only [before1_5_kept V c t h0]
      unfold out1_B_5
      iintro ⟨HΦ, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_B_5 c _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The recursion in payload terms

Every load and store of the body is of a whole staging buffer, through the whole-shape rectangle at zero offsets: a
load reads the buffer's contents, a store leaves its payload, and a load after a store reads that payload. So each
case's pieces read back as the skeleton's payloads of the input blocks. -/

theorem hoff1_2 : (![0, 0] : Fin 2 → Nat) = fun _ => 0 := funext fun a => by fin_cases a <;> rfl
theorem hoff1_1 : (![0] : Fin 1 → Nat) = fun _ => 0 := funext fun a => by fin_cases a <;> rfl

/-- THE FIRST POINT leaves the tile's product added to the zero block: the zeroing store is read back (the second
    payload's last operand), then covered by the sum. -/
theorem out1_A_5_eq (c : Dev nD) (i : grid1.Coords) (arg1 : Memref sig .tc .vmem S256x8192 .f32) (harg1 : arg1.IsWhole) (arg2 : Memref sig .tc .vmem S256x64 .f32) (harg2 : arg2.IsWhole) (arg3 : Memref sig .tc .vmem S64x64 .f32) (harg3 : arg3.IsWhole) (arg4 : Memref sig .tc .vmem S256 .f32) (harg4 : arg4.IsWhole) (arg5 : Memref sig .tc .vmem S8192 .f32) (harg5 : arg5.IsWhole) (arg6 : Memref sig .tc .vmem S8192x64 .f32) (harg6 : arg6.IsWhole) (hc0 : cond1_0 i) (hc1 : ¬cond1_1 i)
    (x0 : Vec F S256x8192 .f32) (x1 : Vec F S256x64 .f32) (x2 : Vec F S64x64 .f32) (x3 : Vec F S256 .f32) (x4 : Vec F S8192 .f32) :
    out1_A_5 c i arg1 harg1 arg2 harg2 arg3 harg3 arg4 harg4 arg5 harg5 arg6 harg6 hc0 hc1 x0 x1 x2 x3 x4 = k1_pay2 x0 x1 x2 x3 (k1_pay1 (F := F)) := by
  unfold out1_A_5
  rw [View.read_writes_eq_canon _ _ _ (cover1_A_5 c i arg1 harg1 arg2 harg2 arg3 harg3 arg4 harg4 arg5 harg5 arg6 harg6 hc0 hc1 x0 x1 x2 x3 x4)]
  unfold kernelRun1_A
  dsimp only
  sl_unfold_words
  rw [View.canon_cons_unit_zero (S := S8192x64) hoff1_2, View.readCov_unit_zero (S := S8192x64) _ hoff1_2]
  simp only [View.readAt_eq_ld, harg1.read_unread, harg2.read_unread, harg3.read_unread, harg4.read_unread, harg5.read_unread, harg6.read_unread,
    View.ld_unit_zero (S := S256x8192) hoff1_2, View.ld_unit_zero (S := S256x64) hoff1_2, View.ld_unit_zero (S := S64x64) hoff1_2,
    View.ld_unit_zero (S := S256) hoff1_1, View.ld_unit_zero (S := S8192) hoff1_1, View.ld_unit_zero (S := S8192x64) hoff1_2]

/-- A MIDDLE POINT leaves the tile's product added to what the buffer held. -/
theorem out1_B_5_eq (c : Dev nD) (i : grid1.Coords) (arg1 : Memref sig .tc .vmem S256x8192 .f32) (harg1 : arg1.IsWhole) (arg2 : Memref sig .tc .vmem S256x64 .f32) (harg2 : arg2.IsWhole) (arg3 : Memref sig .tc .vmem S64x64 .f32) (harg3 : arg3.IsWhole) (arg4 : Memref sig .tc .vmem S256 .f32) (harg4 : arg4.IsWhole) (arg5 : Memref sig .tc .vmem S8192 .f32) (harg5 : arg5.IsWhole) (arg6 : Memref sig .tc .vmem S8192x64 .f32) (harg6 : arg6.IsWhole) (hc0 : ¬cond1_0 i) (hc1 : ¬cond1_1 i)
    (x0 : Vec F S256x8192 .f32) (x1 : Vec F S256x64 .f32) (x2 : Vec F S64x64 .f32) (x3 : Vec F S256 .f32) (x4 : Vec F S8192 .f32) (xo5 : Vec F S8192x64 .f32) :
    out1_B_5 c i arg1 harg1 arg2 harg2 arg3 harg3 arg4 harg4 arg5 harg5 arg6 harg6 hc0 hc1 x0 x1 x2 x3 x4 xo5 = k1_pay2 x0 x1 x2 x3 xo5 := by
  unfold out1_B_5
  rw [View.read_writes_eq_canon _ _ _ (cover1_B_5 c i arg1 harg1 arg2 harg2 arg3 harg3 arg4 harg4 arg5 harg5 arg6 harg6 hc0 hc1 x0 x1 x2 x3 x4 xo5)]
  unfold kernelRun1_B
  dsimp only
  sl_unfold_words
  rw [View.canon_unit_zero (S := S8192x64) hoff1_2]
  simp only [View.readAt_eq_ld, harg1.read_unread, harg2.read_unread, harg3.read_unread, harg4.read_unread, harg5.read_unread, harg6.read_unread,
    View.ld_unit_zero (S := S256x8192) hoff1_2, View.ld_unit_zero (S := S256x64) hoff1_2, View.ld_unit_zero (S := S64x64) hoff1_2,
    View.ld_unit_zero (S := S256) hoff1_1, View.ld_unit_zero (S := S8192) hoff1_1, View.ld_unit_zero (S := S8192x64) hoff1_2]

/-- THE LAST POINT leaves the sum, read back, with each row scaled by its edge degree. -/
theorem out1_C_5_eq (c : Dev nD) (i : grid1.Coords) (arg1 : Memref sig .tc .vmem S256x8192 .f32) (harg1 : arg1.IsWhole) (arg2 : Memref sig .tc .vmem S256x64 .f32) (harg2 : arg2.IsWhole) (arg3 : Memref sig .tc .vmem S64x64 .f32) (harg3 : arg3.IsWhole) (arg4 : Memref sig .tc .vmem S256 .f32) (harg4 : arg4.IsWhole) (arg5 : Memref sig .tc .vmem S8192 .f32) (harg5 : arg5.IsWhole) (arg6 : Memref sig .tc .vmem S8192x64 .f32) (harg6 : arg6.IsWhole) (hc0 : ¬cond1_0 i) (hc1 : cond1_1 i)
    (x0 : Vec F S256x8192 .f32) (x1 : Vec F S256x64 .f32) (x2 : Vec F S64x64 .f32) (x3 : Vec F S256 .f32) (x4 : Vec F S8192 .f32) (xo5 : Vec F S8192x64 .f32) :
    out1_C_5 c i arg1 harg1 arg2 harg2 arg3 harg3 arg4 harg4 arg5 harg5 arg6 harg6 hc0 hc1 x0 x1 x2 x3 x4 xo5 = k1_pay3 x4 (k1_pay2 x0 x1 x2 x3 xo5) := by
  unfold out1_C_5
  rw [View.read_writes_eq_canon _ _ _ (cover1_C_5 c i arg1 harg1 arg2 harg2 arg3 harg3 arg4 harg4 arg5 harg5 arg6 harg6 hc0 hc1 x0 x1 x2 x3 x4 xo5)]
  unfold kernelRun1_C
  dsimp only
  sl_unfold_words
  rw [View.canon_cons_unit_zero (S := S8192x64) hoff1_2, View.readCov_unit_zero (S := S8192x64) _ hoff1_2]
  simp only [View.readAt_eq_ld, harg1.read_unread, harg2.read_unread, harg3.read_unread, harg4.read_unread, harg5.read_unread, harg6.read_unread,
    View.ld_unit_zero (S := S256x8192) hoff1_2, View.ld_unit_zero (S := S256x64) hoff1_2, View.ld_unit_zero (S := S64x64) hoff1_2,
    View.ld_unit_zero (S := S256) hoff1_1, View.ld_unit_zero (S := S8192) hoff1_1, View.ld_unit_zero (S := S8192x64) hoff1_2]

/-- After the first point the accumulator is the first tile's product over the zero block. -/
theorem zAt1_zero (c : Dev nD) (h : 0 < cfg1.N) :
    zAt1 V c 0 h = k1_pay2 (iblk1 V c 0 ⟨0, h⟩) (iblk1 V c 1 ⟨0, h⟩) (iblk1 V c 2 ⟨0, h⟩) (iblk1 V c 3 ⟨0, h⟩) (k1_pay1 (F := F)) :=
  (zAt1_A V c ⟨0, h⟩ rfl (show ¬(0 : ℕ) = 127 by decide)).trans
    (out1_A_5_eq c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) ((hcond1_0 ⟨0, h⟩).mpr rfl) (fun hh => (show ¬(0 : ℕ) = 127 by decide) ((hcond1_1 ⟨0, h⟩).mp hh)) (iblk1 V c 0 ⟨0, h⟩) (iblk1 V c 1 ⟨0, h⟩) (iblk1 V c 2 ⟨0, h⟩) (iblk1 V c 3 ⟨0, h⟩) (iblk1 V c 4 ⟨0, h⟩))

/-- After a middle point it is that tile's product over what the point before left. -/
theorem zAt1_mid (c : Dev nD) (n : ℕ) (hn : n + 1 < cfg1.N) (h127 : n + 1 ≠ 127) :
    zAt1 V c (n + 1) hn = k1_pay2 (iblk1 V c 0 ⟨n + 1, hn⟩) (iblk1 V c 1 ⟨n + 1, hn⟩) (iblk1 V c 2 ⟨n + 1, hn⟩) (iblk1 V c 3 ⟨n + 1, hn⟩) (zAt1 V c n (Nat.lt_of_succ_lt hn)) :=
  (zAt1_B V c ⟨n + 1, hn⟩ (Nat.succ_ne_zero n) h127).trans
    (out1_B_5_eq c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun hh => Nat.succ_ne_zero n ((hcond1_0 ⟨n + 1, hn⟩).mp hh)) (fun hh => h127 ((hcond1_1 ⟨n + 1, hn⟩).mp hh)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (zAt1 V c n (Nat.lt_of_succ_lt hn)))

/-- After the last point it is the last tile's product over what point 126 left, each row scaled by its edge degree. -/
theorem zAt1_last (c : Dev nD) (hn : 127 < cfg1.N) :
    zAt1 V c 127 hn = k1_pay3 (iblk1 V c 4 ⟨127, hn⟩) (k1_pay2 (iblk1 V c 0 ⟨127, hn⟩) (iblk1 V c 1 ⟨127, hn⟩) (iblk1 V c 2 ⟨127, hn⟩) (iblk1 V c 3 ⟨127, hn⟩) (zAt1 V c 126 (Nat.lt_of_succ_lt hn))) :=
  (zAt1_C V c ⟨127, hn⟩ (show ¬(127 : ℕ) = 0 by decide) rfl).trans
    (out1_C_5_eq c (grid1.coords ⟨127, hn⟩) (ms1_0 ⟨127, hn⟩) (hs1_0 ⟨127, hn⟩) (ms1_1 ⟨127, hn⟩) (hs1_1 ⟨127, hn⟩) (ms1_2 ⟨127, hn⟩) (hs1_2 ⟨127, hn⟩) (ms1_3 ⟨127, hn⟩) (hs1_3 ⟨127, hn⟩) (ms1_4 ⟨127, hn⟩) (hs1_4 ⟨127, hn⟩) (ms1_5 ⟨127, hn⟩) (hs1_5 ⟨127, hn⟩) (fun hh => (show ¬(127 : ℕ) = 0 by decide) ((hcond1_0 ⟨127, hn⟩).mp hh)) ((hcond1_1 ⟨127, hn⟩).mpr rfl) (iblk1 V c 0 ⟨127, hn⟩) (iblk1 V c 1 ⟨127, hn⟩) (iblk1 V c 2 ⟨127, hn⟩) (iblk1 V c 3 ⟨127, hn⟩) (iblk1 V c 4 ⟨127, hn⟩) (zAt1 V c 126 (Nat.lt_of_succ_lt hn)))

end Cert.Kernel.Fr

end
-- ==== Proof.K.R2.lean ====
import proofs.«156100_j87445534147336_1_alg».proof.Proof.Gen.Kernel.Launch
import proofs.«156100_j87445534147336_1_alg».proof.Proof.Gen.Kernel.Skeleton
import proofs.«156100_j87445534147336_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the third pipeline, at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (a block of rows of the incidence matrix, fetched at every point): its current staging buffer
    holds its block, for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the whole edge-feature array; its index never moves, so it is fetched at the first point only
    and stays): the same statement. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (a block of the vertex scaling, fetched at every point). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 (the whole bias; fetched at the first point only and stays). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer as one whole rectangle -/

abbrev r2_0 : Rect S256x8192 := Rect.unit (s := S256x8192) ![0, 0] S256x8192.size inb_S256x8192_S256x8192_0_0
abbrev r2_1 : Rect S8192x64 := Rect.unit (s := S8192x64) ![0, 0] S8192x64.size inb_S8192x64_S8192x64_0_0
abbrev r2_2 : Rect S256 := Rect.unit (s := S256) ![0] S256.size inb_S256_S256_0
abbrev r2_3 : Rect S64 := Rect.unit (s := S64) ![0] S64.size inb_S64_S64_0
abbrev r2_4 : Rect S256x64 := Rect.unit (s := S256x64) ![0, 0] S256x64.size inb_S256x64_S256x64_0_0

/-! ## What the body leaves in the output window's buffer -/

/-- Window 4's staging buffer after the body, from the input windows' blocks: its one store, of the payload of
    the four whole loads, as a single piece. -/
def out2 (x0 : Vec F S256x8192 .f32) (x1 : Vec F S8192x64 .f32) (x2 : Vec F S256 .f32) (x3 : Vec F S64 .f32) : Vec F S256x64 .f32 :=
  View.canon [⟨r2_4, k2_pay1 (View.ld x0 r2_0) (View.ld x1 r2_1) (View.ld x2 r2_2) (View.ld x3 r2_3)⟩]

/-- The one store is of the whole buffer, so it covers it. -/
theorem cover2_4 (p0 : Vec F S256x64 .f32) (y : S256x64.Idx) :
    ∃ pc ∈ ([⟨r2_4, p0⟩] : List (View.Piece (Elt F) S256x64 .f32)), y ∈ pc.1.set :=
  View.cover_of_tiled [⟨r2_4, p0⟩] S256x64.size (by rfl) y

/-! ## The body's triple -/

set_option maxHeartbeats 1000000 in
/-- The kernel body on whole staging memrefs, the inputs' at contents `xW` and the output's at anything, runs to the
    continuation holding the inputs' as they were and the output's at `out2` of the inputs'. The load of the
    output's buffer before the store reads a value nothing uses. -/
theorem sound_kernel2 (c : Dev nD) (E : Set ℕ) (i : grid2.Coords)
    (arg1 : Memref sig .tc .vmem S256x8192 .f32) (harg1 : arg1.IsWhole) (arg2 : Memref sig .tc .vmem S8192x64 .f32) (harg2 : arg2.IsWhole)
    (arg3 : Memref sig .tc .vmem S256 .f32) (harg3 : arg3.IsWhole) (arg4 : Memref sig .tc .vmem S64 .f32) (harg4 : arg4.IsWhole)
    (arg5 : Memref sig .tc .vmem S256x64 .f32) (harg5 : arg5.IsWhole)
    (x0 : Vec F S256x8192 .f32) (x1 : Vec F S8192x64 .f32) (x2 : Vec F S256 .f32) (x3 : Vec F S64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out2 x0 x1 x2 x3)) -∗ K ⟨⟩))
      ⊢ wp frame (wpE (defs₀ (F := F)) Variants.none c none) E (cc2__matmul2_kernel i arg1 harg1 arg2 harg2 arg3 harg3 arg4 harg4 arg5 harg5) K := by
  simp only [cc2__matmul2_kernel_eq_skeleton]; unfold cc2__matmul2_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of the third pipeline on core `c`: the arrays as the region finds them (`V`); after the body at
    point `t` each input's buffer at its block and the output's at `out2` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so `sound_kernel2` applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The output's buffer is the payload of the blocks -/

/-- The whole rectangles start at offset zero on every axis. -/
theorem zeros2 : (![0, 0] : Fin 2 → Nat) = fun _ => 0 := funext fun a => by fin_cases a <;> rfl
theorem zeros1 : (![0] : Fin 1 → Nat) = fun _ => 0 := funext fun a => by fin_cases a <;> rfl

/-- A single piece over the whole buffer is its payload, and a load of a whole buffer is the buffer. -/
theorem out2_eq (x0 : Vec F S256x8192 .f32) (x1 : Vec F S8192x64 .f32) (x2 : Vec F S256 .f32) (x3 : Vec F S64 .f32) :
    out2 x0 x1 x2 x3 = k2_pay1 x0 x1 x2 x3 := by
  unfold out2
  rw [View.canon_unit_zero (S := S256x64) zeros2]
  simp only [View.ld_unit_zero (S := S256x8192) zeros2, View.ld_unit_zero (S := S8192x64) zeros2,
    View.ld_unit_zero (S := S256) zeros1, View.ld_unit_zero (S := S64) zeros1]

end Cert.Kernel.Fr

end
-- ==== Proof.K.Run.lean ====
import proofs.«156100_j87445534147336_1_alg».proof.Proof.K.R0
import proofs.«156100_j87445534147336_1_alg».proof.Proof.K.R1
import proofs.«156100_j87445534147336_1_alg».proof.Proof.K.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main: three kernel regions in a row, and the frame

@main is three custom calls on one core, with no host operation between them. The core's buffer contents at the
four boundaries are a fold from the launch memory: a region's exit contents are its entry contents with each of its
windows' arrays replaced by what the pipeline leaves there (an input window's array as entered, an output window's
with its write-backs folded in). Each region is a segment over the thread state "every unscoped buffer whole at the
boundary's contents, the generator register at some state, nothing owed"; the three segments chain literally, and
the launch theorem for a list of segments gives: every weakly fair execution terminates and the final memory holds,
at every unscoped buffer, the last boundary's contents. Reading the fold back at an argument gives the launch
contents (no region writes an argument), which is the frame claim; reading it at the other arrays gives the
equations the value modules start from. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch (region 0's entry). -/
abbrev W0 : Dev nD → Valuation τ sig (Elt F) := fun c b => (s₀ m ρ).mem ((c : Dev nD), b)
/-- The same read at the core's references (what region 0's proof data take). -/
abbrev V0 : (c : Dev nD) → (b : Ref sig .tc) → Buf (Elt F) ((c : Thread nD τ).loc b) := fun c b => W0 m ρ c b

/-- At region 0's exit: its arrays at what the pipeline leaves (an input as entered, an output's write-backs folded
    in), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the core's references. -/
abbrev V1 : (c : Dev nD) → (b : Ref sig .tc) → Buf (Elt F) ((c : Thread nD τ).loc b) := fun c b => W1 m ρ c b
/-- At region 0's exit each of its arrays holds what the pipeline leaves, and every other buffer what it held at
    entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves (an input as entered, an output's write-backs folded
    in), every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the core's references. -/
abbrev V2 : (c : Dev nD) → (b : Ref sig .tc) → Buf (Elt F) ((c : Thread nD τ).loc b) := fun c b => W2 m ρ c b
/-- At region 1's exit each of its arrays holds what the pipeline leaves, and every other buffer what it held at
    entry. -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- At region 2's exit: its arrays at what the pipeline leaves (an input as entered, an output's write-backs folded
    in), every other buffer as entered. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the core's references. -/
abbrev V3 : (c : Dev nD) → (b : Ref sig .tc) → Buf (Elt F) ((c : Thread nD τ).loc b) := fun c b => W3 m ρ c b
/-- At region 2's exit each of its arrays holds what the pipeline leaves, and every other buffer what it held at
    entry. -/
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-! ## The fold read back

No region writes an argument: a region reads it through an input window (whose array the pipeline leaves as entered)
or does not touch it. An output window's array is what the pipeline leaves. -/

theorem V0_eq (c : Dev nD) (b : Ref sig .tc) : V0 m ρ c b = m ((c : Thread nD τ).loc b) := rfl

theorem V1_main_arg0 (c : Dev nD) : V1 m ρ c main_arg0 = m ((c : Thread nD τ).loc main_arg0) :=
  (W1_of_ne m ρ c main_arg0 (by decide)).trans rfl
theorem V1_main_arg1 (c : Dev nD) : V1 m ρ c main_arg1 = m ((c : Thread nD τ).loc main_arg1) :=
  (W1_arr m ρ c 0).trans (((dat0 (V0 m ρ) c).arrAt_in 0 rfl _).trans (A_eq0 (V0 m ρ) c 0))
theorem V1_main_arg2 (c : Dev nD) : V1 m ρ c main_arg2 = m ((c : Thread nD τ).loc main_arg2) :=
  (W1_of_ne m ρ c main_arg2 (by decide)).trans rfl
theorem V1_main_arg3 (c : Dev nD) : V1 m ρ c main_arg3 = m ((c : Thread nD τ).loc main_arg3) :=
  (W1_of_ne m ρ c main_arg3 (by decide)).trans rfl
theorem V1_main_v0_0 (c : Dev nD) : V1 m ρ c main_v0_0 = (dat0 (V0 m ρ) c).arrAt 1 cfg0.N := W1_arr m ρ c 1
theorem V1_main_v0_1 (c : Dev nD) : V1 m ρ c main_v0_1 = (dat0 (V0 m ρ) c).arrAt 2 cfg0.N := W1_arr m ρ c 2

theorem V2_main_arg0 (c : Dev nD) : V2 m ρ c main_arg0 = m ((c : Thread nD τ).loc main_arg0) :=
  (W2_arr m ρ c 1).trans ((((dat1 (V1 m ρ) c).arrAt_in 1 rfl _).trans (A_eq1 (V1 m ρ) c 1)).trans (V1_main_arg0 m ρ c))
theorem V2_main_arg1 (c : Dev nD) : V2 m ρ c main_arg1 = m ((c : Thread nD τ).loc main_arg1) :=
  (W2_arr m ρ c 0).trans ((((dat1 (V1 m ρ) c).arrAt_in 0 rfl _).trans (A_eq1 (V1 m ρ) c 0)).trans (V1_main_arg1 m ρ c))
theorem V2_main_arg2 (c : Dev nD) : V2 m ρ c main_arg2 = m ((c : Thread nD τ).loc main_arg2) :=
  (W2_arr m ρ c 2).trans ((((dat1 (V1 m ρ) c).arrAt_in 2 rfl _).trans (A_eq1 (V1 m ρ) c 2)).trans (V1_main_arg2 m ρ c))
theorem V2_main_arg3 (c : Dev nD) : V2 m ρ c main_arg3 = m ((c : Thread nD τ).loc main_arg3) :=
  (W2_of_ne m ρ c main_arg3 (by decide)).trans (V1_main_arg3 m ρ c)
theorem V2_main_v0_0 (c : Dev nD) : V2 m ρ c main_v0_0 = (dat0 (V0 m ρ) c).arrAt 1 cfg0.N :=
  (W2_arr m ρ c 3).trans ((((dat1 (V1 m ρ) c).arrAt_in 3 rfl _).trans (A_eq1 (V1 m ρ) c 3)).trans (V1_main_v0_0 m ρ c))
theorem V2_main_v1 (c : Dev nD) : V2 m ρ c main_v1 = (dat1 (V1 m ρ) c).arrAt 5 cfg1.N := W2_arr m ρ c 5

theorem W3_main_arg0 (c : Dev nD) : W3 m ρ c (Proc.devRef .tc main_arg0) = m ((c : Thread nD τ).loc main_arg0) :=
  (W3_of_ne m ρ c main_arg0 (by decide)).trans (V2_main_arg0 m ρ c)
theorem W3_main_arg1 (c : Dev nD) : W3 m ρ c (Proc.devRef .tc main_arg1) = m ((c : Thread nD τ).loc main_arg1) :=
  (W3_arr m ρ c 0).trans ((((dat2 (V2 m ρ) c).arrAt_in 0 rfl _).trans (A_eq2 (V2 m ρ) c 0)).trans (V2_main_arg1 m ρ c))
theorem W3_main_arg2 (c : Dev nD) : W3 m ρ c (Proc.devRef .tc main_arg2) = m ((c : Thread nD τ).loc main_arg2) :=
  (W3_of_ne m ρ c main_arg2 (by decide)).trans (V2_main_arg2 m ρ c)
theorem W3_main_arg3 (c : Dev nD) : W3 m ρ c (Proc.devRef .tc main_arg3) = m ((c : Thread nD τ).loc main_arg3) :=
  (W3_arr m ρ c 3).trans ((((dat2 (V2 m ρ) c).arrAt_in 3 rfl _).trans (A_eq2 (V2 m ρ) c 3)).trans (V2_main_arg3 m ρ c))
theorem W3_main_v2 (c : Dev nD) : W3 m ρ c (Proc.devRef .tc main_v2) = (dat2 (V2 m ρ) c).arrAt 4 cfg2.N := W3_arr m ρ c 4

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents: a literal match, so that the pinned
    configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The regions as segments -/

-- a library lemma stated over the pinned configuration unifies with the printed one only when unification may
-- unfold plain definitions in a metavariable's type
set_option backward.isDefEq.respectTransparency.types false in
/-- REGION 0 over the thread state: entered from every unscoped buffer at `W0`, left at `W1`. Its arrays are
    split out of the unscoped buffers and put back at the exit contents; the generator register goes into the class
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 1 over the thread state: entered from every unscoped buffer at `W1`, left at `W2`. Its arrays are
    split out of the unscoped buffers and put back at the exit contents; the generator register goes into the class
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 2 over the thread state: entered from every unscoped buffer at `W2`, left at `W3`. Its arrays are
    split out of the unscoped buffers and put back at the exit contents; the generator register goes into the class
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: a region per custom call. -/
abbrev segs : List (Pipeline.Seg (pcfgs (F := F)) adm (pdats m ρ) () defs₀ 𝒱₀ L lv) :=
  [ .region (reg0 m ρ), .region (reg1 m ρ), .region (reg2 m ρ) ]
/-- @main is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: from any memory with zero counters, every weakly fair execution of @main terminates, nothing faulting,
    and in every final memory each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: every weakly fair execution of @main terminates, nothing faulting, and every final memory holds each
    argument array as launched: the run, each argument's buffer read off the last boundary's contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs (onTc (τ := τ) (main (F := F))) ⟨m, fun _ => 0, ρ⟩).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.Kernel.Fr

end
-- ==== Proof.KI.R0.lean ====
/-
  Region 0 (the degree kernel, 128 points): its frame half at the entry contents `V`, and the recursion of the
  output it carries across points, in payload terms, at any float instance.

  At every point the body stores window 1 whole (the reciprocal square root of the block's row sums plus ε). Window 2
  is ONE block, written back after the last point only: the body stores the block's column sums at point 0, adds
  them to what the point before left at every later point, and at point 127 then replaces the sum by 1/(sum + ε).
  So the control has three cases, selected by the grid point alone; each case's whole-body run finds what it leaves
  in window 2's buffer, and `deAt0` is the recursion over the points.
-/
import proofs.«156100_j87445534147336_1_alg».proof.Proof.Gen.KernelIdeal.Launch
import proofs.«156100_j87445534147336_1_alg».proof.Proof.Gen.KernelIdeal.Skeleton
import proofs.«156100_j87445534147336_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's three conditions, in closed form over the grid -/

/-- The first conditional is taken at the first point only. -/
theorem hcond0_1 : ∀ t : Fin cfg0.N, k0_cond1 (grid0.coords t) = 1#1 ↔ t.val = 0 :=
  (by decide +kernel : ∀ t : Fin grid0.N, k0_cond1 (grid0.coords t) = 1#1 ↔ t.val = 0)
/-- The second at every point but the first. -/
theorem hcond0_2 : ∀ t : Fin cfg0.N, k0_cond2 (grid0.coords t) = 1#1 ↔ t.val ≠ 0 :=
  (by decide +kernel : ∀ t : Fin grid0.N, k0_cond2 (grid0.coords t) = 1#1 ↔ t.val ≠ 0)
/-- The third at the last point only. -/
theorem hcond0_3 : ∀ t : Fin cfg0.N, k0_cond3 (grid0.coords t) = 1#1 ↔ t.val = 127 :=
  (by decide +kernel : ∀ t : Fin grid0.N, k0_cond3 (grid0.coords t) = 1#1 ↔ t.val = 127)

/-- At every coordinate one of the first two conditionals is taken, so window 2 is stored everywhere. -/
theorem idle0_2 : ∀ i : grid0.Coords, cfg0.idle 2 i = false := fun i =>
  (by decide +kernel : ∀ v : Fin 128,
    (!(Scalar.cmpi .ne (Scalar.extui (Scalar.cmpi .eq (BitVec.ofNat 32 v.val) 0#32)) 0#32 == 1#1)
      && !(Scalar.cmpi .ne (Scalar.extui (Scalar.cmpi .ne (BitVec.ofNat 32 v.val) 0#32)) 0#32 == 1#1)
      && !(Scalar.cmpi .ne (Scalar.extui (Scalar.cmpi .eq (BitVec.ofNat 32 v.val) 127#32)) 0#32 == 1#1)) = false) (i 0)

private theorem hz1 : (![0] : Fin 1 → Nat) = fun _ => 0 := funext fun a => by fin_cases a; rfl
private theorem hz2 : (![0, 0] : Fin 2 → Nat) = fun _ => 0 := funext fun a => by fin_cases a <;> rfl

/-! ## Window 1: one covering store at every point -/

abbrev r0_0 : Rect S256x8192 := Rect.unit (s := S256x8192) ![0, 0] S256x8192.size inb_S256x8192_S256x8192_0_0
abbrev r0_1 : Rect S256 := Rect.unit (s := S256) ![0] S256.size inb_S256_S256_0
abbrev r0_2 : Rect S8192 := Rect.unit (s := S8192) ![0] S8192.size inb_S8192_S8192_0

/-- What the body leaves in window 1's buffer, from window 0's block: its one store. -/
def dvOut0 (x0 : Vec F S256x8192 .f32) : Vec F S256 .f32 :=
  View.canon [⟨r0_1, k0_pay1 (View.ld x0 r0_0)⟩]

/-- That store covers the buffer. -/
theorem cover0_1 (p0 : Vec F S256 .f32) (y : S256.Idx) :
    ∃ pc ∈ ([⟨r0_1, p0⟩] : List (View.Piece (Elt F) S256 .f32)), y ∈ pc.1.set :=
  ⟨_, List.mem_singleton_self _, View.mem_set_unit_zero (S := S256) hz1 inb_S256_S256_0 y⟩

/-! ## The body, case by case -/

set_option maxHeartbeats 1000000 in
/-- CASE A (the first conditional alone taken: point 0). On whole staging memrefs, window 0's at its block and the
    outputs' at anything, the body runs to the continuation holding window 0's as it was, window 1's at `dvOut0` of the
    block and window 2's with the pieces the run finds written. -/
noncomputable def kernelRun0_A (c : Dev nD) (i : grid0.Coords) (arg1 : Memref sig .tc .vmem S256x8192 .f32) (harg1 : arg1.IsWhole)
    (arg2 : Memref sig .tc .vmem S256 .f32) (harg2 : arg2.IsWhole) (arg3 : Memref sig .tc .vmem S8192 .f32) (harg3 : arg3.IsWhole)
    (hc1 : k0_cond1 i = 1#1) (hc2 : ¬k0_cond2 i = 1#1) (hc3 : ¬k0_cond3 i = 1#1)
    (x0 : Vec F S256x8192 .f32) :
    { L2 : List (View.Piece (Elt F) S8192 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ owns (c : Thread nD τ) arg2 fullShare (dvOut0 x0)
                ∗ (∃ f, arg3.view.loc (c : Thread nD τ) ↦[arg3.view.set]{fullShare} arg3.view.writes (Elt F) f L2)) -∗ K ⟨⟩))
          ⊢ wp frame (wpE (defs₀ (F := F)) Variants.none c none) E (cc0__degree_kernel i arg1 harg1 arg2 harg2 arg3 harg3) K } := by
  refine ⟨?_, fun E K => ?run⟩
  case run =>
    simp only [cc0__degree_kernel_eq_skeleton]; unfold cc0__degree_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc1 | exact hc2 | exact hc3)
    sl_step
    iapply Hk
    isplitl [H0]
    · iexists _; isplitr; · ipureintro; exact harg1.read_unread _
      iexact H0
    isplitl [H1]
    · iexists _; isplitr
      swap; · iexact H1
      ipureintro
      exact (View.read_writes_eq_canon _ _ _ (cover0_1 _)).trans (by unfold dvOut0; simp only [View.readAt_eq_ld, harg1.read_unread])
    iexists _; iexact H2

set_option maxHeartbeats 1000000 in
/-- CASE B (the second conditional alone taken: points 1 to 126). As case A, window 2's buffer entering at the running
    contents `xo2`, which the body reads before it stores. -/
noncomputable def kernelRun0_B (c : Dev nD) (i : grid0.Coords) (arg1 : Memref sig .tc .vmem S256x8192 .f32) (harg1 : arg1.IsWhole)
    (arg2 : Memref sig .tc .vmem S256 .f32) (harg2 : arg2.IsWhole) (arg3 : Memref sig .tc .vmem S8192 .f32) (harg3 : arg3.IsWhole)
    (hc1 : ¬k0_cond1 i = 1#1) (hc2 : k0_cond2 i = 1#1) (hc3 : ¬k0_cond3 i = 1#1)
    (x0 : Vec F S256x8192 .f32) (xo2 : Vec F S8192 .f32) :
    { L2 : List (View.Piece (Elt F) S8192 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xo2
            ∗ (iprop(owns (c : Thread nD τ) arg1 fullShare x0 ∗ owns (c : Thread nD τ) arg2 fullShare (dvOut0 x0)
                ∗ (∃ f, arg3.view.loc (c : Thread nD τ) ↦[arg3.view.set]{fullShare} arg3.view.writes (Elt F) f L2)) -∗ K ⟨⟩))
          ⊢ wp frame (wpE (defs₀ (F := F)) Variants.none c none) E (cc0__degree_kernel i arg1 harg1 arg2 harg2 arg3 harg3) K } := by
  refine ⟨?_, fun E K => ?run⟩
  case run =>
    simp only [cc0__degree_kernel_eq_skeleton]; unfold cc0__degree_kernel_skel
    unfold owns
    iintro ⟨⟨%f0, %hf0, H0⟩, ⟨%d1, %f1, -, H1⟩, ⟨%f2, %hf2, H2⟩, Hk⟩
    obtain rfl := harg1.eq_unread hf0; obtain rfl := harg3.eq_unread hf2
    sl_exec (disch := first | exact hc1 | exact hc2 | exact hc3)
    sl_step
    iapply Hk
    isplitl [H0]
    · iexists _; isplitr; · ipureintro; exact harg1.read_unread _
      iexact H0
    isplitl [H1]
    · iexists _; isplitr
      swap; · iexact H1
      ipureintro
      exact (View.read_writes_eq_canon _ _ _ (cover0_1 _)).trans (by unfold dvOut0; simp only [View.readAt_eq_ld, harg1.read_unread])
    iexists _; iexact H2

set_option maxHeartbeats 1000000 in
/-- CASE C (the second and third conditionals taken: point 127). As case B; the third conditional reads back what the
    second stored. -/
noncomputable def kernelRun0_C (c : Dev nD) (i : grid0.Coords) (arg1 : Memref sig .tc .vmem S256x8192 .f32) (harg1 : arg1.IsWhole)
    (arg2 : Memref sig .tc .vmem S256 .f32) (harg2 : arg2.IsWhole) (arg3 : Memref sig .tc .vmem S8192 .f32) (harg3 : arg3.IsWhole)
    (hc1 : ¬k0_cond1 i = 1#1) (hc2 : k0_cond2 i = 1#1) (hc3 : k0_cond3 i = 1#1)
    (x0 : Vec F S256x8192 .f32) (xo2 : Vec F S8192 .f32) :
    { L2 : List (View.Piece (Elt F) S8192 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xo2
            ∗ (iprop(owns (c : Thread nD τ) arg1 fullShare x0 ∗ owns (c : Thread nD τ) arg2 fullShare (dvOut0 x0)
                ∗ (∃ f, arg3.view.loc (c : Thread nD τ) ↦[arg3.view.set]{fullShare} arg3.view.writes (Elt F) f L2)) -∗ K ⟨⟩))
          ⊢ wp frame (wpE (defs₀ (F := F)) Variants.none c none) E (cc0__degree_kernel i arg1 harg1 arg2 harg2 arg3 harg3) K } := by
  refine ⟨?_, fun E K => ?run⟩
  case run =>
    simp only [cc0__degree_kernel_eq_skeleton]; unfold cc0__degree_kernel_skel
    unfold owns
    iintro ⟨⟨%f0, %hf0, H0⟩, ⟨%d1, %f1, -, H1⟩, ⟨%f2, %hf2, H2⟩, Hk⟩
    obtain rfl := harg1.eq_unread hf0; obtain rfl := harg3.eq_unread hf2
    sl_exec (disch := first | exact hc1 | exact hc2 | exact hc3)
    sl_step
    iapply Hk
    isplitl [H0]
    · iexists _; isplitr; · ipureintro; exact harg1.read_unread _
      iexact H0
    isplitl [H1]
    · iexists _; isplitr
      swap; · iexact H1
      ipureintro
      exact (View.read_writes_eq_canon _ _ _ (cover0_1 _)).trans (by unfold dvOut0; simp only [View.readAt_eq_ld, harg1.read_unread])
    iexists _; iexact H2

/-! ## What each case leaves in window 2's buffer -/

/-- One staging buffer of window 2, through which its contents are stated (the choice does not matter). -/
abbrev VO0_2 : View sig .tc .vmem S8192 .f32 := (Memref.whole cc0_stg2_0 : Memref sig .tc .vmem S8192 .f32).view

/-- Case A's pieces for window 2 tile its buffer, so they cover it. -/
theorem cover0_A_2 (c : Dev nD) (i : grid0.Coords) (arg1 : Memref sig .tc .vmem S256x8192 .f32) (harg1 : arg1.IsWhole)
    (arg2 : Memref sig .tc .vmem S256 .f32) (harg2 : arg2.IsWhole) (arg3 : Memref sig .tc .vmem S8192 .f32) (harg3 : arg3.IsWhole)
    (hc1 : k0_cond1 i = 1#1) (hc2 : ¬k0_cond2 i = 1#1) (hc3 : ¬k0_cond3 i = 1#1)
    (x0 : Vec F S256x8192 .f32) (y : S8192.Idx) :
    ∃ pc ∈ (kernelRun0_A c i arg1 harg1 arg2 harg2 arg3 harg3 hc1 hc2 hc3 x0).1, y ∈ pc.1.set :=
  View.cover_of_tiledL (kernelRun0_A c i arg1 harg1 arg2 harg2 arg3 harg3 hc1 hc2 hc3 x0).1 S8192.size (by sl_kernel_rfl) y

/-- What case A leaves in window 2's buffer: its pieces read back over junk. -/
def out0_A_2 (c : Dev nD) (i : grid0.Coords) (arg1 : Memref sig .tc .vmem S256x8192 .f32) (harg1 : arg1.IsWhole)
    (arg2 : Memref sig .tc .vmem S256 .f32) (harg2 : arg2.IsWhole) (arg3 : Memref sig .tc .vmem S8192 .f32) (harg3 : arg3.IsWhole)
    (hc1 : k0_cond1 i = 1#1) (hc2 : ¬k0_cond2 i = 1#1) (hc3 : ¬k0_cond3 i = 1#1)
    (x0 : Vec F S256x8192 .f32) : Vec F S8192 .f32 :=
  VO0_2.read (Elt F) (VO0_2.writes (Elt F) VO0_2.junk (kernelRun0_A c i arg1 harg1 arg2 harg2 arg3 harg3 hc1 hc2 hc3 x0).1)

/-- Case B's pieces for window 2 tile its buffer, so they cover it. -/
theorem cover0_B_2 (c : Dev nD) (i : grid0.Coords) (arg1 : Memref sig .tc .vmem S256x8192 .f32) (harg1 : arg1.IsWhole)
    (arg2 : Memref sig .tc .vmem S256 .f32) (harg2 : arg2.IsWhole) (arg3 : Memref sig .tc .vmem S8192 .f32) (harg3 : arg3.IsWhole)
    (hc1 : ¬k0_cond1 i = 1#1) (hc2 : k0_cond2 i = 1#1) (hc3 : ¬k0_cond3 i = 1#1)
    (x0 : Vec F S256x8192 .f32) (xo2 : Vec F S8192 .f32) (y : S8192.Idx) :
    ∃ pc ∈ (kernelRun0_B c i arg1 harg1 arg2 harg2 arg3 harg3 hc1 hc2 hc3 x0 xo2).1, y ∈ pc.1.set :=
  View.cover_of_tiledL (kernelRun0_B c i arg1 harg1 arg2 harg2 arg3 harg3 hc1 hc2 hc3 x0 xo2).1 S8192.size (by sl_kernel_rfl) y

/-- What case B leaves in window 2's buffer: its pieces read back over junk. -/
def out0_B_2 (c : Dev nD) (i : grid0.Coords) (arg1 : Memref sig .tc .vmem S256x8192 .f32) (harg1 : arg1.IsWhole)
    (arg2 : Memref sig .tc .vmem S256 .f32) (harg2 : arg2.IsWhole) (arg3 : Memref sig .tc .vmem S8192 .f32) (harg3 : arg3.IsWhole)
    (hc1 : ¬k0_cond1 i = 1#1) (hc2 : k0_cond2 i = 1#1) (hc3 : ¬k0_cond3 i = 1#1)
    (x0 : Vec F S256x8192 .f32) (xo2 : Vec F S8192 .f32) : Vec F S8192 .f32 :=
  VO0_2.read (Elt F) (VO0_2.writes (Elt F) VO0_2.junk (kernelRun0_B c i arg1 harg1 arg2 harg2 arg3 harg3 hc1 hc2 hc3 x0 xo2).1)

/-- Case C's pieces for window 2 tile its buffer, so they cover it. -/
theorem cover0_C_2 (c : Dev nD) (i : grid0.Coords) (arg1 : Memref sig .tc .vmem S256x8192 .f32) (harg1 : arg1.IsWhole)
    (arg2 : Memref sig .tc .vmem S256 .f32) (harg2 : arg2.IsWhole) (arg3 : Memref sig .tc .vmem S8192 .f32) (harg3 : arg3.IsWhole)
    (hc1 : ¬k0_cond1 i = 1#1) (hc2 : k0_cond2 i = 1#1) (hc3 : k0_cond3 i = 1#1)
    (x0 : Vec F S256x8192 .f32) (xo2 : Vec F S8192 .f32) (y : S8192.Idx) :
    ∃ pc ∈ (kernelRun0_C c i arg1 harg1 arg2 harg2 arg3 harg3 hc1 hc2 hc3 x0 xo2).1, y ∈ pc.1.set :=
  View.cover_of_tiledL (kernelRun0_C c i arg1 harg1 arg2 harg2 arg3 harg3 hc1 hc2 hc3 x0 xo2).1 S8192.size (by sl_kernel_rfl) y

/-- What case C leaves in window 2's buffer: its pieces read back over junk. -/
def out0_C_2 (c : Dev nD) (i : grid0.Coords) (arg1 : Memref sig .tc .vmem S256x8192 .f32) (harg1 : arg1.IsWhole)
    (arg2 : Memref sig .tc .vmem S256 .f32) (harg2 : arg2.IsWhole) (arg3 : Memref sig .tc .vmem S8192 .f32) (harg3 : arg3.IsWhole)
    (hc1 : ¬k0_cond1 i = 1#1) (hc2 : k0_cond2 i = 1#1) (hc3 : k0_cond3 i = 1#1)
    (x0 : Vec F S256x8192 .f32) (xo2 : Vec F S8192 .f32) : Vec F S8192 .f32 :=
  VO0_2.read (Elt F) (VO0_2.writes (Elt F) VO0_2.junk (kernelRun0_C c i arg1 harg1 arg2 harg2 arg3 harg3 hc1 hc2 hc3 x0 xo2).1)

/-! ## The staging memrefs at a point -/

/-- Each window's current staging memref at point `t`, as the pipeline passes it, and its wholeness. -/
abbrev ms0_0 (t : Fin cfg0.N) : Memref sig .tc .vmem S256x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192 .f32 := win0_2.stage (cfg0.slots t 2)
abbrev hs0_2 (t : Fin cfg0.N) : (ms0_2 t).IsWhole := hstage0_2 ((cfg0.slots t 2).cast nbuf0_2)

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What window 2's buffer holds after each point -/

/-- THE ACCUMULATION. What window 2's staging buffer holds after the body at position `n`: the case the closed forms
    select at `n`, run at the point's memrefs and window 0's block, over what this leaves at `n - 1` (the buffer is
    not written back between). -/
def deAt0 (c : Dev nD) : (n : ℕ) → n < cfg0.N → Vec F S8192 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩)
      ((hcond0_1 ⟨0, hn⟩).mpr rfl) (fun h => (hcond0_2 ⟨0, hn⟩).mp h rfl) (fun h => absurd ((hcond0_3 ⟨0, hn⟩).mp h) (show ¬(0 : ℕ) = 127 by decide))
      (iblk0 V c 0 ⟨0, hn⟩)
  | n + 1, hn =>
    if h127 : n + 1 = 127 then
      out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
        (fun h => Nat.succ_ne_zero n ((hcond0_1 ⟨n + 1, hn⟩).mp h)) ((hcond0_2 ⟨n + 1, hn⟩).mpr (Nat.succ_ne_zero n)) ((hcond0_3 ⟨n + 1, hn⟩).mpr h127)
        (iblk0 V c 0 ⟨n + 1, hn⟩) (deAt0 c n (Nat.lt_of_succ_lt hn))
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
        (fun h => Nat.succ_ne_zero n ((hcond0_1 ⟨n + 1, hn⟩).mp h)) ((hcond0_2 ⟨n + 1, hn⟩).mpr (Nat.succ_ne_zero n)) (fun h => h127 ((hcond0_3 ⟨n + 1, hn⟩).mp h))
        (iblk0 V c 0 ⟨n + 1, hn⟩) (deAt0 c n (Nat.lt_of_succ_lt hn))

/-- `deAt0` at the first point: case A's contents. -/
theorem deAt0_A (c : Dev nD) (t : Fin cfg0.N) (h0 : t.val = 0) :
    deAt0 V c t.val t.isLt = out0_A_2 c (grid0.coords t) (ms0_0 t) (hs0_0 t) (ms0_1 t) (hs0_1 t) (ms0_2 t) (hs0_2 t)
      ((hcond0_1 t).mpr h0) (fun h => (hcond0_2 t).mp h h0) (fun h => by have := (hcond0_3 t).mp h; omega) (iblk0 V c 0 t) := by
  obtain ⟨n, hn⟩ := t
  cases n with
  | zero => exact rfl
  | succ n => exact absurd h0 (Nat.succ_ne_zero n)

/-- `deAt0` at a middle point: case B's contents, over what the point before left. -/
theorem deAt0_B (c : Dev nD) (t : Fin cfg0.N) (h0 : t.val ≠ 0) (h127 : t.val ≠ 127) :
    deAt0 V c t.val t.isLt = out0_B_2 c (grid0.coords t) (ms0_0 t) (hs0_0 t) (ms0_1 t) (hs0_1 t) (ms0_2 t) (hs0_2 t)
      (fun h => h0 ((hcond0_1 t).mp h)) ((hcond0_2 t).mpr h0) (fun h => h127 ((hcond0_3 t).mp h)) (iblk0 V c 0 t)
      (deAt0 V c (t.val - 1) (Nat.lt_of_le_of_lt (Nat.sub_le _ _) t.isLt)) := by
  obtain ⟨n, hn⟩ := t
  cases n with
  | zero => exact absurd rfl h0
  | succ n => exact (dif_neg h127).trans rfl

/-- `deAt0` at the last point: case C's contents, over what the point before left. -/
theorem deAt0_C (c : Dev nD) (t : Fin cfg0.N) (h0 : t.val ≠ 0) (h127 : t.val = 127) :
    deAt0 V c t.val t.isLt = out0_C_2 c (grid0.coords t) (ms0_0 t) (hs0_0 t) (ms0_1 t) (hs0_1 t) (ms0_2 t) (hs0_2 t)
      (fun h => h0 ((hcond0_1 t).mp h)) ((hcond0_2 t).mpr h0) ((hcond0_3 t).mpr h127) (iblk0 V c 0 t)
      (deAt0 V c (t.val - 1) (Nat.lt_of_le_of_lt (Nat.sub_le _ _) t.isLt)) := by
  obtain ⟨n, hn⟩ := t
  cases n with
  | zero => exact absurd rfl h0
  | succ n => exact (dif_pos h127).trans rfl

/-! ## The pipeline's proof data -/

/-- The proof data of pipeline 0 on core `c`: the arrays as the region finds them; after the body at point `t` window 0's
    buffer at its block, window 1's at `dvOut0` of it and window 2's at `deAt0`; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => dvOut0 (iblk0 V c 0 t)
    | ⟨2, _⟩ => deAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = dvOut0 (iblk0 V c 0 t) := by dsimp only [dat0]
theorem after0_2 (c : Dev nD) (t : Fin cfg0.N) : (dat0 V c).after 2 t = deAt0 V c t.val t.isLt := by dsimp only [dat0]

/-- Window 0's current staging buffer holds its block at every point, for any proof data whose array is the entry
    contents' and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

/-- After the first point window 2's current staging buffer holds what the body left at the point before: the buffer
    is written back at the last point only, and the window is live and uncut. -/
theorem before0_2_pos (c : Dev nD) (t : Fin cfg0.N) (h0 : t.val ≠ 0) (d) :
    (dat0 V c).before 2 t d = deAt0 V c (t.val - 1) (Nat.lt_of_le_of_lt (Nat.sub_le _ _) t.isLt) := by
  have hN : t.val < 128 := lt_of_lt_of_eq t.isLt (show cfg0.N = 128 from N_0)
  rw [Dat.before_out_kept _ 2 rfl t h0 (Bool.eq_false_iff.mpr fun h => by have := (flush0_2 _).mp h; dsimp only at this; omega)
    idle0_2 (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 1000000 in
/-- The body at any point: window 0's memref holds its block; the closed forms say which case the point is in; after the
    first point window 2's holds what the point before left; so the case's run applies; the invariant passes through
    unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  have hN : t.val < 128 := lt_of_lt_of_eq t.isLt (show cfg0.N = 128 from N_0)
  by_cases h0 : t.val = 0
  ·
    rw [deAt0_A V c t h0]
    unfold out0_A_2
    iintro ⟨HΦ, Ho, ⟨%d0, H0⟩, ⟨%d1, H1⟩, ⟨%d2, H2⟩⟩
    iapply ((kernelRun0_A c (grid0.coords t) _ _ _ _ _ _ ((hcond0_1 t).mpr h0) (fun h => (hcond0_2 t).mp h h0) (fun h => by have := (hcond0_3 t).mp h; omega) (iblk0 V c 0 t)).2 Set.univ _)
    isplitl [H0]; · iexact H0
    isplitl [H1]; · iexists _; iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _ _)
  · simp only [before0_2_pos V c t h0]
    by_cases h127 : t.val = 127
    ·
      rw [deAt0_C V c t h0 h127]
      unfold out0_C_2
      iintro ⟨HΦ, Ho, ⟨%d0, H0⟩, ⟨%d1, H1⟩, ⟨%d2, H2⟩⟩
      iapply ((kernelRun0_C c (grid0.coords t) _ _ _ _ _ _ (fun h => h0 ((hcond0_1 t).mp h)) ((hcond0_2 t).mpr h0) ((hcond0_3 t).mpr h127) (iblk0 V c 0 t) _).2 Set.univ _)
      isplitl [H0]; · iexact H0
      isplitl [H1]; · iexists _; iexact H1
      isplitl [H2]; · iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _)
    ·
      rw [deAt0_B V c t h0 h127]
      unfold out0_B_2
      iintro ⟨HΦ, Ho, ⟨%d0, H0⟩, ⟨%d1, H1⟩, ⟨%d2, H2⟩⟩
      iapply ((kernelRun0_B c (grid0.coords t) _ _ _ _ _ _ (fun h => h0 ((hcond0_1 t).mp h)) ((hcond0_2 t).mpr h0) (fun h => h127 ((hcond0_3 t).mp h)) (iblk0 V c 0 t) _).2 Set.univ _)
      isplitl [H0]; · iexact H0
      isplitl [H1]; · iexists _; iexact H1
      isplitl [H2]; · iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (cover0_B_2 c _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  rw [idle0_2 (cfg0.grid.coords t)]
  exact sound_body0 V c t

/-! ## The recursion in payload terms -/

theorem dvOut0_eq (x0 : Vec F S256x8192 .f32) : dvOut0 x0 = k0_pay1 x0 := by
  unfold dvOut0
  rw [View.canon_unit_zero (S := S256) hz1, View.ld_unit_zero (S := S256x8192) hz2]

/-- CASE A's value: the column sums of the block. -/
theorem out0_A_2_eq (c : Dev nD) (i : grid0.Coords) (a1 : Memref sig .tc .vmem S256x8192 .f32) (h1 : a1.IsWhole)
    (a2 : Memref sig .tc .vmem S256 .f32) (h2 : a2.IsWhole) (a3 : Memref sig .tc .vmem S8192 .f32) (h3 : a3.IsWhole)
    (hc1 : k0_cond1 i = 1#1) (hc2 : ¬k0_cond2 i = 1#1) (hc3 : ¬k0_cond3 i = 1#1) (x : Vec F S256x8192 .f32) :
    out0_A_2 c i a1 h1 a2 h2 a3 h3 hc1 hc2 hc3 x = k0_pay2 x := by
  unfold out0_A_2
  rw [View.read_writes_eq_canon _ _ _ (cover0_A_2 c i a1 h1 a2 h2 a3 h3 hc1 hc2 hc3 x)]
  unfold kernelRun0_A
  dsimp only
  rw [View.canon_unit_zero (S := S8192) hz1]
  simp only [View.readAt_eq_ld, h1.read_unread, View.ld_unit_zero (S := S256x8192) hz2]

/-- CASE B's value: the running contents plus the column sums of the block. -/
theorem out0_B_2_eq (c : Dev nD) (i : grid0.Coords) (a1 : Memref sig .tc .vmem S256x8192 .f32) (h1 : a1.IsWhole)
    (a2 : Memref sig .tc .vmem S256 .f32) (h2 : a2.IsWhole) (a3 : Memref sig .tc .vmem S8192 .f32) (h3 : a3.IsWhole)
    (hc1 : ¬k0_cond1 i = 1#1) (hc2 : k0_cond2 i = 1#1) (hc3 : ¬k0_cond3 i = 1#1) (x : Vec F S256x8192 .f32) (xo : Vec F S8192 .f32) :
    out0_B_2 c i a1 h1 a2 h2 a3 h3 hc1 hc2 hc3 x xo = k0_pay3 x xo := by
  unfold out0_B_2
  rw [View.read_writes_eq_canon _ _ _ (cover0_B_2 c i a1 h1 a2 h2 a3 h3 hc1 hc2 hc3 x xo)]
  unfold kernelRun0_B
  dsimp only
  rw [View.canon_unit_zero (S := S8192) hz1]
  simp only [View.readAt_eq_ld, h1.read_unread, h3.read_unread, View.ld_unit_zero (S := S256x8192) hz2, View.ld_unit_zero (S := S8192) hz1]

/-- CASE C's value: as case B, then the reciprocal of what was just stored. -/
theorem out0_C_2_eq (c : Dev nD) (i : grid0.Coords) (a1 : Memref sig .tc .vmem S256x8192 .f32) (h1 : a1.IsWhole)
    (a2 : Memref sig .tc .vmem S256 .f32) (h2 : a2.IsWhole) (a3 : Memref sig .tc .vmem S8192 .f32) (h3 : a3.IsWhole)
    (hc1 : ¬k0_cond1 i = 1#1) (hc2 : k0_cond2 i = 1#1) (hc3 : k0_cond3 i = 1#1) (x : Vec F S256x8192 .f32) (xo : Vec F S8192 .f32) :
    out0_C_2 c i a1 h1 a2 h2 a3 h3 hc1 hc2 hc3 x xo = k0_pay4 (k0_pay3 x xo) := by
  unfold out0_C_2
  rw [View.read_writes_eq_canon _ _ _ (cover0_C_2 c i a1 h1 a2 h2 a3 h3 hc1 hc2 hc3 x xo)]
  unfold kernelRun0_C
  dsimp only
  sl_unfold_words
  rw [View.canon_cons_unit_zero (S := S8192) hz1, View.readCov_unit_zero (S := S8192) _ hz1]
  simp only [View.readAt_eq_ld, h1.read_unread, h3.read_unread, View.ld_unit_zero (S := S256x8192) hz2, View.ld_unit_zero (S := S8192) hz1]

/-- At the first point window 2's buffer is left at the column sums of the block. -/
theorem deAt0_zero (c : Dev nD) (h : 0 < cfg0.N) : deAt0 V c 0 h = k0_pay2 (iblk0 V c 0 ⟨0, h⟩) :=
  (deAt0_A V c ⟨0, h⟩ rfl).trans
    (out0_A_2_eq c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      ((hcond0_1 ⟨0, h⟩).mpr rfl) (fun h' => (hcond0_2 ⟨0, h⟩).mp h' rfl) (fun h' => absurd ((hcond0_3 ⟨0, h⟩).mp h') (show ¬(0 : ℕ) = 127 by decide)) (iblk0 V c 0 ⟨0, h⟩))

/-- At a middle point it is left at what the point before left plus the column sums of the block. -/
theorem deAt0_mid (c : Dev nD) (n : ℕ) (hn : n + 1 < cfg0.N) (h127 : n + 1 ≠ 127) :
    deAt0 V c (n + 1) hn = k0_pay3 (iblk0 V c 0 ⟨n + 1, hn⟩) (deAt0 V c n (Nat.lt_of_succ_lt hn)) :=
  (deAt0_B V c ⟨n + 1, hn⟩ (Nat.succ_ne_zero n) h127).trans
    (out0_B_2_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
      (fun h => Nat.succ_ne_zero n ((hcond0_1 ⟨n + 1, hn⟩).mp h)) ((hcond0_2 ⟨n + 1, hn⟩).mpr (Nat.succ_ne_zero n)) (fun h => h127 ((hcond0_3 ⟨n + 1, hn⟩).mp h))
      (iblk0 V c 0 ⟨n + 1, hn⟩) (deAt0 V c n (Nat.lt_of_succ_lt hn)))

/-- At the last point it is left at the reciprocal form of that sum. -/
theorem deAt0_last (c : Dev nD) (hn : 127 < cfg0.N) :
    deAt0 V c 127 hn = k0_pay4 (k0_pay3 (iblk0 V c 0 ⟨127, hn⟩) (deAt0 V c 126 (Nat.lt_of_succ_lt hn))) :=
  (deAt0_C V c ⟨127, hn⟩ (show (127 : ℕ) ≠ 0 by decide) rfl).trans
    (out0_C_2_eq c (grid0.coords ⟨127, hn⟩) (ms0_0 ⟨127, hn⟩) (hs0_0 ⟨127, hn⟩) (ms0_1 ⟨127, hn⟩) (hs0_1 ⟨127, hn⟩) (ms0_2 ⟨127, hn⟩) (hs0_2 ⟨127, hn⟩)
      (fun h => absurd ((hcond0_1 ⟨127, hn⟩).mp h) (show ¬(127 : ℕ) = 0 by decide)) ((hcond0_2 ⟨127, hn⟩).mpr (show (127 : ℕ) ≠ 0 by decide)) ((hcond0_3 ⟨127, hn⟩).mpr rfl)
      (iblk0 V c 0 ⟨127, hn⟩) (deAt0 V c 126 (Nat.lt_of_succ_lt hn)))

end Cert.KernelIdeal.Fr

end
-- ==== Proof.KI.R1.lean ====
/-
  Region 1 of the hypergraph convolution, Z = diag(de) · Hᵀ · (dv · (X W)): the 128 row tiles of H (256 vertices
  each) are folded into ONE accumulator Z [8192, 64], which stays in the output window's staging buffer from the
  first grid point to the last and is written back to its array after the last point only:
    point 0:            Z₀   = 0 + Hₜᵀ · (dvₜ · (Xₜ W))
    point t, 0<t<127:   Zₜ   = Zₜ₋₁ + Hₜᵀ · (dvₜ · (Xₜ W))
    point 127:          Z₁₂₇ = de · (Z₁₂₆ + Hₜᵀ · (dvₜ · (Xₜ W)))      (each edge's row scaled by its degree factor)
  Everything here is stated at a PARAMETER `V` (the core's buffer contents when the region is entered) and for any
  float instance: each window's block at a point; the two branch conditions in closed form over the grid; the body
  run whole in each of its three control cases, the stores each case leaves being the witness of the run; the
  accumulator `zAt1` by recursion on the point; the pipeline's proof data and the body obligation; and last the
  recursion read in the payload terms of the body's skeleton (`zAt1_zero`, `zAt1_mid`, `zAt1_last`): every load
  and store of the body is of a whole buffer, so a case's stores read back as the payloads of the input blocks.
-/
import proofs.«156100_j87445534147336_1_alg».proof.Proof.Gen.KernelIdeal.Launch
import proofs.«156100_j87445534147336_1_alg».proof.Proof.Gen.KernelIdeal.Skeleton
import proofs.«156100_j87445534147336_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: Z = diag(de) · Hᵀ · (dv · X W), accumulated over the 128 row tiles

## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the two
    windows with a constant index map are fetched at the first point only, and their block never moves), for any
    proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions -/

/-- The first `scf.if`: the grid coordinate is 0 (the accumulator is zeroed). -/
abbrev cond1_0 (i : grid1.Coords) : Prop := (Scalar.cmpi .ne (Scalar.extui (Scalar.cmpi .eq (BitVec.ofNat 32 (i 0).val) 0#32)) 0#32) = 1#1
/-- It holds at the first point only — decided over the grid. -/
theorem hcond1_0 : ∀ t : Fin cfg1.N, cond1_0 (grid1.coords t) ↔ t.val = 0 :=
  (by decide +kernel : ∀ t : Fin grid1.N, cond1_0 (grid1.coords t) ↔ t.val = 0)
/-- The second `scf.if`: the grid coordinate is 127 (the accumulated sum is scaled by the edge degrees). -/
abbrev cond1_1 (i : grid1.Coords) : Prop := (Scalar.cmpi .ne (Scalar.extui (Scalar.cmpi .eq (BitVec.ofNat 32 (i 0).val) 127#32)) 0#32) = 1#1
/-- It holds at the last point only — decided over the grid. -/
theorem hcond1_1 : ∀ t : Fin cfg1.N, cond1_1 (grid1.coords t) ↔ t.val = 127 :=
  (by decide +kernel : ∀ t : Fin grid1.N, cond1_1 (grid1.coords t) ↔ t.val = 127)

/-! ## The staging memrefs the body is called with -/

/-- The output window's one staging buffer, through which its contents are stated. -/
abbrev VO1_5 : View sig .tc .vmem S8192x64 .f32 := (Memref.whole cc1_stg5_0 : Memref sig .tc .vmem S8192x64 .f32).view
abbrev ms1_0 (t : Fin cfg1.N) : Memref sig .tc .vmem S256x8192 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8192 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8192x64 .f32 := win1_5.stage (cfg1.slots t 5)
abbrev hs1_5 (t : Fin cfg1.N) : (ms1_5 t).IsWhole := hstage1_5 ((cfg1.slots t 5).cast nbuf1_5)

/-! ## The body run whole, in each of its three control cases

On whole staging memrefs, the five inputs' at their contents, the body runs to the continuation holding the inputs'
as they were and the output's buffer with the case's stores written, as pieces (last first): the pieces are the
witness the run finds. -/

set_option maxHeartbeats 1000000 in
/-- THE FIRST POINT (the coordinate is 0): the output's buffer, at anything, is zeroed, read back, and the tile's product added to it. -/
noncomputable def kernelRun1_A (c : Dev nD) (i : grid1.Coords) (arg1 : Memref sig .tc .vmem S256x8192 .f32) (harg1 : arg1.IsWhole) (arg2 : Memref sig .tc .vmem S256x64 .f32) (harg2 : arg2.IsWhole) (arg3 : Memref sig .tc .vmem S64x64 .f32) (harg3 : arg3.IsWhole) (arg4 : Memref sig .tc .vmem S256 .f32) (harg4 : arg4.IsWhole) (arg5 : Memref sig .tc .vmem S8192 .f32) (harg5 : arg5.IsWhole) (arg6 : Memref sig .tc .vmem S8192x64 .f32) (harg6 : arg6.IsWhole) (hc0 : cond1_0 i) (hc1 : ¬cond1_1 i)
    (x0 : Vec F S256x8192 .f32) (x1 : Vec F S256x64 .f32) (x2 : Vec F S64x64 .f32) (x3 : Vec F S256 .f32) (x4 : Vec F S8192 .f32) :
    { L5 : List (View.Piece (Elt F) S8192x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc1__matmul1_kernel i arg1 harg1 arg2 harg2 arg3 harg3 arg4 harg4 arg5 harg5 arg6 harg6) K } := by
  refine ⟨?_, fun E K => ?run⟩
  case run =>
    simp only [cc1__matmul1_kernel_eq_skeleton]; unfold cc1__matmul1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

set_option maxHeartbeats 1000000 in
/-- A MIDDLE POINT (the coordinate is neither 0 nor 127): the output's buffer, at its running contents `xo5`, is read and the tile's product added to it. -/
noncomputable def kernelRun1_B (c : Dev nD) (i : grid1.Coords) (arg1 : Memref sig .tc .vmem S256x8192 .f32) (harg1 : arg1.IsWhole) (arg2 : Memref sig .tc .vmem S256x64 .f32) (harg2 : arg2.IsWhole) (arg3 : Memref sig .tc .vmem S64x64 .f32) (harg3 : arg3.IsWhole) (arg4 : Memref sig .tc .vmem S256 .f32) (harg4 : arg4.IsWhole) (arg5 : Memref sig .tc .vmem S8192 .f32) (harg5 : arg5.IsWhole) (arg6 : Memref sig .tc .vmem S8192x64 .f32) (harg6 : arg6.IsWhole) (hc0 : ¬cond1_0 i) (hc1 : ¬cond1_1 i)
    (x0 : Vec F S256x8192 .f32) (x1 : Vec F S256x64 .f32) (x2 : Vec F S64x64 .f32) (x3 : Vec F S256 .f32) (x4 : Vec F S8192 .f32) (xo5 : Vec F S8192x64 .f32) :
    { L5 : List (View.Piece (Elt F) S8192x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc1__matmul1_kernel i arg1 harg1 arg2 harg2 arg3 harg3 arg4 harg4 arg5 harg5 arg6 harg6) K } := by
  refine ⟨?_, fun E K => ?run⟩
  case run =>
    simp only [cc1__matmul1_kernel_eq_skeleton]; unfold cc1__matmul1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

set_option maxHeartbeats 1000000 in
/-- THE LAST POINT (the coordinate is 127): as at a middle point, then the sum is read back and each row scaled by its edge degree. -/
noncomputable def kernelRun1_C (c : Dev nD) (i : grid1.Coords) (arg1 : Memref sig .tc .vmem S256x8192 .f32) (harg1 : arg1.IsWhole) (arg2 : Memref sig .tc .vmem S256x64 .f32) (harg2 : arg2.IsWhole) (arg3 : Memref sig .tc .vmem S64x64 .f32) (harg3 : arg3.IsWhole) (arg4 : Memref sig .tc .vmem S256 .f32) (harg4 : arg4.IsWhole) (arg5 : Memref sig .tc .vmem S8192 .f32) (harg5 : arg5.IsWhole) (arg6 : Memref sig .tc .vmem S8192x64 .f32) (harg6 : arg6.IsWhole) (hc0 : ¬cond1_0 i) (hc1 : cond1_1 i)
    (x0 : Vec F S256x8192 .f32) (x1 : Vec F S256x64 .f32) (x2 : Vec F S64x64 .f32) (x3 : Vec F S256 .f32) (x4 : Vec F S8192 .f32) (xo5 : Vec F S8192x64 .f32) :
    { L5 : List (View.Piece (Elt F) S8192x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc1__matmul1_kernel i arg1 harg1 arg2 harg2 arg3 harg3 arg4 harg4 arg5 harg5 arg6 harg6) K } := by
  refine ⟨?_, fun E K => ?run⟩
  case run =>
    simp only [cc1__matmul1_kernel_eq_skeleton]; unfold cc1__matmul1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

/-! ## What each case leaves in the output window's buffer -/

/-- The first point's two stores (the zeroing, then the sum) are each of the whole block, so they cover it. -/
theorem cover1_A_5 (c : Dev nD) (i : grid1.Coords) (arg1 : Memref sig .tc .vmem S256x8192 .f32) (harg1 : arg1.IsWhole) (arg2 : Memref sig .tc .vmem S256x64 .f32) (harg2 : arg2.IsWhole) (arg3 : Memref sig .tc .vmem S64x64 .f32) (harg3 : arg3.IsWhole) (arg4 : Memref sig .tc .vmem S256 .f32) (harg4 : arg4.IsWhole) (arg5 : Memref sig .tc .vmem S8192 .f32) (harg5 : arg5.IsWhole) (arg6 : Memref sig .tc .vmem S8192x64 .f32) (harg6 : arg6.IsWhole) (hc0 : cond1_0 i) (hc1 : ¬cond1_1 i)
    (x0 : Vec F S256x8192 .f32) (x1 : Vec F S256x64 .f32) (x2 : Vec F S64x64 .f32) (x3 : Vec F S256 .f32) (x4 : Vec F S8192 .f32) (y : S8192x64.Idx) :
    ∃ pc ∈ (kernelRun1_A c i arg1 harg1 arg2 harg2 arg3 harg3 arg4 harg4 arg5 harg5 arg6 harg6 hc0 hc1 x0 x1 x2 x3 x4).1, y ∈ pc.1.set :=
  View.cover_of_tiledL (kernelRun1_A c i arg1 harg1 arg2 harg2 arg3 harg3 arg4 harg4 arg5 harg5 arg6 harg6 hc0 hc1 x0 x1 x2 x3 x4).1 S8192x64.size (by sl_kernel_rfl) y

/-- What the first point leaves in the output's staging buffer: its pieces read back over junk. -/
def out1_A_5 (c : Dev nD) (i : grid1.Coords) (arg1 : Memref sig .tc .vmem S256x8192 .f32) (harg1 : arg1.IsWhole) (arg2 : Memref sig .tc .vmem S256x64 .f32) (harg2 : arg2.IsWhole) (arg3 : Memref sig .tc .vmem S64x64 .f32) (harg3 : arg3.IsWhole) (arg4 : Memref sig .tc .vmem S256 .f32) (harg4 : arg4.IsWhole) (arg5 : Memref sig .tc .vmem S8192 .f32) (harg5 : arg5.IsWhole) (arg6 : Memref sig .tc .vmem S8192x64 .f32) (harg6 : arg6.IsWhole) (hc0 : cond1_0 i) (hc1 : ¬cond1_1 i)
    (x0 : Vec F S256x8192 .f32) (x1 : Vec F S256x64 .f32) (x2 : Vec F S64x64 .f32) (x3 : Vec F S256 .f32) (x4 : Vec F S8192 .f32) : Vec F S8192x64 .f32 :=
  VO1_5.read (Elt F) (VO1_5.writes (Elt F) VO1_5.junk (kernelRun1_A c i arg1 harg1 arg2 harg2 arg3 harg3 arg4 harg4 arg5 harg5 arg6 harg6 hc0 hc1 x0 x1 x2 x3 x4).1)

/-- A middle point's one store is of the whole block, so it covers it. -/
theorem cover1_B_5 (c : Dev nD) (i : grid1.Coords) (arg1 : Memref sig .tc .vmem S256x8192 .f32) (harg1 : arg1.IsWhole) (arg2 : Memref sig .tc .vmem S256x64 .f32) (harg2 : arg2.IsWhole) (arg3 : Memref sig .tc .vmem S64x64 .f32) (harg3 : arg3.IsWhole) (arg4 : Memref sig .tc .vmem S256 .f32) (harg4 : arg4.IsWhole) (arg5 : Memref sig .tc .vmem S8192 .f32) (harg5 : arg5.IsWhole) (arg6 : Memref sig .tc .vmem S8192x64 .f32) (harg6 : arg6.IsWhole) (hc0 : ¬cond1_0 i) (hc1 : ¬cond1_1 i)
    (x0 : Vec F S256x8192 .f32) (x1 : Vec F S256x64 .f32) (x2 : Vec F S64x64 .f32) (x3 : Vec F S256 .f32) (x4 : Vec F S8192 .f32) (xo5 : Vec F S8192x64 .f32) (y : S8192x64.Idx) :
    ∃ pc ∈ (kernelRun1_B c i arg1 harg1 arg2 harg2 arg3 harg3 arg4 harg4 arg5 harg5 arg6 harg6 hc0 hc1 x0 x1 x2 x3 x4 xo5).1, y ∈ pc.1.set :=
  View.cover_of_tiledL (kernelRun1_B c i arg1 harg1 arg2 harg2 arg3 harg3 arg4 harg4 arg5 harg5 arg6 harg6 hc0 hc1 x0 x1 x2 x3 x4 xo5).1 S8192x64.size (by sl_kernel_rfl) y

/-- What a middle point leaves in the output's staging buffer: its piece read back over junk. -/
def out1_B_5 (c : Dev nD) (i : grid1.Coords) (arg1 : Memref sig .tc .vmem S256x8192 .f32) (harg1 : arg1.IsWhole) (arg2 : Memref sig .tc .vmem S256x64 .f32) (harg2 : arg2.IsWhole) (arg3 : Memref sig .tc .vmem S64x64 .f32) (harg3 : arg3.IsWhole) (arg4 : Memref sig .tc .vmem S256 .f32) (harg4 : arg4.IsWhole) (arg5 : Memref sig .tc .vmem S8192 .f32) (harg5 : arg5.IsWhole) (arg6 : Memref sig .tc .vmem S8192x64 .f32) (harg6 : arg6.IsWhole) (hc0 : ¬cond1_0 i) (hc1 : ¬cond1_1 i)
    (x0 : Vec F S256x8192 .f32) (x1 : Vec F S256x64 .f32) (x2 : Vec F S64x64 .f32) (x3 : Vec F S256 .f32) (x4 : Vec F S8192 .f32) (xo5 : Vec F S8192x64 .f32) : Vec F S8192x64 .f32 :=
  VO1_5.read (Elt F) (VO1_5.writes (Elt F) VO1_5.junk (kernelRun1_B c i arg1 harg1 arg2 harg2 arg3 harg3 arg4 harg4 arg5 harg5 arg6 harg6 hc0 hc1 x0 x1 x2 x3 x4 xo5).1)

/-- The last point's two stores (the sum, then the scaling) are each of the whole block, so they cover it. -/
theorem cover1_C_5 (c : Dev nD) (i : grid1.Coords) (arg1 : Memref sig .tc .vmem S256x8192 .f32) (harg1 : arg1.IsWhole) (arg2 : Memref sig .tc .vmem S256x64 .f32) (harg2 : arg2.IsWhole) (arg3 : Memref sig .tc .vmem S64x64 .f32) (harg3 : arg3.IsWhole) (arg4 : Memref sig .tc .vmem S256 .f32) (harg4 : arg4.IsWhole) (arg5 : Memref sig .tc .vmem S8192 .f32) (harg5 : arg5.IsWhole) (arg6 : Memref sig .tc .vmem S8192x64 .f32) (harg6 : arg6.IsWhole) (hc0 : ¬cond1_0 i) (hc1 : cond1_1 i)
    (x0 : Vec F S256x8192 .f32) (x1 : Vec F S256x64 .f32) (x2 : Vec F S64x64 .f32) (x3 : Vec F S256 .f32) (x4 : Vec F S8192 .f32) (xo5 : Vec F S8192x64 .f32) (y : S8192x64.Idx) :
    ∃ pc ∈ (kernelRun1_C c i arg1 harg1 arg2 harg2 arg3 harg3 arg4 harg4 arg5 harg5 arg6 harg6 hc0 hc1 x0 x1 x2 x3 x4 xo5).1, y ∈ pc.1.set :=
  View.cover_of_tiledL (kernelRun1_C c i arg1 harg1 arg2 harg2 arg3 harg3 arg4 harg4 arg5 harg5 arg6 harg6 hc0 hc1 x0 x1 x2 x3 x4 xo5).1 S8192x64.size (by sl_kernel_rfl) y

/-- What the last point leaves in the output's staging buffer: its pieces read back over junk. -/
def out1_C_5 (c : Dev nD) (i : grid1.Coords) (arg1 : Memref sig .tc .vmem S256x8192 .f32) (harg1 : arg1.IsWhole) (arg2 : Memref sig .tc .vmem S256x64 .f32) (harg2 : arg2.IsWhole) (arg3 : Memref sig .tc .vmem S64x64 .f32) (harg3 : arg3.IsWhole) (arg4 : Memref sig .tc .vmem S256 .f32) (harg4 : arg4.IsWhole) (arg5 : Memref sig .tc .vmem S8192 .f32) (harg5 : arg5.IsWhole) (arg6 : Memref sig .tc .vmem S8192x64 .f32) (harg6 : arg6.IsWhole) (hc0 : ¬cond1_0 i) (hc1 : cond1_1 i)
    (x0 : Vec F S256x8192 .f32) (x1 : Vec F S256x64 .f32) (x2 : Vec F S64x64 .f32) (x3 : Vec F S256 .f32) (x4 : Vec F S8192 .f32) (xo5 : Vec F S8192x64 .f32) : Vec F S8192x64 .f32 :=
  VO1_5.read (Elt F) (VO1_5.writes (Elt F) VO1_5.junk (kernelRun1_C c i arg1 harg1 arg2 harg2 arg3 harg3 arg4 harg4 arg5 harg5 arg6 harg6 hc0 hc1 x0 x1 x2 x3 x4 xo5).1)

/-! ## The accumulator, point by point -/

/-- THE ACCUMULATION. What the output window's staging buffer holds after the body at position `n`: the case the
    closed forms select at `n`, run at the point's memrefs and input blocks, over what this leaves at `n - 1` (the
    buffer is not written back before the last point). -/
def zAt1 (c : Dev nD) : (n : ℕ) → n < cfg1.N → Vec F S8192x64 .f32
  | 0, hn => out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr rfl) (fun h => absurd ((hcond1_1 ⟨0, hn⟩).mp h) (show ¬(0 : ℕ) = 127 by decide)) (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn =>
    if h1 : n + 1 = 127 then
      out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (zAt1 c n (Nat.lt_of_succ_lt hn))
    else
      out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (zAt1 c n (Nat.lt_of_succ_lt hn))

/-- `zAt1` at the first point. -/
theorem zAt1_A (c : Dev nD) (t : Fin cfg1.N) (h0 : t.val = 0) (h1 : ¬t.val = 127) :
    zAt1 V c t.val t.isLt = out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (fun h => h1 ((hcond1_1 t).mp h)) (iblk1 V c 0 t) (iblk1 V c 1 t) (iblk1 V c 2 t) (iblk1 V c 3 t) (iblk1 V c 4 t) := by
  obtain ⟨n, hn⟩ := t
  cases n with
  | zero => exact rfl
  | succ n => exact absurd h0 (Nat.succ_ne_zero n)

/-- `zAt1` at a middle point: over what the point before left. -/
theorem zAt1_B (c : Dev nD) (t : Fin cfg1.N) (h0 : ¬t.val = 0) (h1 : ¬t.val = 127) :
    zAt1 V c t.val t.isLt = out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (fun h => h1 ((hcond1_1 t).mp h)) (iblk1 V c 0 t) (iblk1 V c 1 t) (iblk1 V c 2 t) (iblk1 V c 3 t) (iblk1 V c 4 t) (zAt1 V c (t.val - 1) (Nat.lt_of_le_of_lt (Nat.sub_le _ _) t.isLt)) := by
  obtain ⟨n, hn⟩ := t
  cases n with
  | zero => exact absurd rfl h0
  | succ n => exact (dif_neg h1).trans rfl

/-- `zAt1` at the last point: over what the point before left. -/
theorem zAt1_C (c : Dev nD) (t : Fin cfg1.N) (h0 : ¬t.val = 0) (h1 : t.val = 127) :
    zAt1 V c t.val t.isLt = out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) ((hcond1_1 t).mpr h1) (iblk1 V c 0 t) (iblk1 V c 1 t) (iblk1 V c 2 t) (iblk1 V c 3 t) (iblk1 V c 4 t) (zAt1 V c (t.val - 1) (Nat.lt_of_le_of_lt (Nat.sub_le _ _) t.isLt)) := by
  obtain ⟨n, hn⟩ := t
  cases n with
  | zero => exact absurd rfl h0
  | succ n => exact (dif_pos h1).trans rfl

/-! ## The pipeline's proof data -/

/-- The proof data of region 1 on core `c`: the arrays as the region finds them (`V`); after the body at point `t`
    each input's buffer at its block and the output's at the accumulator `zAt1`; the invariant holds the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => zAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = zAt1 V c t.val t.isLt := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
/-- After the first point the output's staging buffer holds what the body left at the point before: the buffer is
    written back at the last point only, so never between two points; the window is live and uncut. -/
theorem before1_5_kept (c : Dev nD) (t : Fin cfg1.N) (h0 : ¬t.val = 0) (d) :
    (dat1 V c).before 5 t d = zAt1 V c (t.val - 1) (Nat.lt_of_le_of_lt (Nat.sub_le _ _) t.isLt) := by
  have hN : t.val < 128 := lt_of_lt_of_eq t.isLt (show cfg1.N = 128 from N_1)
  rw [Dat.before_out_kept _ 5 rfl t h0 (Bool.eq_false_iff.mpr fun h => by have := (flush1_5 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 1000000 in
/-- The body at any point: the inputs' memrefs hold their blocks; the closed forms say which case the point is in;
    after the first point the output's buffer holds what the point before left; so the case's run applies; the
    invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  have hN : t.val < 128 := lt_of_lt_of_eq t.isLt (show cfg1.N = 128 from N_1)
  by_cases h0 : t.val = 0
  · by_cases h1 : t.val = 127
    · exfalso; omega
    ·
      rw [zAt1_A V c t h0 h1]
      unfold out1_A_5
      iintro ⟨HΦ, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_A_5 c _ _ _ _ _ _ _ _ _ _ _ _ _ _ _ _ _ _ _ _)
  · by_cases h1 : t.val = 127
    ·
      rw [zAt1_C V c t h0 h1]
      simp only [before1_5_kept V c t h0]
      unfold out1_C_5
      iintro ⟨HΦ, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _)
    ·
      rw [zAt1_B V c t h0 h1]
      simp only [before1_5_kept V c t h0]
      unfold out1_B_5
      iintro ⟨HΦ, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_B_5 c _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The recursion in payload terms

Every load and store of the body is of a whole staging buffer, through the whole-shape rectangle at zero offsets: a
load reads the buffer's contents, a store leaves its payload, and a load after a store reads that payload. So each
case's pieces read back as the skeleton's payloads of the input blocks. -/

theorem hoff1_2 : (![0, 0] : Fin 2 → Nat) = fun _ => 0 := funext fun a => by fin_cases a <;> rfl
theorem hoff1_1 : (![0] : Fin 1 → Nat) = fun _ => 0 := funext fun a => by fin_cases a <;> rfl

/-- THE FIRST POINT leaves the tile's product added to the zero block: the zeroing store is read back (the second
    payload's last operand), then covered by the sum. -/
theorem out1_A_5_eq (c : Dev nD) (i : grid1.Coords) (arg1 : Memref sig .tc .vmem S256x8192 .f32) (harg1 : arg1.IsWhole) (arg2 : Memref sig .tc .vmem S256x64 .f32) (harg2 : arg2.IsWhole) (arg3 : Memref sig .tc .vmem S64x64 .f32) (harg3 : arg3.IsWhole) (arg4 : Memref sig .tc .vmem S256 .f32) (harg4 : arg4.IsWhole) (arg5 : Memref sig .tc .vmem S8192 .f32) (harg5 : arg5.IsWhole) (arg6 : Memref sig .tc .vmem S8192x64 .f32) (harg6 : arg6.IsWhole) (hc0 : cond1_0 i) (hc1 : ¬cond1_1 i)
    (x0 : Vec F S256x8192 .f32) (x1 : Vec F S256x64 .f32) (x2 : Vec F S64x64 .f32) (x3 : Vec F S256 .f32) (x4 : Vec F S8192 .f32) :
    out1_A_5 c i arg1 harg1 arg2 harg2 arg3 harg3 arg4 harg4 arg5 harg5 arg6 harg6 hc0 hc1 x0 x1 x2 x3 x4 = k1_pay2 x0 x1 x2 x3 (k1_pay1 (F := F)) := by
  unfold out1_A_5
  rw [View.read_writes_eq_canon _ _ _ (cover1_A_5 c i arg1 harg1 arg2 harg2 arg3 harg3 arg4 harg4 arg5 harg5 arg6 harg6 hc0 hc1 x0 x1 x2 x3 x4)]
  unfold kernelRun1_A
  dsimp only
  sl_unfold_words
  rw [View.canon_cons_unit_zero (S := S8192x64) hoff1_2, View.readCov_unit_zero (S := S8192x64) _ hoff1_2]
  simp only [View.readAt_eq_ld, harg1.read_unread, harg2.read_unread, harg3.read_unread, harg4.read_unread, harg5.read_unread, harg6.read_unread,
    View.ld_unit_zero (S := S256x8192) hoff1_2, View.ld_unit_zero (S := S256x64) hoff1_2, View.ld_unit_zero (S := S64x64) hoff1_2,
    View.ld_unit_zero (S := S256) hoff1_1, View.ld_unit_zero (S := S8192) hoff1_1, View.ld_unit_zero (S := S8192x64) hoff1_2]

/-- A MIDDLE POINT leaves the tile's product added to what the buffer held. -/
theorem out1_B_5_eq (c : Dev nD) (i : grid1.Coords) (arg1 : Memref sig .tc .vmem S256x8192 .f32) (harg1 : arg1.IsWhole) (arg2 : Memref sig .tc .vmem S256x64 .f32) (harg2 : arg2.IsWhole) (arg3 : Memref sig .tc .vmem S64x64 .f32) (harg3 : arg3.IsWhole) (arg4 : Memref sig .tc .vmem S256 .f32) (harg4 : arg4.IsWhole) (arg5 : Memref sig .tc .vmem S8192 .f32) (harg5 : arg5.IsWhole) (arg6 : Memref sig .tc .vmem S8192x64 .f32) (harg6 : arg6.IsWhole) (hc0 : ¬cond1_0 i) (hc1 : ¬cond1_1 i)
    (x0 : Vec F S256x8192 .f32) (x1 : Vec F S256x64 .f32) (x2 : Vec F S64x64 .f32) (x3 : Vec F S256 .f32) (x4 : Vec F S8192 .f32) (xo5 : Vec F S8192x64 .f32) :
    out1_B_5 c i arg1 harg1 arg2 harg2 arg3 harg3 arg4 harg4 arg5 harg5 arg6 harg6 hc0 hc1 x0 x1 x2 x3 x4 xo5 = k1_pay2 x0 x1 x2 x3 xo5 := by
  unfold out1_B_5
  rw [View.read_writes_eq_canon _ _ _ (cover1_B_5 c i arg1 harg1 arg2 harg2 arg3 harg3 arg4 harg4 arg5 harg5 arg6 harg6 hc0 hc1 x0 x1 x2 x3 x4 xo5)]
  unfold kernelRun1_B
  dsimp only
  sl_unfold_words
  rw [View.canon_unit_zero (S := S8192x64) hoff1_2]
  simp only [View.readAt_eq_ld, harg1.read_unread, harg2.read_unread, harg3.read_unread, harg4.read_unread, harg5.read_unread, harg6.read_unread,
    View.ld_unit_zero (S := S256x8192) hoff1_2, View.ld_unit_zero (S := S256x64) hoff1_2, View.ld_unit_zero (S := S64x64) hoff1_2,
    View.ld_unit_zero (S := S256) hoff1_1, View.ld_unit_zero (S := S8192) hoff1_1, View.ld_unit_zero (S := S8192x64) hoff1_2]

/-- THE LAST POINT leaves the sum, read back, with each row scaled by its edge degree. -/
theorem out1_C_5_eq (c : Dev nD) (i : grid1.Coords) (arg1 : Memref sig .tc .vmem S256x8192 .f32) (harg1 : arg1.IsWhole) (arg2 : Memref sig .tc .vmem S256x64 .f32) (harg2 : arg2.IsWhole) (arg3 : Memref sig .tc .vmem S64x64 .f32) (harg3 : arg3.IsWhole) (arg4 : Memref sig .tc .vmem S256 .f32) (harg4 : arg4.IsWhole) (arg5 : Memref sig .tc .vmem S8192 .f32) (harg5 : arg5.IsWhole) (arg6 : Memref sig .tc .vmem S8192x64 .f32) (harg6 : arg6.IsWhole) (hc0 : ¬cond1_0 i) (hc1 : cond1_1 i)
    (x0 : Vec F S256x8192 .f32) (x1 : Vec F S256x64 .f32) (x2 : Vec F S64x64 .f32) (x3 : Vec F S256 .f32) (x4 : Vec F S8192 .f32) (xo5 : Vec F S8192x64 .f32) :
    out1_C_5 c i arg1 harg1 arg2 harg2 arg3 harg3 arg4 harg4 arg5 harg5 arg6 harg6 hc0 hc1 x0 x1 x2 x3 x4 xo5 = k1_pay3 x4 (k1_pay2 x0 x1 x2 x3 xo5) := by
  unfold out1_C_5
  rw [View.read_writes_eq_canon _ _ _ (cover1_C_5 c i arg1 harg1 arg2 harg2 arg3 harg3 arg4 harg4 arg5 harg5 arg6 harg6 hc0 hc1 x0 x1 x2 x3 x4 xo5)]
  unfold kernelRun1_C
  dsimp only
  sl_unfold_words
  rw [View.canon_cons_unit_zero (S := S8192x64) hoff1_2, View.readCov_unit_zero (S := S8192x64) _ hoff1_2]
  simp only [View.readAt_eq_ld, harg1.read_unread, harg2.read_unread, harg3.read_unread, harg4.read_unread, harg5.read_unread, harg6.read_unread,
    View.ld_unit_zero (S := S256x8192) hoff1_2, View.ld_unit_zero (S := S256x64) hoff1_2, View.ld_unit_zero (S := S64x64) hoff1_2,
    View.ld_unit_zero (S := S256) hoff1_1, View.ld_unit_zero (S := S8192) hoff1_1, View.ld_unit_zero (S := S8192x64) hoff1_2]

/-- After the first point the accumulator is the first tile's product over the zero block. -/
theorem zAt1_zero (c : Dev nD) (h : 0 < cfg1.N) :
    zAt1 V c 0 h = k1_pay2 (iblk1 V c 0 ⟨0, h⟩) (iblk1 V c 1 ⟨0, h⟩) (iblk1 V c 2 ⟨0, h⟩) (iblk1 V c 3 ⟨0, h⟩) (k1_pay1 (F := F)) :=
  (zAt1_A V c ⟨0, h⟩ rfl (show ¬(0 : ℕ) = 127 by decide)).trans
    (out1_A_5_eq c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) ((hcond1_0 ⟨0, h⟩).mpr rfl) (fun hh => (show ¬(0 : ℕ) = 127 by decide) ((hcond1_1 ⟨0, h⟩).mp hh)) (iblk1 V c 0 ⟨0, h⟩) (iblk1 V c 1 ⟨0, h⟩) (iblk1 V c 2 ⟨0, h⟩) (iblk1 V c 3 ⟨0, h⟩) (iblk1 V c 4 ⟨0, h⟩))

/-- After a middle point it is that tile's product over what the point before left. -/
theorem zAt1_mid (c : Dev nD) (n : ℕ) (hn : n + 1 < cfg1.N) (h127 : n + 1 ≠ 127) :
    zAt1 V c (n + 1) hn = k1_pay2 (iblk1 V c 0 ⟨n + 1, hn⟩) (iblk1 V c 1 ⟨n + 1, hn⟩) (iblk1 V c 2 ⟨n + 1, hn⟩) (iblk1 V c 3 ⟨n + 1, hn⟩) (zAt1 V c n (Nat.lt_of_succ_lt hn)) :=
  (zAt1_B V c ⟨n + 1, hn⟩ (Nat.succ_ne_zero n) h127).trans
    (out1_B_5_eq c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun hh => Nat.succ_ne_zero n ((hcond1_0 ⟨n + 1, hn⟩).mp hh)) (fun hh => h127 ((hcond1_1 ⟨n + 1, hn⟩).mp hh)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (zAt1 V c n (Nat.lt_of_succ_lt hn)))

/-- After the last point it is the last tile's product over what point 126 left, each row scaled by its edge degree. -/
theorem zAt1_last (c : Dev nD) (hn : 127 < cfg1.N) :
    zAt1 V c 127 hn = k1_pay3 (iblk1 V c 4 ⟨127, hn⟩) (k1_pay2 (iblk1 V c 0 ⟨127, hn⟩) (iblk1 V c 1 ⟨127, hn⟩) (iblk1 V c 2 ⟨127, hn⟩) (iblk1 V c 3 ⟨127, hn⟩) (zAt1 V c 126 (Nat.lt_of_succ_lt hn))) :=
  (zAt1_C V c ⟨127, hn⟩ (show ¬(127 : ℕ) = 0 by decide) rfl).trans
    (out1_C_5_eq c (grid1.coords ⟨127, hn⟩) (ms1_0 ⟨127, hn⟩) (hs1_0 ⟨127, hn⟩) (ms1_1 ⟨127, hn⟩) (hs1_1 ⟨127, hn⟩) (ms1_2 ⟨127, hn⟩) (hs1_2 ⟨127, hn⟩) (ms1_3 ⟨127, hn⟩) (hs1_3 ⟨127, hn⟩) (ms1_4 ⟨127, hn⟩) (hs1_4 ⟨127, hn⟩) (ms1_5 ⟨127, hn⟩) (hs1_5 ⟨127, hn⟩) (fun hh => (show ¬(127 : ℕ) = 0 by decide) ((hcond1_0 ⟨127, hn⟩).mp hh)) ((hcond1_1 ⟨127, hn⟩).mpr rfl) (iblk1 V c 0 ⟨127, hn⟩) (iblk1 V c 1 ⟨127, hn⟩) (iblk1 V c 2 ⟨127, hn⟩) (iblk1 V c 3 ⟨127, hn⟩) (iblk1 V c 4 ⟨127, hn⟩) (zAt1 V c 126 (Nat.lt_of_succ_lt hn)))

end Cert.KernelIdeal.Fr

end
-- ==== Proof.KI.R2.lean ====
import proofs.«156100_j87445534147336_1_alg».proof.Proof.Gen.KernelIdeal.Launch
import proofs.«156100_j87445534147336_1_alg».proof.Proof.Gen.KernelIdeal.Skeleton
import proofs.«156100_j87445534147336_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the third pipeline, at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (a block of rows of the incidence matrix, fetched at every point): its current staging buffer
    holds its block, for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the whole edge-feature array; its index never moves, so it is fetched at the first point only
    and stays): the same statement. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (a block of the vertex scaling, fetched at every point). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 (the whole bias; fetched at the first point only and stays). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer as one whole rectangle -/

abbrev r2_0 : Rect S256x8192 := Rect.unit (s := S256x8192) ![0, 0] S256x8192.size inb_S256x8192_S256x8192_0_0
abbrev r2_1 : Rect S8192x64 := Rect.unit (s := S8192x64) ![0, 0] S8192x64.size inb_S8192x64_S8192x64_0_0
abbrev r2_2 : Rect S256 := Rect.unit (s := S256) ![0] S256.size inb_S256_S256_0
abbrev r2_3 : Rect S64 := Rect.unit (s := S64) ![0] S64.size inb_S64_S64_0
abbrev r2_4 : Rect S256x64 := Rect.unit (s := S256x64) ![0, 0] S256x64.size inb_S256x64_S256x64_0_0

/-! ## What the body leaves in the output window's buffer -/

/-- Window 4's staging buffer after the body, from the input windows' blocks: its one store, of the payload of
    the four whole loads, as a single piece. -/
def out2 (x0 : Vec F S256x8192 .f32) (x1 : Vec F S8192x64 .f32) (x2 : Vec F S256 .f32) (x3 : Vec F S64 .f32) : Vec F S256x64 .f32 :=
  View.canon [⟨r2_4, k2_pay1 (View.ld x0 r2_0) (View.ld x1 r2_1) (View.ld x2 r2_2) (View.ld x3 r2_3)⟩]

/-- The one store is of the whole buffer, so it covers it. -/
theorem cover2_4 (p0 : Vec F S256x64 .f32) (y : S256x64.Idx) :
    ∃ pc ∈ ([⟨r2_4, p0⟩] : List (View.Piece (Elt F) S256x64 .f32)), y ∈ pc.1.set :=
  View.cover_of_tiled [⟨r2_4, p0⟩] S256x64.size (by rfl) y

/-! ## The body's triple -/

set_option maxHeartbeats 1000000 in
/-- The kernel body on whole staging memrefs, the inputs' at contents `xW` and the output's at anything, runs to the
    continuation holding the inputs' as they were and the output's at `out2` of the inputs'. The load of the
    output's buffer before the store reads a value nothing uses. -/
theorem sound_kernel2 (c : Dev nD) (E : Set ℕ) (i : grid2.Coords)
    (arg1 : Memref sig .tc .vmem S256x8192 .f32) (harg1 : arg1.IsWhole) (arg2 : Memref sig .tc .vmem S8192x64 .f32) (harg2 : arg2.IsWhole)
    (arg3 : Memref sig .tc .vmem S256 .f32) (harg3 : arg3.IsWhole) (arg4 : Memref sig .tc .vmem S64 .f32) (harg4 : arg4.IsWhole)
    (arg5 : Memref sig .tc .vmem S256x64 .f32) (harg5 : arg5.IsWhole)
    (x0 : Vec F S256x8192 .f32) (x1 : Vec F S8192x64 .f32) (x2 : Vec F S256 .f32) (x3 : Vec F S64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out2 x0 x1 x2 x3)) -∗ K ⟨⟩))
      ⊢ wp frame (wpE (defs₀ (F := F)) Variants.none c none) E (cc2__matmul2_kernel i arg1 harg1 arg2 harg2 arg3 harg3 arg4 harg4 arg5 harg5) K := by
  simp only [cc2__matmul2_kernel_eq_skeleton]; unfold cc2__matmul2_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of the third pipeline on core `c`: the arrays as the region finds them (`V`); after the body at
    point `t` each input's buffer at its block and the output's at `out2` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so `sound_kernel2` applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The output's buffer is the payload of the blocks -/

/-- The whole rectangles start at offset zero on every axis. -/
theorem zeros2 : (![0, 0] : Fin 2 → Nat) = fun _ => 0 := funext fun a => by fin_cases a <;> rfl
theorem zeros1 : (![0] : Fin 1 → Nat) = fun _ => 0 := funext fun a => by fin_cases a <;> rfl

/-- A single piece over the whole buffer is its payload, and a load of a whole buffer is the buffer. -/
theorem out2_eq (x0 : Vec F S256x8192 .f32) (x1 : Vec F S8192x64 .f32) (x2 : Vec F S256 .f32) (x3 : Vec F S64 .f32) :
    out2 x0 x1 x2 x3 = k2_pay1 x0 x1 x2 x3 := by
  unfold out2
  rw [View.canon_unit_zero (S := S256x64) zeros2]
  simp only [View.ld_unit_zero (S := S256x8192) zeros2, View.ld_unit_zero (S := S8192x64) zeros2,
    View.ld_unit_zero (S := S256) zeros1, View.ld_unit_zero (S := S64) zeros1]

end Cert.KernelIdeal.Fr

end
-- ==== Proof.KI.Run.lean ====
import proofs.«156100_j87445534147336_1_alg».proof.Proof.KI.R0
import proofs.«156100_j87445534147336_1_alg».proof.Proof.KI.R1
import proofs.«156100_j87445534147336_1_alg».proof.Proof.KI.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main: three kernel regions in a row, and the frame

@main is three custom calls on one core, with no host operation between them. The core's buffer contents at the
four boundaries are a fold from the launch memory: a region's exit contents are its entry contents with each of its
windows' arrays replaced by what the pipeline leaves there (an input window's array as entered, an output window's
with its write-backs folded in). Each region is a segment over the thread state "every unscoped buffer whole at the
boundary's contents, the generator register at some state, nothing owed"; the three segments chain literally, and
the launch theorem for a list of segments gives: every weakly fair execution terminates and the final memory holds,
at every unscoped buffer, the last boundary's contents. Reading the fold back at an argument gives the launch
contents (no region writes an argument), which is the frame claim; reading it at the other arrays gives the
equations the value modules start from. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch (region 0's entry). -/
abbrev W0 : Dev nD → Valuation τ sig (Elt F) := fun c b => (s₀ m ρ).mem ((c : Dev nD), b)
/-- The same read at the core's references (what region 0's proof data take). -/
abbrev V0 : (c : Dev nD) → (b : Ref sig .tc) → Buf (Elt F) ((c : Thread nD τ).loc b) := fun c b => W0 m ρ c b

/-- At region 0's exit: its arrays at what the pipeline leaves (an input as entered, an output's write-backs folded
    in), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the core's references. -/
abbrev V1 : (c : Dev nD) → (b : Ref sig .tc) → Buf (Elt F) ((c : Thread nD τ).loc b) := fun c b => W1 m ρ c b
/-- At region 0's exit each of its arrays holds what the pipeline leaves, and every other buffer what it held at
    entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves (an input as entered, an output's write-backs folded
    in), every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the core's references. -/
abbrev V2 : (c : Dev nD) → (b : Ref sig .tc) → Buf (Elt F) ((c : Thread nD τ).loc b) := fun c b => W2 m ρ c b
/-- At region 1's exit each of its arrays holds what the pipeline leaves, and every other buffer what it held at
    entry. -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- At region 2's exit: its arrays at what the pipeline leaves (an input as entered, an output's write-backs folded
    in), every other buffer as entered. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the core's references. -/
abbrev V3 : (c : Dev nD) → (b : Ref sig .tc) → Buf (Elt F) ((c : Thread nD τ).loc b) := fun c b => W3 m ρ c b
/-- At region 2's exit each of its arrays holds what the pipeline leaves, and every other buffer what it held at
    entry. -/
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-! ## The fold read back

No region writes an argument: a region reads it through an input window (whose array the pipeline leaves as entered)
or does not touch it. An output window's array is what the pipeline leaves. -/

theorem V0_eq (c : Dev nD) (b : Ref sig .tc) : V0 m ρ c b = m ((c : Thread nD τ).loc b) := rfl

theorem V1_main_arg0 (c : Dev nD) : V1 m ρ c main_arg0 = m ((c : Thread nD τ).loc main_arg0) :=
  (W1_of_ne m ρ c main_arg0 (by decide)).trans rfl
theorem V1_main_arg1 (c : Dev nD) : V1 m ρ c main_arg1 = m ((c : Thread nD τ).loc main_arg1) :=
  (W1_arr m ρ c 0).trans (((dat0 (V0 m ρ) c).arrAt_in 0 rfl _).trans (A_eq0 (V0 m ρ) c 0))
theorem V1_main_arg2 (c : Dev nD) : V1 m ρ c main_arg2 = m ((c : Thread nD τ).loc main_arg2) :=
  (W1_of_ne m ρ c main_arg2 (by decide)).trans rfl
theorem V1_main_arg3 (c : Dev nD) : V1 m ρ c main_arg3 = m ((c : Thread nD τ).loc main_arg3) :=
  (W1_of_ne m ρ c main_arg3 (by decide)).trans rfl
theorem V1_main_v0_0 (c : Dev nD) : V1 m ρ c main_v0_0 = (dat0 (V0 m ρ) c).arrAt 1 cfg0.N := W1_arr m ρ c 1
theorem V1_main_v0_1 (c : Dev nD) : V1 m ρ c main_v0_1 = (dat0 (V0 m ρ) c).arrAt 2 cfg0.N := W1_arr m ρ c 2

theorem V2_main_arg0 (c : Dev nD) : V2 m ρ c main_arg0 = m ((c : Thread nD τ).loc main_arg0) :=
  (W2_arr m ρ c 1).trans ((((dat1 (V1 m ρ) c).arrAt_in 1 rfl _).trans (A_eq1 (V1 m ρ) c 1)).trans (V1_main_arg0 m ρ c))
theorem V2_main_arg1 (c : Dev nD) : V2 m ρ c main_arg1 = m ((c : Thread nD τ).loc main_arg1) :=
  (W2_arr m ρ c 0).trans ((((dat1 (V1 m ρ) c).arrAt_in 0 rfl _).trans (A_eq1 (V1 m ρ) c 0)).trans (V1_main_arg1 m ρ c))
theorem V2_main_arg2 (c : Dev nD) : V2 m ρ c main_arg2 = m ((c : Thread nD τ).loc main_arg2) :=
  (W2_arr m ρ c 2).trans ((((dat1 (V1 m ρ) c).arrAt_in 2 rfl _).trans (A_eq1 (V1 m ρ) c 2)).trans (V1_main_arg2 m ρ c))
theorem V2_main_arg3 (c : Dev nD) : V2 m ρ c main_arg3 = m ((c : Thread nD τ).loc main_arg3) :=
  (W2_of_ne m ρ c main_arg3 (by decide)).trans (V1_main_arg3 m ρ c)
theorem V2_main_v0_0 (c : Dev nD) : V2 m ρ c main_v0_0 = (dat0 (V0 m ρ) c).arrAt 1 cfg0.N :=
  (W2_arr m ρ c 3).trans ((((dat1 (V1 m ρ) c).arrAt_in 3 rfl _).trans (A_eq1 (V1 m ρ) c 3)).trans (V1_main_v0_0 m ρ c))
theorem V2_main_v1 (c : Dev nD) : V2 m ρ c main_v1 = (dat1 (V1 m ρ) c).arrAt 5 cfg1.N := W2_arr m ρ c 5

theorem W3_main_arg0 (c : Dev nD) : W3 m ρ c (Proc.devRef .tc main_arg0) = m ((c : Thread nD τ).loc main_arg0) :=
  (W3_of_ne m ρ c main_arg0 (by decide)).trans (V2_main_arg0 m ρ c)
theorem W3_main_arg1 (c : Dev nD) : W3 m ρ c (Proc.devRef .tc main_arg1) = m ((c : Thread nD τ).loc main_arg1) :=
  (W3_arr m ρ c 0).trans ((((dat2 (V2 m ρ) c).arrAt_in 0 rfl _).trans (A_eq2 (V2 m ρ) c 0)).trans (V2_main_arg1 m ρ c))
theorem W3_main_arg2 (c : Dev nD) : W3 m ρ c (Proc.devRef .tc main_arg2) = m ((c : Thread nD τ).loc main_arg2) :=
  (W3_of_ne m ρ c main_arg2 (by decide)).trans (V2_main_arg2 m ρ c)
theorem W3_main_arg3 (c : Dev nD) : W3 m ρ c (Proc.devRef .tc main_arg3) = m ((c : Thread nD τ).loc main_arg3) :=
  (W3_arr m ρ c 3).trans ((((dat2 (V2 m ρ) c).arrAt_in 3 rfl _).trans (A_eq2 (V2 m ρ) c 3)).trans (V2_main_arg3 m ρ c))
theorem W3_main_v2 (c : Dev nD) : W3 m ρ c (Proc.devRef .tc main_v2) = (dat2 (V2 m ρ) c).arrAt 4 cfg2.N := W3_arr m ρ c 4

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents: a literal match, so that the pinned
    configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The regions as segments -/

-- a library lemma stated over the pinned configuration unifies with the printed one only when unification may
-- unfold plain definitions in a metavariable's type
set_option backward.isDefEq.respectTransparency.types false in
/-- REGION 0 over the thread state: entered from every unscoped buffer at `W0`, left at `W1`. Its arrays are
    split out of the unscoped buffers and put back at the exit contents; the generator register goes into the class
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 1 over the thread state: entered from every unscoped buffer at `W1`, left at `W2`. Its arrays are
    split out of the unscoped buffers and put back at the exit contents; the generator register goes into the class
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 2 over the thread state: entered from every unscoped buffer at `W2`, left at `W3`. Its arrays are
    split out of the unscoped buffers and put back at the exit contents; the generator register goes into the class
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: a region per custom call. -/
abbrev segs : List (Pipeline.Seg (pcfgs (F := F)) adm (pdats m ρ) () defs₀ 𝒱₀ L lv) :=
  [ .region (reg0 m ρ), .region (reg1 m ρ), .region (reg2 m ρ) ]
/-- @main is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: from any memory with zero counters, every weakly fair execution of @main terminates, nothing faulting,
    and in every final memory each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: every weakly fair execution of @main terminates, nothing faulting, and every final memory holds each
    argument array as launched: the run, each argument's buffer read off the last boundary's contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs (onTc (τ := τ) (main (F := F))) ⟨m, fun _ => 0, ρ⟩).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.KernelIdeal.Fr

end
-- ==== Proof.Spec.lean ====
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-! The hypergraph convolution as one function of the argument arrays, index by index, on the extended reals:
    vertex scaling `dv n = 1 / √(Σ_e H n e + ε)`, edge scaling `de e = 1 / (Σ_n H n e + ε)`,
    `Z e f = de e · Σ_n H n e · (dv n · Σ_k X n k · W k f)`, `out n f = dv n · Σ_e H n e · Z e f + b f`. -/

abbrev SH : Shape := ⟨2, ![32768, 8192]⟩
abbrev SX : Shape := ⟨2, ![32768, 64]⟩
abbrev SW : Shape := ⟨2, ![64, 64]⟩
abbrev SB : Shape := ⟨1, ![64]⟩
abbrev SN : Shape := ⟨1, ![32768]⟩
abbrev SE : Shape := ⟨1, ![8192]⟩
abbrev SZ : Shape := ⟨2, ![8192, 64]⟩

/-- ε and 1, as both programs spell them: the same words on both sides, never evaluated. -/
abbrev eps : EReal := Ideal.ofBits .f32 0x3727C5AC#32
abbrev one : EReal := Ideal.ofBits .f32 0x3F800000#32

/-- The vertex scaling at vertex `n`. -/
def dvC (H : SH.Idx → EReal) (n : Fin 32768) : EReal :=
  Ideal.div one (Ideal.sqrt ((∑ e : Fin 8192, H (ix2 n e)) + eps))
/-- The edge scaling at edge `e`. -/
def deC (H : SH.Idx → EReal) (e : Fin 8192) : EReal :=
  Ideal.div one ((∑ n : Fin 32768, H (ix2 n e)) + eps)
def dvG (H : SH.Idx → EReal) : SN.Idx → EReal := fun i => dvC H (i 0)
def deG (H : SH.Idx → EReal) : SE.Idx → EReal := fun i => deC H (i 0)

/-- `Z` from given scalings. -/
def zC (H : SH.Idx → EReal) (X : SX.Idx → EReal) (W : SW.Idx → EReal) (dv : SN.Idx → EReal) (de : SE.Idx → EReal)
    (e : Fin 8192) (f : Fin 64) : EReal :=
  de (ix1 e) * ∑ n : Fin 32768, H (ix2 n e) * (dv (ix1 n) * ∑ k : Fin 64, X (ix2 n k) * W (ix2 k f))
def zG (H : SH.Idx → EReal) (X : SX.Idx → EReal) (W : SW.Idx → EReal) (dv : SN.Idx → EReal) (de : SE.Idx → EReal) :
    SZ.Idx → EReal := fun i => zC H X W dv de (i 0) (i 1)

/-- The output from a given `Z` and vertex scaling. -/
def oC (H : SH.Idx → EReal) (Z : SZ.Idx → EReal) (dv : SN.Idx → EReal) (b : SB.Idx → EReal)
    (n : Fin 32768) (f : Fin 64) : EReal :=
  dv (ix1 n) * (∑ e : Fin 8192, H (ix2 n e) * Z (ix2 e f)) + b (ix1 f)
def oG (H : SH.Idx → EReal) (Z : SZ.Idx → EReal) (dv : SN.Idx → EReal) (b : SB.Idx → EReal) :
    SX.Idx → EReal := fun i => oC H Z dv b (i 0) (i 1)

/-- The whole result. -/
def outG (X : SX.Idx → EReal) (H : SH.Idx → EReal) (W : SW.Idx → EReal) (b : SB.Idx → EReal) : SX.Idx → EReal :=
  oG H (zG H X W (dvG H) (deG H)) (dvG H) b

/-- A sum over the 32768 vertices is the sum over the 128 tiles of the sums over each tile's 256 rows. -/
theorem sum_tiles {M : Type*} [AddCommMonoid M] (f : Fin 32768 → M) :
    ∑ n : Fin 32768, f n = ∑ t : Fin 128, ∑ r : Fin 256, f ⟨256 * t.val + r.val, by omega⟩ := by
  rw [← Equiv.sum_comp (finProdFinEquiv : Fin 128 × Fin 256 ≃ Fin 32768) f, Fintype.sum_prod_type]
  refine Finset.sum_congr rfl fun t _ => Finset.sum_congr rfl fun r _ => congrArg f (Fin.ext ?_)
  show r.val + 256 * t.val = 256 * t.val + r.val
  omega

/-- An accumulator that starts at `g 0` and adds `g (n+1)` at each later step holds the sum of the first `n+1` terms. -/
theorem acc_eq_sum {M : Type*} [AddCommMonoid M] (g acc : ℕ → M) (h0 : acc 0 = g 0)
    (hs : ∀ n, acc (n + 1) = acc n + g (n + 1)) (n : ℕ) : acc n = ∑ k ∈ Finset.range (n + 1), g k := by
  induction n with
  | zero => rw [h0, Finset.sum_range_one]
  | succ n ih => rw [hs, ih, Finset.sum_range_succ _ (n + 1)]

end Cert.Spec

end
-- ==== Proof.KI.R0Pay.lean ====
import proofs.«156100_j87445534147336_1_alg».proof.Proof.Gen.KernelIdeal.Skeleton
import proofs.«156100_j87445534147336_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Fr

open Cert.KernelIdeal Cert.KernelIdeal.Gen
open Idealize.ShloMosaic Idealize.ShloMosaic.ValueIdx

/-! The degree kernel's stored values read at an index, on the extended reals. -/

/-- The reduced index `e` with the row `r` put back on axis 0 is `(r, e)`. -/
theorem k0_lift_axis0 (e : Fin 8192) (r : Fin 256) : reduces_S256x8192_S8192.lift (ix1 e) r = ix2 r e := by
  funext a
  apply Fin.ext
  match a with
  | ⟨0, _⟩ => rfl
  | ⟨1, _⟩ => rfl

/-- The reduced index `r` with the column `e` put back on axis 1 is `(r, e)`. -/
theorem k0_lift_axis1 (r : Fin 256) (e : Fin 8192) : reduces_S256x8192_S256.lift (ix1 r) e = ix2 r e := by
  funext a
  apply Fin.ext
  match a with
  | ⟨0, _⟩ => rfl
  | ⟨1, _⟩ => rfl

/-- The block's column sums: the sum over the block's 256 rows. -/
theorem k0_pay2_apply (x : Vec Ideal S256x8192 .f32) (e : Fin 8192) :
    k0_pay2 (F := Ideal) x (ix1 e) = ∑ r : Fin 256, x (ix2 r e) := by
  unfold k0_pay2
  refine (Ideal.multiReduction_add_single x 0x00000000#32 reduces_S256x8192_S8192 (.inl rfl) rfl (ix1 e)).trans ?_
  exact Finset.sum_congr rfl fun r _ => congrArg x (k0_lift_axis0 e r)

/-- The accumulated column sums: what was there plus the block's. -/
theorem k0_pay3_apply (x : Vec Ideal S256x8192 .f32) (d : Vec Ideal S8192 .f32) (e : Fin 8192) :
    k0_pay3 (F := Ideal) x d (ix1 e) = d (ix1 e) + ∑ r : Fin 256, x (ix2 r e) := by
  unfold k0_pay3
  rw [shapeCast_self]
  show d (ix1 e) + k0_pay2 x (ix1 e) = _
  rw [k0_pay2_apply]

/-- The edge scaling from the finished column sums: `1 / (d + ε)`. -/
theorem k0_pay4_apply (d : Vec Ideal S8192 .f32) (e : Fin 8192) :
    k0_pay4 (F := Ideal) d (ix1 e) = Ideal.div Cert.Spec.one (d (ix1 e) + Cert.Spec.eps) := by
  unfold k0_pay4
  rw [shapeCast_self]
  rfl

/-- The vertex scaling of a block's row: `1 / √(Σ_e x r e + ε)`. -/
theorem k0_pay1_apply (x : Vec Ideal S256x8192 .f32) (r : Fin 256) :
    k0_pay1 (F := Ideal) x (ix1 r)
      = Ideal.div Cert.Spec.one (Ideal.sqrt ((∑ e : Fin 8192, x (ix2 r e)) + Cert.Spec.eps)) := by
  unfold k0_pay1
  show Ideal.div Cert.Spec.one (Ideal.sqrt (multiReduction (F := Ideal) .add [1] S256 x 0x00000000#32 reduces_S256x8192_S256 (.inl rfl) rfl (ix1 r) + Cert.Spec.eps)) = _
  refine congrArg (fun z => Ideal.div Cert.Spec.one (Ideal.sqrt (z + Cert.Spec.eps))) ?_
  refine (Ideal.multiReduction_add_single x 0x00000000#32 reduces_S256x8192_S256 (.inl rfl) rfl (ix1 r)).trans ?_
  exact Finset.sum_congr rfl fun e _ => congrArg x (k0_lift_axis1 r e)

end Cert.KernelIdeal.Fr

end
-- ==== Proof.KI.R0Value.lean ====
import proofs.«156100_j87445534147336_1_alg».proof.Proof.KI.R0
import proofs.«156100_j87445534147336_1_alg».proof.Proof.KI.R0Pay
import proofs.«156100_j87445534147336_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
  The degree region on the extended reals: what it leaves in its two output arrays, as functions of the
  incidence array `H` it finds on entry.

  The region walks the 32768 vertices in 128 tiles of 256 rows. At tile `t` it reads rows `256 t … 256 t + 255`
  of `H` (all 8192 columns) and

  * stores, for each of the tile's rows, `1 / √(row sum + ε)` into the dv block of the same rows, which is written
    back at once: so entry `n` of dv ends as the vertex scaling of vertex `n`, written by tile `n / 256`;
  * keeps ONE de buffer of 8192 columns across the tiles: the first tile stores its column sums, every later tile
    adds its own, and the last tile then replaces the total `s` by `1 / (s + ε)`. Only the last tile writes de back,
    and its block is the whole array. A sum over the 32768 rows is the sum over the tiles of the sums over each
    tile's rows, so entry `e` of de ends as the edge scaling of edge `e`.

  Nothing here needs the entries to be finite: only regrouping of finite sums.
-/

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-- The H block the region reads at point `t`, and the H array as the region finds it, at their literal types. -/
abbrev hblk (c : Dev nD) (t : Fin cfg0.N) : Vec Ideal S256x8192 .f32 := iblk0 V c 0 t
abbrev harr (c : Dev nD) : Cert.Spec.SH.Idx → EReal := V c main_arg1

/-- The printed index maps over the grid: the H block and the dv block move with the point, the de block stays. -/
theorem idx_facts0 : ∀ t : Fin cfg0.N, win0_0.index t (0 : Fin 2) = t.val ∧ win0_0.index t (1 : Fin 2) = 0
    ∧ win0_1.index t (0 : Fin 1) = t.val ∧ win0_2.index t (0 : Fin 1) = 0 :=
  (by decide +kernel : ∀ t : Fin grid0.N, _)

/-- Row `r` of the block at point `t` is row `256 t + r` of the array. -/
theorem hblk_apply (c : Dev nD) (t : Fin cfg0.N) (r : Fin 256) (e : Fin 8192) (hb : 256 * t.val + r.val < 32768) :
    hblk V c t (ix2 r e) = harr V c (ix2 ⟨256 * t.val + r.val, hb⟩ e) := by
  obtain ⟨e0, e1, -, -⟩ := idx_facts0 t
  unfold hblk harr iblk0
  rw [View.read_apply]
  show V c main_arg1 _ = V c main_arg1 _
  congr 1
  funext a
  apply Fin.ext
  match a with
  | ⟨0, _⟩ => show win0_0.index t (0 : Fin 2) * 256 + 1 * r.val = 256 * t.val + r.val; rw [e0]; omega
  | ⟨1, _⟩ => show win0_0.index t (1 : Fin 2) * 8192 + 1 * e.val = e.val; rw [e1]; omega

/-- Tile `k`'s column sum of `H` at edge `e`: the 256 rows `256 k … 256 k + 255` (zero past the last tile). -/
def tileSum (H : Cert.Spec.SH.Idx → EReal) (e : Fin 8192) (k : ℕ) : EReal :=
  if h : k < 128 then ∑ r : Fin 256, H (ix2 ⟨256 * k + r.val, by omega⟩ e) else 0

theorem blk_colsum (c : Dev nD) (t : Fin cfg0.N) (e : Fin 8192) :
    ∑ r : Fin 256, hblk V c t (ix2 r e) = tileSum (harr V c) e t.val := by
  have ht : t.val < 128 := lt_of_lt_of_eq t.isLt N_0
  unfold tileSum
  rw [dif_pos ht]
  exact Finset.sum_congr rfl fun r _ => hblk_apply V c t r e _

/-- Before the last point the carried de buffer holds the column sums of the tiles seen so far. -/
theorem deAt0_sum (c : Dev nD) (e : Fin 8192) : ∀ (n : ℕ) (hn : n < cfg0.N), n < 127 →
    (deAt0 V c n hn : Vec Ideal S8192 .f32) (ix1 e) = ∑ k ∈ Finset.range (n + 1), tileSum (harr V c) e k
  | 0, hn, _ => by
    refine (congrFun (deAt0_zero V c hn) (ix1 e)).trans ?_
    refine (k0_pay2_apply (hblk V c ⟨0, hn⟩) e).trans ?_
    rw [blk_colsum V c ⟨0, hn⟩ e, Finset.sum_range_one]
  | n + 1, hn, h => by
    refine (congrFun (deAt0_mid V c n hn (by omega)) (ix1 e)).trans ?_
    refine (k0_pay3_apply (hblk V c ⟨n + 1, hn⟩) (deAt0 V c n (Nat.lt_of_succ_lt hn)) e).trans ?_
    rw [blk_colsum V c ⟨n + 1, hn⟩ e, deAt0_sum c e n (Nat.lt_of_succ_lt hn) (by omega), ← Finset.sum_range_succ]

/-- The 128 tiles' column sums add up to the whole column sum. -/
theorem sum_tileSum (H : Cert.Spec.SH.Idx → EReal) (e : Fin 8192) :
    ∑ k ∈ Finset.range 128, tileSum H e k = ∑ n : Fin 32768, H (ix2 n e) := by
  rw [Cert.Spec.sum_tiles (fun n => H (ix2 n e)), Finset.sum_range]
  exact Finset.sum_congr rfl fun t _ => by unfold tileSum; rw [dif_pos t.isLt]

/-- After the last point the carried de buffer holds the edge scaling. -/
theorem deAt0_final (c : Dev nD) (e : Fin 8192) (hn : 127 < cfg0.N) :
    (deAt0 V c 127 hn : Vec Ideal S8192 .f32) (ix1 e) = Cert.Spec.deC (harr V c) e := by
  refine (congrFun (deAt0_last V c hn) (ix1 e)).trans ?_
  refine (k0_pay4_apply (k0_pay3 (hblk V c ⟨127, hn⟩) (deAt0 V c 126 (Nat.lt_of_succ_lt hn))) e).trans ?_
  unfold Cert.Spec.deC
  refine congrArg (fun z => Ideal.div Cert.Spec.one (z + Cert.Spec.eps)) ?_
  refine (k0_pay3_apply (hblk V c ⟨127, hn⟩) (deAt0 V c 126 (Nat.lt_of_succ_lt hn)) e).trans ?_
  rw [blk_colsum V c ⟨127, hn⟩ e, deAt0_sum V c e 126 (Nat.lt_of_succ_lt hn) (by omega), ← sum_tileSum]
  exact (Finset.sum_range_succ (tileSum (harr V c) e) 127).symm

/-- The vertex scaling of the block at point `t`: its row `r` is vertex `256 t + r`. -/
theorem dv_point (c : Dev nD) (t : Fin cfg0.N) (r : Fin 256) (hb : 256 * t.val + r.val < 32768) :
    k0_pay1 (F := Ideal) (hblk V c t) (ix1 r) = Cert.Spec.dvC (harr V c) ⟨256 * t.val + r.val, hb⟩ := by
  refine (k0_pay1_apply (hblk V c t) r).trans ?_
  unfold Cert.Spec.dvC
  refine congrArg (fun z => Ideal.div Cert.Spec.one (Ideal.sqrt (z + Cert.Spec.eps))) ?_
  exact Finset.sum_congr rfl fun e _ => hblk_apply V c t r e hb

/-- Reading any contents of dv through point `t`'s block reads them at the block's place in the array. -/
theorem read_blk0_1 (t : Fin cfg0.N) (G : Cert.Spec.SN.Idx → EReal) (j : S256.Idx) :
    ((cfg0.win 1).blk t).view.read (Elt Ideal) G j = G (((cfg0.win 1).blk t).view.emb j) := rfl

/-- What point `t` writes back into dv is block `t` of the vertex scaling. -/
theorem flushed0_1_eq (c : Dev nD) (t : Fin cfg0.N) :
    (dat0 V c).flushed 1 t = ((cfg0.win 1).blk t).view.read (Elt Ideal) (Cert.Spec.dvG (harr V c)) := by
  obtain ⟨-, -, e2, -⟩ := idx_facts0 t
  have ht : t.val < 128 := lt_of_lt_of_eq t.isLt N_0
  show (cfg0.win 1).cut (grid0.coords t) ((dat0 V c).after 1 t) = _
  rw [after0_1, dvOut0_eq]
  funext j
  obtain ⟨r, rfl⟩ : ∃ r : Fin 256, j = ix1 r := ⟨j 0, eq_ix1 j⟩
  refine Eq.trans ?_ (read_blk0_1 t (Cert.Spec.dvG (harr V c)) (ix1 r)).symm
  show k0_pay1 (F := Ideal) (hblk V c t) (ix1 r) = _
  refine (dv_point V c t r (by omega)).trans ?_
  unfold Cert.Spec.dvG
  refine congrArg (Cert.Spec.dvC (harr V c)) (Fin.ext ?_)
  show 256 * t.val + r.val = win0_1.index t (0 : Fin 1) * 256 + 1 * r.val
  rw [e2]; omega

/-- An index of dv is in point `t`'s block iff its coordinate is in the block's range. -/
theorem mem_blk0_1 (t : Fin cfg0.N) (i : Cert.Spec.SN.Idx) :
    i ∈ ((cfg0.win 1).blk t).view.set ↔ ∀ a : Fin 1, win0_1.index t a * S256.size a ≤ (i a).val ∧ (i a).val < win0_1.index t a * S256.size a + S256.size a := by
  show i ∈ ((View.whole main_v0_0).slice (win0_1.rect t)).set ↔ _
  rw [View.set_slice_whole, Rect.mem_set_unit]
  exact Iff.rfl

/-- The dv array after the region is the vertex scaling of the H array the region found:
    vertex `n` is written back by point `n / 256`, and every point writes its block back. -/
theorem arr0_dv (c : Dev nD) :
    ((dat0 (F := Ideal) V c).arrAt 1 cfg0.N : Cert.Spec.SN.Idx → EReal) = Cert.Spec.dvG (V c main_arg1) :=
  (dat0 V c).arrAt_eq_of_cover 1 (Cert.Spec.dvG (harr V c)) (fun t _ => flushed0_1_eq V c t) fun i => by
    have hi : (i 0).val < 32768 := (i 0).isLt
    have hN : cfg0.N = 128 := N_0
    refine ⟨⟨(i 0).val / 256, by rw [hN]; omega⟩, flush0_1 _, ?_⟩
    rw [mem_blk0_1]
    intro a
    obtain ⟨-, -, e2, -⟩ := idx_facts0 ⟨(i 0).val / 256, by rw [hN]; omega⟩
    match a with
    | ⟨0, _⟩ =>
      show win0_1.index _ (0 : Fin 1) * 256 ≤ (i 0).val ∧ (i 0).val < win0_1.index _ (0 : Fin 1) * 256 + 256
      rw [e2]; dsimp only; omega

/-- The same at a point known only to be the last (its number stays a variable). -/
theorem deAt0_final_of_eq (c : Dev nD) (e : Fin 8192) (n : ℕ) (hn : n < cfg0.N) (h : n = 127) :
    (deAt0 V c n hn : Vec Ideal S8192 .f32) (ix1 e) = Cert.Spec.deC (harr V c) e := by
  subst h; exact deAt0_final V c e hn

/-- Reading any contents of de through point `t`'s block reads them at the block's place in the array. -/
theorem read_blk0_2 (t : Fin cfg0.N) (G : Cert.Spec.SE.Idx → EReal) (j : S8192.Idx) :
    ((cfg0.win 2).blk t).view.read (Elt Ideal) G j = G (((cfg0.win 2).blk t).view.emb j) := rfl

/-- The one write-back into de, at the last point, writes the edge scaling: its block is the whole array. -/
theorem flushed0_2_eq (c : Dev nD) (t : Fin cfg0.N) (hf : (cfg0.win 2).flush t = true) :
    (dat0 V c).flushed 2 t = ((cfg0.win 2).blk t).view.read (Elt Ideal) (Cert.Spec.deG (harr V c)) := by
  obtain ⟨-, -, -, e3⟩ := idx_facts0 t
  have hN : cfg0.N = 128 := N_0
  have h127 : t.val = 127 := by have := (flush0_2 t).mp hf; have := t.isLt; omega
  show (cfg0.win 2).cut (grid0.coords t) ((dat0 V c).after 2 t) = _
  rw [after0_2]
  funext j
  obtain ⟨e, rfl⟩ : ∃ e : Fin 8192, j = ix1 e := ⟨j 0, eq_ix1 j⟩
  refine Eq.trans ?_ (read_blk0_2 t (Cert.Spec.deG (harr V c)) (ix1 e)).symm
  show (deAt0 V c t.val t.isLt : Vec Ideal S8192 .f32) (ix1 e) = _
  refine (deAt0_final_of_eq V c e t.val t.isLt h127).trans ?_
  unfold Cert.Spec.deG
  refine congrArg (Cert.Spec.deC (harr V c)) (Fin.ext ?_)
  show e.val = win0_2.index t (0 : Fin 1) * 8192 + 1 * e.val
  rw [e3]; omega

/-- An index of de is in point `t`'s block iff its coordinate is in the block's range. -/
theorem mem_blk0_2 (t : Fin cfg0.N) (i : Cert.Spec.SE.Idx) :
    i ∈ ((cfg0.win 2).blk t).view.set ↔ ∀ a : Fin 1, win0_2.index t a * S8192.size a ≤ (i a).val ∧ (i a).val < win0_2.index t a * S8192.size a + S8192.size a := by
  show i ∈ ((View.whole main_v0_1).slice (win0_2.rect t)).set ↔ _
  rw [View.set_slice_whole, Rect.mem_set_unit]
  exact Iff.rfl

/-- The grid has a last point. -/
theorem exists_last0 : ∃ t : Fin cfg0.N, t.val = 127 := ⟨⟨127, by rw [show cfg0.N = 128 from N_0]; decide⟩, rfl⟩

/-- The de array after the region is the edge scaling of the H array the region found:
    only the last point writes de back, and its block is the whole array. -/
theorem arr0_de (c : Dev nD) :
    ((dat0 (F := Ideal) V c).arrAt 2 cfg0.N : Cert.Spec.SE.Idx → EReal) = Cert.Spec.deG (V c main_arg1) :=
  (dat0 V c).arrAt_eq_of_cover 2 (Cert.Spec.deG (harr V c)) (fun t hf => flushed0_2_eq V c t hf) fun i => by
    have hi : (i 0).val < 8192 := (i 0).isLt
    obtain ⟨t, ht⟩ := exists_last0
    obtain ⟨-, -, -, e3⟩ := idx_facts0 t
    refine ⟨t, (flush0_2 t).mpr (by rw [ht]), ?_⟩
    rw [mem_blk0_2]
    intro a
    match a with
    | ⟨0, _⟩ =>
      show win0_2.index t (0 : Fin 1) * 8192 ≤ (i 0).val ∧ (i 0).val < win0_2.index t (0 : Fin 1) * 8192 + 8192
      rw [e3]; omega

end Cert.KernelIdeal.Fr

end
-- ==== Proof.KI.R1Pay.lean ====
import proofs.«156100_j87445534147336_1_alg».proof.Proof.Gen.KernelIdeal.Skeleton
import proofs.«156100_j87445534147336_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Fr

open Cert.KernelIdeal Cert.KernelIdeal.Gen
open Idealize.ShloMosaic Idealize.ShloMosaic.ValueIdx

/-! The first matmul kernel's stored values read at an index, on the extended reals. -/

/-! ## A column kept as a unit axis and spread along it -/

/-- An `[a]` array cast to `[a, 1]` reads, at `(i, u)`, the operand at `i`, whatever the unit coordinate `u`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : Nat) = 1 then 0 else c.val
    rw [if_pos rfl]

/-! ## The two products at an index

The first contracts the left operand's columns with the right operand's rows; the second contracts the ROWS of both
operands. Each operand index is read off axis by axis, and the one-axis contraction index is its one coordinate. -/

theorem lhs_mm1_0 (i : S256x64.Idx) (q : dot_S256x64_S64x64_S256x64_1_0_0_1_n_n.contr.Idx) :
    (dot_S256x64_S64x64_S256x64_1_0_0_1_n_n.lhsIdx i q 0).val = (i 0).val := by
  unfold DotDims.lhsIdx
  rw [dif_neg (show ¬(0 : Fin S256x64.rank) ∈ dot_S256x64_S64x64_S256x64_1_0_0_1_n_n.lhsBatch by decide),
    dif_pos (show (0 : Fin S256x64.rank) ∈ dot_S256x64_S64x64_S256x64_1_0_0_1_n_n.lhsNonContracting by decide)]
  rfl
theorem lhs_mm1_1 (i : S256x64.Idx) (q : dot_S256x64_S64x64_S256x64_1_0_0_1_n_n.contr.Idx) :
    (dot_S256x64_S64x64_S256x64_1_0_0_1_n_n.lhsIdx i q 1).val = (q ⟨0, by decide⟩).val :=
  dot_S256x64_S64x64_S256x64_1_0_0_1_n_n.lhsIdx_val_of_single rfl i q
theorem rhs_mm1_0 (i : S256x64.Idx) (q : dot_S256x64_S64x64_S256x64_1_0_0_1_n_n.contr.Idx) :
    (dot_S256x64_S64x64_S256x64_1_0_0_1_n_n.rhsIdx i q 0).val = (q ⟨0, by decide⟩).val :=
  dot_S256x64_S64x64_S256x64_1_0_0_1_n_n.rhsIdx_val_of_single rfl i q
theorem rhs_mm1_1 (i : S256x64.Idx) (q : dot_S256x64_S64x64_S256x64_1_0_0_1_n_n.contr.Idx) :
    (dot_S256x64_S64x64_S256x64_1_0_0_1_n_n.rhsIdx i q 1).val = (i 1).val := by
  unfold DotDims.rhsIdx
  rw [dif_neg (show ¬(1 : Fin S64x64.rank) ∈ dot_S256x64_S64x64_S256x64_1_0_0_1_n_n.rhsBatch by decide),
    dif_pos (show (1 : Fin S64x64.rank) ∈ dot_S256x64_S64x64_S256x64_1_0_0_1_n_n.rhsNonContracting by decide)]
  rfl

/-- The first product into the zero accumulator, at `(r, f)`: `Σ_k a r k · b k f`. -/
theorem mm1_apply (a : FVec Ideal S256x64 .bf16) (b : FVec Ideal S64x64 .bf16) (r : Fin 256) (f : Fin 64) :
    matmul dot_S256x64_S64x64_S256x64_1_0_0_1_n_n none a b (constant S256x64 .f32 0x00000000#32) (ix2 r f)
      = ∑ k : Fin 64, a (ix2 r k) * b (ix2 k f) := by
  simp only [matmul]
  rw [Ideal.matmul_constant_zero_apply,
    ← Equiv.sum_comp (contrEquiv1 dot_S256x64_S64x64_S256x64_1_0_0_1_n_n 64 rfl rfl).symm]
  refine Finset.sum_congr rfl fun k _ => ?_
  have hk := contrEquiv1_symm_val dot_S256x64_S64x64_S256x64_1_0_0_1_n_n 64 rfl rfl k
  have el : dot_S256x64_S64x64_S256x64_1_0_0_1_n_n.lhsIdx (ix2 r f)
      ((contrEquiv1 dot_S256x64_S64x64_S256x64_1_0_0_1_n_n 64 rfl rfl).symm k) = ix2 r k := funext fun c => Fin.ext (by
    match c with
    | ⟨0, _⟩ => exact lhs_mm1_0 _ _
    | ⟨1, _⟩ => exact (lhs_mm1_1 _ _).trans hk)
  have er : dot_S256x64_S64x64_S256x64_1_0_0_1_n_n.rhsIdx (ix2 r f)
      ((contrEquiv1 dot_S256x64_S64x64_S256x64_1_0_0_1_n_n 64 rfl rfl).symm k) = ix2 k f := funext fun c => Fin.ext (by
    match c with
    | ⟨0, _⟩ => exact (rhs_mm1_0 _ _).trans hk
    | ⟨1, _⟩ => exact rhs_mm1_1 _ _)
  rw [el, er]

theorem lhs_mm2_0 (i : S8192x64.Idx) (q : dot_S256x8192_S256x64_S8192x64_0_0_1_1_n_n.contr.Idx) :
    (dot_S256x8192_S256x64_S8192x64_0_0_1_1_n_n.lhsIdx i q 0).val = (q ⟨0, by decide⟩).val :=
  dot_S256x8192_S256x64_S8192x64_0_0_1_1_n_n.lhsIdx_val_of_single rfl i q
theorem lhs_mm2_1 (i : S8192x64.Idx) (q : dot_S256x8192_S256x64_S8192x64_0_0_1_1_n_n.contr.Idx) :
    (dot_S256x8192_S256x64_S8192x64_0_0_1_1_n_n.lhsIdx i q 1).val = (i 0).val := by
  unfold DotDims.lhsIdx
  rw [dif_neg (show ¬(1 : Fin S256x8192.rank) ∈ dot_S256x8192_S256x64_S8192x64_0_0_1_1_n_n.lhsBatch by decide),
    dif_pos (show (1 : Fin S256x8192.rank) ∈ dot_S256x8192_S256x64_S8192x64_0_0_1_1_n_n.lhsNonContracting by decide)]
  rfl
theorem rhs_mm2_0 (i : S8192x64.Idx) (q : dot_S256x8192_S256x64_S8192x64_0_0_1_1_n_n.contr.Idx) :
    (dot_S256x8192_S256x64_S8192x64_0_0_1_1_n_n.rhsIdx i q 0).val = (q ⟨0, by decide⟩).val :=
  dot_S256x8192_S256x64_S8192x64_0_0_1_1_n_n.rhsIdx_val_of_single rfl i q
theorem rhs_mm2_1 (i : S8192x64.Idx) (q : dot_S256x8192_S256x64_S8192x64_0_0_1_1_n_n.contr.Idx) :
    (dot_S256x8192_S256x64_S8192x64_0_0_1_1_n_n.rhsIdx i q 1).val = (i 1).val := by
  unfold DotDims.rhsIdx
  rw [dif_neg (show ¬(1 : Fin S256x64.rank) ∈ dot_S256x8192_S256x64_S8192x64_0_0_1_1_n_n.rhsBatch by decide),
    dif_pos (show (1 : Fin S256x64.rank) ∈ dot_S256x8192_S256x64_S8192x64_0_0_1_1_n_n.rhsNonContracting by decide)]
  rfl

/-- The second product into the zero accumulator, at `(e, f)`: `Σ_r a r e · b r f`, the rows of both contracted. -/
theorem mm2_apply (a : FVec Ideal S256x8192 .bf16) (b : FVec Ideal S256x64 .bf16) (e : Fin 8192) (f : Fin 64) :
    matmul dot_S256x8192_S256x64_S8192x64_0_0_1_1_n_n none a b (constant S8192x64 .f32 0x00000000#32) (ix2 e f)
      = ∑ r : Fin 256, a (ix2 r e) * b (ix2 r f) := by
  simp only [matmul]
  rw [Ideal.matmul_constant_zero_apply,
    ← Equiv.sum_comp (contrEquiv1 dot_S256x8192_S256x64_S8192x64_0_0_1_1_n_n 256 rfl rfl).symm]
  refine Finset.sum_congr rfl fun k _ => ?_
  have hk := contrEquiv1_symm_val dot_S256x8192_S256x64_S8192x64_0_0_1_1_n_n 256 rfl rfl k
  have el : dot_S256x8192_S256x64_S8192x64_0_0_1_1_n_n.lhsIdx (ix2 e f)
      ((contrEquiv1 dot_S256x8192_S256x64_S8192x64_0_0_1_1_n_n 256 rfl rfl).symm k) = ix2 k e := funext fun c => Fin.ext (by
    match c with
    | ⟨0, _⟩ => exact (lhs_mm2_0 _ _).trans hk
    | ⟨1, _⟩ => exact lhs_mm2_1 _ _)
  have er : dot_S256x8192_S256x64_S8192x64_0_0_1_1_n_n.rhsIdx (ix2 e f)
      ((contrEquiv1 dot_S256x8192_S256x64_S8192x64_0_0_1_1_n_n 256 rfl rfl).symm k) = ix2 k f := funext fun c => Fin.ext (by
    match c with
    | ⟨0, _⟩ => exact (rhs_mm2_0 _ _).trans hk
    | ⟨1, _⟩ => exact rhs_mm2_1 _ _)
  rw [el, er]

/-! ## The three stored values -/

/-- The value stored at the first grid point is the zero splat. -/
theorem k1_pay1_apply (e : Fin 8192) (f : Fin 64) : k1_pay1 (F := Ideal) (ix2 e f) = 0 :=
  Ideal.ofBits_zero_f32

/-- The accumulated value: what was there plus `Σ_r x0 r e · (x3 r · Σ_k x1 r k · x2 k f)`. The narrowing format changes
    are the identity on the extended reals. -/
theorem k1_pay2_apply (x0 : Vec Ideal S256x8192 .f32) (x1 : Vec Ideal S256x64 .f32) (x2 : Vec Ideal S64x64 .f32)
    (x3 : Vec Ideal S256 .f32) (d : Vec Ideal S8192x64 .f32) (e : Fin 8192) (f : Fin 64) :
    k1_pay2 (F := Ideal) x0 x1 x2 x3 d (ix2 e f)
      = d (ix2 e f) + ∑ r : Fin 256, x0 (ix2 r e) * (x3 (ix1 r) * ∑ k : Fin 64, x1 (ix2 r k) * x2 (ix2 k f)) := by
  unfold k1_pay2
  simp only [shapeCast_self]
  rw [addf_apply, mm2_apply]
  refine congrArg (d (ix2 e f) + ·) (Finset.sum_congr rfl fun r _ => ?_)
  rw [truncf_apply, truncf_apply, mulf_apply, broadcastTo_a1_ab_apply, shapeCast_a_a1_apply, mm1_apply]
  simp only [truncf_apply]

/-- The value stored at the last grid point: the edge scaling times what was there. -/
theorem k1_pay3_apply (x4 : Vec Ideal S8192 .f32) (d : Vec Ideal S8192x64 .f32) (e : Fin 8192) (f : Fin 64) :
    k1_pay3 (F := Ideal) x4 d (ix2 e f) = x4 (ix1 e) * d (ix2 e f) := by
  unfold k1_pay3
  simp only [shapeCast_self]
  rw [mulf_apply, broadcastTo_a1_ab_apply, shapeCast_a_a1_apply]

end Cert.KernelIdeal.Fr

end
-- ==== Proof.KI.R1Value.lean ====
/-
  What the second region leaves in the array Z, at the extended reals: entry (e, f) is the edge scaling de e times the sum,
  over all 32768 vertices n, of H n e * (dv n * (X W) n f), as a function of what the region found in H, X, W, dv and de.
  The body adds one tile of 256 vertices per grid point into the one block of Z it carries (zeroed at the first point,
  scaled by de at the last, written back once); the tiles' sums regroup to the sum over all vertices.
-/
import proofs.«156100_j87445534147336_1_alg».proof.Proof.KI.R1
import proofs.«156100_j87445534147336_1_alg».proof.Proof.KI.R1Pay
import proofs.«156100_j87445534147336_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

namespace R1V

/-! ## The arrays the region reads, and their blocks at a point

The five arrays as functions on the extended reals, and the five blocks the body loads at point t. -/

abbrev hA (c : Dev nD) : Cert.Spec.SH.Idx → EReal := V c main_arg1
abbrev xA (c : Dev nD) : Cert.Spec.SX.Idx → EReal := V c main_arg0
abbrev wA (c : Dev nD) : Cert.Spec.SW.Idx → EReal := V c main_arg2
abbrev dvA (c : Dev nD) : Cert.Spec.SN.Idx → EReal := V c main_v0_0
abbrev deA (c : Dev nD) : Cert.Spec.SE.Idx → EReal := V c main_v0_1

abbrev hB (c : Dev nD) (t : Fin cfg1.N) : Vec Ideal S256x8192 .f32 := iblk1 V c 0 t
abbrev xB (c : Dev nD) (t : Fin cfg1.N) : Vec Ideal S256x64 .f32 := iblk1 V c 1 t
abbrev wB (c : Dev nD) (t : Fin cfg1.N) : Vec Ideal S64x64 .f32 := iblk1 V c 2 t
abbrev dvB (c : Dev nD) (t : Fin cfg1.N) : Vec Ideal S256 .f32 := iblk1 V c 3 t
abbrev deB (c : Dev nD) (t : Fin cfg1.N) : Vec Ideal S8192 .f32 := iblk1 V c 4 t

/-- The block indices at point t: tile t of the rows for H, X and dv; the one block for W, de and Z. -/
theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx1_1 : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem idx1_3 : ∀ t : Fin cfg1.N, win1_3.index t (0 : Fin 1) = t.val :=
  (by decide +kernel : ∀ t : Fin grid1.N, win1_3.index t (0 : Fin 1) = t.val)
theorem idx1_4 : ∀ t : Fin cfg1.N, win1_4.index t (0 : Fin 1) = 0 :=
  (by decide +kernel : ∀ t : Fin grid1.N, win1_4.index t (0 : Fin 1) = 0)

/-- Row r of the H block at point t is row 256 t + r of H. -/
theorem hB_apply (c : Dev nD) (t : Fin cfg1.N) (r : Fin 256) (e : Fin 8192) (h : 256 * t.val + r.val < 32768) :
    hB V c t (ix2 r e) = hA V c (ix2 ⟨256 * t.val + r.val, h⟩ e) := by
  have hi := idx1_0 t
  unfold hB hA iblk1
  rw [View.read_apply]
  show V c main_arg1 _ = V c main_arg1 _
  congr 1
  funext a
  apply Fin.ext
  match a with
  | ⟨0, _⟩ => show win1_0.index t 0 * 256 + 1 * r.val = 256 * t.val + r.val; rw [hi.1]; omega
  | ⟨1, _⟩ => show win1_0.index t 1 * 8192 + 1 * e.val = e.val; rw [hi.2]; omega

/-- Row r of the X block at point t is row 256 t + r of X. -/
theorem xB_apply (c : Dev nD) (t : Fin cfg1.N) (r : Fin 256) (k : Fin 64) (h : 256 * t.val + r.val < 32768) :
    xB V c t (ix2 r k) = xA V c (ix2 ⟨256 * t.val + r.val, h⟩ k) := by
  have hi := idx1_1 t
  unfold xB xA iblk1
  rw [View.read_apply]
  show V c main_arg0 _ = V c main_arg0 _
  congr 1
  funext a
  apply Fin.ext
  match a with
  | ⟨0, _⟩ => show win1_1.index t 0 * 256 + 1 * r.val = 256 * t.val + r.val; rw [hi.1]; omega
  | ⟨1, _⟩ => show win1_1.index t 1 * 64 + 1 * k.val = k.val; rw [hi.2]; omega

/-- The W block at any point is W. -/
theorem wB_apply (c : Dev nD) (t : Fin cfg1.N) (k : Fin 64) (f : Fin 64) :
    wB V c t (ix2 k f) = wA V c (ix2 k f) := by
  have hi := idx1_2 t
  unfold wB wA iblk1
  rw [View.read_apply]
  show V c main_arg2 _ = V c main_arg2 _
  congr 1
  funext a
  apply Fin.ext
  match a with
  | ⟨0, _⟩ => show win1_2.index t 0 * 64 + 1 * k.val = k.val; rw [hi.1]; omega
  | ⟨1, _⟩ => show win1_2.index t 1 * 64 + 1 * f.val = f.val; rw [hi.2]; omega

/-- Entry r of the dv block at point t is entry 256 t + r of dv. -/
theorem dvB_apply (c : Dev nD) (t : Fin cfg1.N) (r : Fin 256) (h : 256 * t.val + r.val < 32768) :
    dvB V c t (ix1 r) = dvA V c (ix1 ⟨256 * t.val + r.val, h⟩) := by
  have hi := idx1_3 t
  unfold dvB dvA iblk1
  rw [View.read_apply]
  show V c main_v0_0 _ = V c main_v0_0 _
  congr 1
  funext a
  apply Fin.ext
  match a with
  | ⟨0, _⟩ => show win1_3.index t 0 * 256 + 1 * r.val = 256 * t.val + r.val; rw [hi]; omega

/-- The de block at any point is de. -/
theorem deB_apply (c : Dev nD) (t : Fin cfg1.N) (e : Fin 8192) :
    deB V c t (ix1 e) = deA V c (ix1 e) := by
  have hi := idx1_4 t
  unfold deB deA iblk1
  rw [View.read_apply]
  show V c main_v0_1 _ = V c main_v0_1 _
  congr 1
  funext a
  apply Fin.ext
  match a with
  | ⟨0, _⟩ => show win1_4.index t 0 * 8192 + 1 * e.val = e.val; rw [hi]; omega

/-! ## The accumulation over the points -/

/-- Vertex n's term of entry (e, f) of Z, before the edge scaling. -/
def vterm (H : Cert.Spec.SH.Idx → EReal) (X : Cert.Spec.SX.Idx → EReal) (W : Cert.Spec.SW.Idx → EReal)
    (dv : Cert.Spec.SN.Idx → EReal) (e : Fin 8192) (f : Fin 64) (n : Fin 32768) : EReal :=
  H (ix2 n e) * (dv (ix1 n) * ∑ k : Fin 64, X (ix2 n k) * W (ix2 k f))

/-- The 256 terms of tile k added; nothing past the last tile. -/
def tsum (H : Cert.Spec.SH.Idx → EReal) (X : Cert.Spec.SX.Idx → EReal) (W : Cert.Spec.SW.Idx → EReal)
    (dv : Cert.Spec.SN.Idx → EReal) (e : Fin 8192) (f : Fin 64) (k : ℕ) : EReal :=
  if h : k < 128 then ∑ r : Fin 256, vterm H X W dv e f ⟨256 * k + r.val, by have := r.isLt; omega⟩ else 0

/-- The update at point n adds tile n's terms to what the block held. -/
theorem step_apply (c : Dev nD) (n : ℕ) (hn : n < cfg1.N) (d : Vec Ideal S8192x64 .f32) (e : Fin 8192) (f : Fin 64) :
    k1_pay2 (F := Ideal) (hB V c ⟨n, hn⟩) (xB V c ⟨n, hn⟩) (wB V c ⟨n, hn⟩) (dvB V c ⟨n, hn⟩) d (ix2 e f)
      = d (ix2 e f) + tsum (hA V c) (xA V c) (wA V c) (dvA V c) e f n := by
  have ht : n < 128 := Nat.lt_of_lt_of_eq hn N_1
  refine (k1_pay2_apply (hB V c ⟨n, hn⟩) (xB V c ⟨n, hn⟩) (wB V c ⟨n, hn⟩) (dvB V c ⟨n, hn⟩) d e f).trans ?_
  refine congrArg (d (ix2 e f) + ·) ?_
  unfold tsum
  rw [dif_pos ht]
  refine Finset.sum_congr rfl fun r _ => ?_
  have hr : 256 * n + r.val < 32768 := by have := r.isLt; omega
  unfold vterm
  rw [hB_apply V c ⟨n, hn⟩ r e hr, dvB_apply V c ⟨n, hn⟩ r hr]
  refine congrArg (fun s => _ * (_ * s)) (Finset.sum_congr rfl fun k _ => ?_)
  rw [xB_apply V c ⟨n, hn⟩ r k hr, wB_apply V c ⟨n, hn⟩ k f]

/-- Before the last point the block holds the terms of the tiles seen so far: it starts from zero at point 0. -/
theorem zAt1_partial (c : Dev nD) (e : Fin 8192) (f : Fin 64) :
    ∀ (n : ℕ) (hn : n < cfg1.N), n ≠ 127 →
      zAt1 V c n hn (ix2 e f) = ∑ k ∈ Finset.range (n + 1), tsum (hA V c) (xA V c) (wA V c) (dvA V c) e f k
  | 0, h, _ => by
    refine (congrFun (zAt1_zero V c h) (ix2 e f)).trans ?_
    refine (step_apply V c 0 h (k1_pay1 (F := Ideal)) e f).trans ?_
    rw [k1_pay1_apply, zero_add, Finset.sum_range_one]
  | n + 1, h, h127 => by
    have h' : n + 1 < 128 := Nat.lt_of_lt_of_eq h N_1
    refine (congrFun (zAt1_mid V c n h h127) (ix2 e f)).trans ?_
    refine (step_apply V c (n + 1) h (zAt1 V c n (Nat.lt_of_succ_lt h)) e f).trans ?_
    rw [zAt1_partial c e f n (Nat.lt_of_succ_lt h) (by omega), Finset.sum_range_succ _ (n + 1)]

/-- After the last point: the edge scaling times all 128 tiles' terms, which is the sum over all vertices. -/
theorem zAt1_last_apply (c : Dev nD) (h : 127 < cfg1.N) (e : Fin 8192) (f : Fin 64) :
    zAt1 V c 127 h (ix2 e f) = Cert.Spec.zC (hA V c) (xA V c) (wA V c) (dvA V c) (deA V c) e f := by
  refine (congrFun (zAt1_last V c h) (ix2 e f)).trans ?_
  refine (k1_pay3_apply (deB V c ⟨127, h⟩) (k1_pay2 (F := Ideal) (hB V c ⟨127, h⟩) (xB V c ⟨127, h⟩) (wB V c ⟨127, h⟩)
    (dvB V c ⟨127, h⟩) (zAt1 V c 126 (Nat.lt_of_succ_lt h))) e f).trans ?_
  rw [deB_apply V c ⟨127, h⟩ e, step_apply V c 127 h (zAt1 V c 126 (Nat.lt_of_succ_lt h)) e f,
    zAt1_partial V c e f 126 (Nat.lt_of_succ_lt h) (by decide)]
  have hsum : ∑ k ∈ Finset.range (126 + 1), tsum (hA V c) (xA V c) (wA V c) (dvA V c) e f k
        + tsum (hA V c) (xA V c) (wA V c) (dvA V c) e f 127
      = ∑ k ∈ Finset.range 128, tsum (hA V c) (xA V c) (wA V c) (dvA V c) e f k :=
    (Finset.sum_range_succ _ 127).symm
  rw [hsum]
  show _ = deA V c (ix1 e) * ∑ n : Fin 32768, vterm (hA V c) (xA V c) (wA V c) (dvA V c) e f n
  refine congrArg (deA V c (ix1 e) * ·) ?_
  rw [Cert.Spec.sum_tiles (vterm (hA V c) (xA V c) (wA V c) (dvA V c) e f),
    ← Fin.sum_univ_eq_sum_range (fun k => tsum (hA V c) (xA V c) (wA V c) (dvA V c) e f k) 128]
  refine Finset.sum_congr rfl fun t _ => ?_
  unfold tsum
  rw [dif_pos t.isLt]

/-! ## The array the region leaves -/

/-- What the region leaves in Z, as a function of what it found in H, X, W, dv and de. -/
abbrev zRes (c : Dev nD) : Cert.Spec.SZ.Idx → EReal :=
  Cert.Spec.zG (hA V c) (xA V c) (wA V c) (dvA V c) (deA V c)

/-- The block after the last point is that function. -/
theorem zAt1_final (c : Dev nD) (h : 127 < cfg1.N) : (zAt1 V c 127 h : Cert.Spec.SZ.Idx → EReal) = zRes V c := by
  funext i
  obtain ⟨e, f, rfl⟩ : ∃ (e : Fin 8192) (f : Fin 64), i = ix2 e f := ⟨i 0, i 1, eq_ix2 i⟩
  exact zAt1_last_apply V c h e f

/-- The Z window's one block is the whole array, at every point. -/
theorem idx1_5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
theorem xsize1_5 : ∀ t : Fin cfg1.N, win1_5.xsize (grid1.coords t) (0 : Fin 2) = 8192 ∧ win1_5.xsize (grid1.coords t) (1 : Fin 2) = 64 :=
  (by decide +kernel : ∀ t : Fin grid1.N, win1_5.xsize (grid1.coords t) (0 : Fin 2) = 8192 ∧ win1_5.xsize (grid1.coords t) (1 : Fin 2) = 64)

/-- The one write-back, at the last point, writes that function's one block. -/
theorem flushed1_5_eq (c : Dev nD) (t : Fin cfg1.N) (hf : (cfg1.win 5).flush t = true) :
    (dat1 V c).flushed 5 t = ((cfg1.win 5).blk t).view.read (Elt Ideal) (zRes V c) := by
  have hN : cfg1.N = 128 := N_1
  have h127 : t.val = 127 := by have := (flush1_5 t).mp hf; have := t.isLt; omega
  have hlt : 127 < cfg1.N := by rw [hN]; decide
  obtain rfl : t = ⟨127, hlt⟩ := Fin.ext h127
  have e : (dat1 V c).after 5 ⟨127, hlt⟩ = zRes V c := (after1_5 V c ⟨127, hlt⟩).trans (zAt1_final V c hlt)
  show (cfg1.win 5).cut (grid1.coords ⟨127, hlt⟩) ((dat1 V c).after 5 ⟨127, hlt⟩) = _
  rw [e]
  have hi := idx1_5 ⟨127, hlt⟩
  have hz' : (fun a => win1_5.index ⟨127, hlt⟩ a * main_v1.ty.shape.size a) = fun _ => 0 := funext fun a => by
    match a with
    | ⟨0, _⟩ => show win1_5.index ⟨127, hlt⟩ 0 * _ = 0; rw [hi.1, Nat.zero_mul]
    | ⟨1, _⟩ => show win1_5.index ⟨127, hlt⟩ 1 * _ = 0; rw [hi.2, Nat.zero_mul]
  exact (Memref.read_access_unit_zero (Elt Ideal) main_v1 hz' (fun a => by rw [congrFun hz' a]; simp) (zRes V c)).symm

/-- The last point's block covers every index of Z. -/
theorem cover1_5 (i : S8192x64.Idx) : ∃ t : Fin cfg1.N, (cfg1.win 5).flush t = true ∧ i ∈ ((cfg1.win 5).blk t).view.set := by
  have h0 : (i 0 : Nat) < 8192 := (i 0).isLt
  have h1 : (i 1 : Nat) < 64 := (i 1).isLt
  have hlt : 127 < cfg1.N := by rw [show cfg1.N = 128 from N_1]; decide
  refine ⟨⟨127, hlt⟩, (flush1_5 _).mpr rfl, ?_⟩
  have hi := idx1_5 ⟨127, hlt⟩
  have hx := xsize1_5 ⟨127, hlt⟩
  show i ∈ ((View.whole main_v1).slice (win1_5.rect ⟨127, hlt⟩)).set
  rw [View.set_slice_whole, Rect.mem_set_unit]
  intro a
  match a with
  | ⟨0, _⟩ => show win1_5.index ⟨127, hlt⟩ 0 * win1_5.size 0 ≤ (i 0 : Nat) ∧ (i 0 : Nat) < win1_5.index ⟨127, hlt⟩ 0 * win1_5.size 0 + win1_5.xsize (grid1.coords ⟨127, hlt⟩) 0
              rw [hi.1, hx.1]; omega
  | ⟨1, _⟩ => show win1_5.index ⟨127, hlt⟩ 1 * win1_5.size 1 ≤ (i 1 : Nat) ∧ (i 1 : Nat) < win1_5.index ⟨127, hlt⟩ 1 * win1_5.size 1 + win1_5.xsize (grid1.coords ⟨127, hlt⟩) 1
              rw [hi.2, hx.2]; omega

end R1V

/-- So the region leaves, in the array Z, the edge-scaled sums over all vertices of what it found in H, X, W, dv and de. -/
theorem arr1_z (c : Dev nD) :
    ((dat1 (F := Ideal) V c).arrAt 5 cfg1.N : Cert.Spec.SZ.Idx → EReal)
      = Cert.Spec.zG (V c main_arg1) (V c main_arg0) (V c main_arg2) (V c main_v0_0) (V c main_v0_1) :=
  (dat1 V c).arrAt_eq_of_cover 5 (R1V.zRes V c) (R1V.flushed1_5_eq V c) R1V.cover1_5

end Cert.KernelIdeal.Fr

end
-- ==== Proof.KI.R2Value.lean ====
import proofs.«156100_j87445534147336_1_alg».proof.Proof.KI.R2
import proofs.«156100_j87445534147336_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! # Region 2 at the ideal values: the output array is `Spec.oG` of the entry contents -/

/-! ## The payload at an index -/

/-- The left operand of the product is read at (row of the output, contraction index), -/
theorem lhs2_0 (i : S256x64.Idx) (q : dot_S256x8192_S8192x64_S256x64_1_0_0_1_n_n.contr.Idx) : (dot_S256x8192_S8192x64_S256x64_1_0_0_1_n_n.lhsIdx i q 0).val = (i 0).val := by
  unfold DotDims.lhsIdx
  rw [dif_neg (show ¬(0 : Fin S256x8192.rank) ∈ dot_S256x8192_S8192x64_S256x64_1_0_0_1_n_n.lhsBatch by decide), dif_pos (show (0 : Fin S256x8192.rank) ∈ dot_S256x8192_S8192x64_S256x64_1_0_0_1_n_n.lhsNonContracting by decide)]
  rfl
theorem lhs2_1 (i : S256x64.Idx) (q : dot_S256x8192_S8192x64_S256x64_1_0_0_1_n_n.contr.Idx) : (dot_S256x8192_S8192x64_S256x64_1_0_0_1_n_n.lhsIdx i q 1).val = (q ⟨0, by decide⟩).val :=
  dot_S256x8192_S8192x64_S256x64_1_0_0_1_n_n.lhsIdx_val_of_single rfl i q
/-- the right operand at (contraction index, column of the output). -/
theorem rhs2_0 (i : S256x64.Idx) (q : dot_S256x8192_S8192x64_S256x64_1_0_0_1_n_n.contr.Idx) : (dot_S256x8192_S8192x64_S256x64_1_0_0_1_n_n.rhsIdx i q 0).val = (q ⟨0, by decide⟩).val :=
  dot_S256x8192_S8192x64_S256x64_1_0_0_1_n_n.rhsIdx_val_of_single rfl i q
theorem rhs2_1 (i : S256x64.Idx) (q : dot_S256x8192_S8192x64_S256x64_1_0_0_1_n_n.contr.Idx) : (dot_S256x8192_S8192x64_S256x64_1_0_0_1_n_n.rhsIdx i q 1).val = (i 1).val := by
  unfold DotDims.rhsIdx
  rw [dif_neg (show ¬(1 : Fin S8192x64.rank) ∈ dot_S256x8192_S8192x64_S256x64_1_0_0_1_n_n.rhsBatch by decide), dif_pos (show (1 : Fin S8192x64.rank) ∈ dot_S256x8192_S8192x64_S256x64_1_0_0_1_n_n.rhsNonContracting by decide)]
  rfl

/-- The product into a zero accumulator, at the ideal values and at an index: the sum over the 8192 edges. -/
theorem matmul2_apply (a : FVec Ideal S256x8192 .bf16) (b : FVec Ideal S8192x64 .bf16) (r : Fin 256) (f : Fin 64) :
    matmul dot_S256x8192_S8192x64_S256x64_1_0_0_1_n_n none a b (constant S256x64 .f32 0x00000000#32) (ix2 r f) = ∑ e : Fin 8192, a (ix2 r e) * b (ix2 e f) := by
  simp only [matmul]
  rw [Ideal.matmul_constant_zero_apply, ← Equiv.sum_comp (contrEquiv1 dot_S256x8192_S8192x64_S256x64_1_0_0_1_n_n 8192 rfl rfl).symm]
  refine Finset.sum_congr rfl fun k _ => ?_
  have hk := contrEquiv1_symm_val dot_S256x8192_S8192x64_S256x64_1_0_0_1_n_n 8192 rfl rfl k
  have el : dot_S256x8192_S8192x64_S256x64_1_0_0_1_n_n.lhsIdx (ix2 r f) ((contrEquiv1 dot_S256x8192_S8192x64_S256x64_1_0_0_1_n_n 8192 rfl rfl).symm k) = ix2 r k := funext fun ax => Fin.ext (by
    match ax with
    | ⟨0, _⟩ => exact lhs2_0 _ _
    | ⟨1, _⟩ => exact (lhs2_1 _ _).trans hk)
  have er : dot_S256x8192_S8192x64_S256x64_1_0_0_1_n_n.rhsIdx (ix2 r f) ((contrEquiv1 dot_S256x8192_S8192x64_S256x64_1_0_0_1_n_n 8192 rfl rfl).symm k) = ix2 k f := funext fun ax => Fin.ext (by
    match ax with
    | ⟨0, _⟩ => exact (rhs2_0 _ _).trans hk
    | ⟨1, _⟩ => exact rhs2_1 _ _)
  rw [el, er]

/-- A vector of 256 made a column and spread over 64 columns reads, at (r, f), the vector at r. -/
theorem spread_col2_apply {α : Type} (x : S256.Idx → α) (r : Fin 256) (f : Fin 64) :
    broadcastTo S256x64 (shapeCast S256x1 x shapeCasts_S256_S256x1) broadcasts_S256x1_S256x64 (ix2 r f) = x (ix1 r) := by
  rw [broadcastTo_apply _ broadcasts_S256x1_S256x64 (ix2 r f) (ix2 r (0 : Fin 1)) (fun ax => by
    match ax with
    | ⟨0, _⟩ => show r.val = if (256 : Nat) = 1 then 0 else r.val; rw [if_neg (by decide)]
    | ⟨1, _⟩ => show 0 = if (1 : Nat) = 1 then 0 else f.val; rw [if_pos rfl])]
  exact shapeCast_apply x shapeCasts_S256_S256x1 _ _ (by
    rw [Shape.rowMajor_val_two, Shape.rowMajor_val_one]
    show r.val = r.val * 1 + 0
    omega)

/-- A vector of 64 made a row and spread over 256 rows reads, at (r, f), the vector at f. -/
theorem spread_row2_apply {α : Type} (x : S64.Idx → α) (r : Fin 256) (f : Fin 64) :
    broadcastTo S256x64 (shapeCast S1x64 x shapeCasts_S64_S1x64) broadcasts_S1x64_S256x64 (ix2 r f) = x (ix1 f) := by
  rw [broadcastTo_1b_ab_apply, shapeCast_a_1a_apply]

/-- THE PAYLOAD AT AN INDEX: at the ideal values the roundings to the narrow type are the identity, so the stored block
    at (r, f) is the vertex scaling at r times the sum over the edges of the incidence block times the edge features,
    plus the bias at f. -/
theorem payload2_apply (x0 : Vec Ideal S256x8192 .f32) (x1 : Vec Ideal S8192x64 .f32) (x2 : Vec Ideal S256 .f32) (x3 : Vec Ideal S64 .f32)
    (r : Fin 256) (f : Fin 64) :
    (k2_pay1 (F := Ideal) x0 x1 x2 x3 (ix2 r f) : EReal)
      = (x2 (ix1 r) : EReal) * (∑ e : Fin 8192, (x0 (ix2 r e) : EReal) * (x1 (ix2 e f) : EReal)) + (x3 (ix1 f) : EReal) := by
  unfold k2_pay1
  simp only [addf_apply, mulf_apply]
  rw [spread_col2_apply, spread_row2_apply, matmul2_apply]
  simp only [shapeCast_self, truncf_apply]

/-! ## From blocks to the array -/

variable (V : (c : Dev nD) → (b : Ref sig .tc) → Buf (Elt Ideal) ((c : Thread nD τ).loc b))

/-- The index maps over the grid: the blocks of the incidence matrix, of the vertex scaling and of the output move with
    the point along the rows; the edge features and the bias are one block each. -/
theorem index_maps2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = t.val
    ∧ win2_3.index t (0 : Fin 1) = 0
    ∧ win2_4.index t (0 : Fin 2) = t.val ∧ win2_4.index t (1 : Fin 2) = 0 :=
  (by decide +kernel : ∀ t : Fin grid2.N, _)

/-- The incidence block at point `t` is rows `256 t … 256 t + 255` of the incidence matrix. -/
theorem blk2_0_apply (c : Dev nD) (t : Fin cfg2.N) (x : S256x8192.Idx) (k : S32768x8192.Idx)
    (hk0 : (k 0).val = 256 * t.val + (x 0).val) (hk1 : (k 1).val = (x 1).val) :
    (iblk2 (F := Ideal) V c 0 t : Vec Ideal S256x8192 .f32) x = (V c main_arg1 : S32768x8192.Idx → EReal) k := by
  obtain ⟨e0, e1, -⟩ := index_maps2 t
  unfold iblk2
  rw [View.read_apply]
  show V c main_arg1 _ = V c main_arg1 _
  congr 1
  funext a
  apply Fin.ext
  match a with
  | ⟨0, _⟩ => show win2_0.index t 0 * 256 + 1 * (x 0).val = (k 0).val; rw [e0, hk0]; omega
  | ⟨1, _⟩ => show win2_0.index t 1 * 8192 + 1 * (x 1).val = (k 1).val; rw [e1, hk1]; omega

/-- The edge-feature block at every point is the whole array. -/
theorem blk2_1_apply (c : Dev nD) (t : Fin cfg2.N) (x : S8192x64.Idx) (k : S8192x64.Idx)
    (hk0 : (k 0).val = (x 0).val) (hk1 : (k 1).val = (x 1).val) :
    (iblk2 (F := Ideal) V c 1 t : Vec Ideal S8192x64 .f32) x = (V c main_v1 : S8192x64.Idx → EReal) k := by
  obtain ⟨-, -, e0, e1, -⟩ := index_maps2 t
  unfold iblk2
  rw [View.read_apply]
  show V c main_v1 _ = V c main_v1 _
  congr 1
  funext a
  apply Fin.ext
  match a with
  | ⟨0, _⟩ => show win2_1.index t 0 * 8192 + 1 * (x 0).val = (k 0).val; rw [e0, hk0]; omega
  | ⟨1, _⟩ => show win2_1.index t 1 * 64 + 1 * (x 1).val = (k 1).val; rw [e1, hk1]; omega

/-- The vertex-scaling block at point `t` is entries `256 t … 256 t + 255`. -/
theorem blk2_2_apply (c : Dev nD) (t : Fin cfg2.N) (x : S256.Idx) (k : S32768.Idx)
    (hk0 : (k 0).val = 256 * t.val + (x 0).val) :
    (iblk2 (F := Ideal) V c 2 t : Vec Ideal S256 .f32) x = (V c main_v0_0 : S32768.Idx → EReal) k := by
  obtain ⟨-, -, -, -, e0, -⟩ := index_maps2 t
  unfold iblk2
  rw [View.read_apply]
  show V c main_v0_0 _ = V c main_v0_0 _
  congr 1
  funext a
  apply Fin.ext
  match a with
  | ⟨0, _⟩ => show win2_2.index t 0 * 256 + 1 * (x 0).val = (k 0).val; rw [e0, hk0]; omega

/-- The bias block at every point is the whole bias. -/
theorem blk2_3_apply (c : Dev nD) (t : Fin cfg2.N) (x : S64.Idx) (k : S64.Idx) (hk0 : (k 0).val = (x 0).val) :
    (iblk2 (F := Ideal) V c 3 t : Vec Ideal S64 .f32) x = (V c main_arg3 : S64.Idx → EReal) k := by
  obtain ⟨-, -, -, -, -, e0, -⟩ := index_maps2 t
  unfold iblk2
  rw [View.read_apply]
  show V c main_arg3 _ = V c main_arg3 _
  congr 1
  funext a
  apply Fin.ext
  match a with
  | ⟨0, _⟩ => show win2_3.index t 0 * 64 + 1 * (x 0).val = (k 0).val; rw [e0, hk0]; omega

/-- An element of the output block at point `t` sits in the output array at row `256 t +` its row, same column. -/
theorem out_block2_coords (t : Fin cfg2.N) (r : Fin 256) (f : Fin 64) :
    ((((cfg2.win 4).blk t).view.emb (ix2 r f) : S32768x64.Idx) 0).val = 256 * t.val + r.val
    ∧ ((((cfg2.win 4).blk t).view.emb (ix2 r f) : S32768x64.Idx) 1).val = f.val := by
  obtain ⟨-, -, -, -, -, -, e0, e1⟩ := index_maps2 t
  constructor
  · show win2_4.index t 0 * 256 + 1 * r.val = 256 * t.val + r.val; rw [e0]; omega
  · show win2_4.index t 1 * 64 + 1 * f.val = f.val; rw [e1]; omega

/-- WHAT POINT `t` WRITES BACK is block `t` of `Spec.oG` of the arrays as the region finds them. -/
theorem written_back2_eq (c : Dev nD) (t : Fin cfg2.N) :
    (dat2 (F := Ideal) V c).flushed 4 t
      = ((cfg2.win 4).blk t).view.read (Elt Ideal) (Cert.Spec.oG (V c main_arg1) (V c main_v1) (V c main_v0_0) (V c main_arg3)) := by
  show (cfg2.win 4).cut (grid2.coords t) ((dat2 (F := Ideal) V c).after 4 t) = _
  rw [after2_4, out2_eq]
  funext j
  obtain ⟨r, f, rfl⟩ : ∃ (r : Fin 256) (f : Fin 64), j = ix2 r f := ⟨j 0, j 1, eq_ix2 j⟩
  obtain ⟨h0, h1⟩ := out_block2_coords t r f
  show k2_pay1 (F := Ideal) (iblk2 V c 0 t) (iblk2 V c 1 t) (iblk2 V c 2 t) (iblk2 V c 3 t) (ix2 r f)
    = Cert.Spec.oG (V c main_arg1) (V c main_v1) (V c main_v0_0) (V c main_arg3) (((cfg2.win 4).blk t).view.emb (ix2 r f))
  generalize (((cfg2.win 4).blk t).view.emb (ix2 r f) : S32768x64.Idx) = i at h0 h1 ⊢
  rw [payload2_apply]
  unfold Cert.Spec.oG Cert.Spec.oC
  rw [blk2_2_apply V c t (ix1 r) (ix1 (i 0)) h0, blk2_3_apply V c t (ix1 f) (ix1 (i 1)) h1]
  congr 1
  congr 1
  exact Finset.sum_congr rfl fun e _ => by
    rw [blk2_0_apply V c t (ix2 r e) (ix2 (i 0) e) h0 rfl, blk2_1_apply V c t (ix2 e f) (ix2 e (i 1)) rfl h1]

/-- An index of the output array is in point `t`'s block iff each coordinate is in the block's range on its axis. -/
theorem mem_out_block2 (t : Fin cfg2.N) (i : S32768x64.Idx) :
    i ∈ ((cfg2.win 4).blk t).view.set ↔ ∀ a : Fin 2, win2_4.index t a * S256x64.size a ≤ (i a).val ∧ (i a).val < win2_4.index t a * S256x64.size a + S256x64.size a := by
  show i ∈ ((View.whole main_v2).slice (win2_4.rect t)).set ↔ _
  rw [View.set_slice_whole, Rect.mem_set_unit]
  exact Iff.rfl

/-- THE COVER: row `n` of the output array is in the block of point `n / 256`, which is written back. -/
theorem cover2_out (i : S32768x64.Idx) :
    ∃ t : Fin cfg2.N, (cfg2.win 4).flush t = true ∧ i ∈ ((cfg2.win 4).blk t).view.set := by
  have hi0 : (i 0).val < 32768 := (i 0).isLt
  have hi1 : (i 1).val < 64 := (i 1).isLt
  obtain ⟨t, ht⟩ : ∃ t : Fin cfg2.N, t.val = (i 0).val / 256 :=
    ⟨⟨(i 0).val / 256, by rw [show cfg2.N = 128 from N_2]; omega⟩, rfl⟩
  obtain ⟨-, -, -, -, -, -, e0, e1⟩ := index_maps2 t
  refine ⟨t, flush2_4 t, ?_⟩
  rw [mem_out_block2]
  intro a
  match a with
  | ⟨0, _⟩ => show win2_4.index t 0 * 256 ≤ (i 0).val ∧ (i 0).val < win2_4.index t 0 * 256 + 256; rw [e0, ht]; omega
  | ⟨1, _⟩ => show win2_4.index t 1 * 64 ≤ (i 1).val ∧ (i 1).val < win2_4.index t 1 * 64 + 64; rw [e1]; omega

/-- THE OUTPUT ARRAY after the region: `Spec.oG` of the incidence matrix, the edge features, the vertex scaling and the
    bias as the region finds them, at every index. -/
theorem arr2_out (c : Dev nD) :
    ((dat2 (F := Ideal) V c).arrAt 4 cfg2.N : Cert.Spec.SX.Idx → EReal)
      = Cert.Spec.oG (V c main_arg1) (V c main_v1) (V c main_v0_0) (V c main_arg3) :=
  (dat2 (F := Ideal) V c).arrAt_eq_of_cover 4 (Cert.Spec.oG (V c main_arg1) (V c main_v1) (V c main_v0_0) (V c main_arg3))
    (fun t _ => written_back2_eq V c t) cover2_out

end Cert.KernelIdeal.Fr

end
-- ==== Proof.KI.Value.lean ====
import proofs.«156100_j87445534147336_1_alg».proof.Proof.KI.Run
import proofs.«156100_j87445534147336_1_alg».proof.Proof.KI.R0Value
import proofs.«156100_j87445534147336_1_alg».proof.Proof.KI.R1Value
import proofs.«156100_j87445534147336_1_alg».proof.Proof.KI.R2Value
import proofs.«156100_j87445534147336_1_alg».proof.Proof.Spec

noncomputable section

namespace Cert.KernelIdeal.Fr

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- What the three regions leave in the result array: region 2's output is `oG` of the arrays it is entered
    with, of which `Z` is region 1's `zG` and the two scalings are region 0's `dvG`, `deG` of `H`; no region
    changes an argument. Composed, that is the specification `outG` of the launch contents. -/
theorem result_eq (c : Dev nD) :
    W3 m ρ c (Proc.devRef .tc main_v2)
      = Cert.Spec.outG (m ((c : Thread nD τ).loc main_arg0)) (m ((c : Thread nD τ).loc main_arg1))
          (m ((c : Thread nD τ).loc main_arg2)) (m ((c : Thread nD τ).loc main_arg3)) := by
  rw [W3_main_v2, arr2_out, V2_main_arg1, V2_main_v1, V2_main_v0_0, V2_main_arg3,
    arr1_z, V1_main_arg1, V1_main_arg0, V1_main_arg2, V1_main_v0_0, V1_main_v0_1,
    arr0_dv, arr0_de, V0_eq]
  rfl

/-- The idealized kernel's run: it ends with the result array at the specification of the launch contents and
    every argument as launched. -/
theorem kernel_run :
    θ_run defs (onTc (τ := τ) (main (F := Ideal))) ⟨m, fun _ => 0, ρ⟩ (fun r => ∀ c : Dev nD,
      r.2.mem ((c.tc : Thread nD τ).loc main_v2)
          = Cert.Spec.outG (m ((c : Thread nD τ).loc main_arg0)) (m ((c : Thread nD τ).loc main_arg1))
              (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v2 (by decide))).trans (result_eq m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.KernelIdeal.Fr

end
-- ==== Proof.RefValue.lean ====
import proofs.«156100_j87445534147336_1_alg».proof.Proof.Gen.ReferenceIdeal.Read
import proofs.«156100_j87445534147336_1_alg».proof.Proof.Spec

noncomputable section

namespace Cert.ReferenceIdeal.RefValue

open Cert.ReferenceIdeal Idealize.ShloMosaic Idealize.ShloMosaic.ValueIdx

/-! The reference read stage by stage, each stage at an index given by explicit coordinates. The two scalings are the
    specification's `dvG` and `deG`, the scaled product `Hᵀ (dv · X W)` is its `zG`, and the last stage is `outG`.
    Every step is a stage's reading lemma, an equation between two spellings of one index, and the extended reals'
    `0 + x = x` for the zero a float sum starts from. -/

variable (X : (⟨S32768x64, .f32⟩ : BufTy).Contents (Elt Ideal)) (H : (⟨S32768x8192, .f32⟩ : BufTy).Contents (Elt Ideal))
  (W : (⟨S64x64, .f32⟩ : BufTy).Contents (Elt Ideal)) (b : (⟨S64, .f32⟩ : BufTy).Contents (Elt Ideal))

/-- Two rank-2 indices with the same two coordinates are equal. -/
local macro "idx2" : term =>
  `(funext fun a => Fin.ext (by match a with | ⟨0, _⟩ => rfl | ⟨1, _⟩ => rfl))
/-- Two rank-1 indices with the same coordinate are equal. -/
local macro "idx1" : term =>
  `(funext fun a => Fin.ext (by match a with | ⟨0, _⟩ => rfl))

/-- Stage 5, the vertex scaling `1 / √(Σ_e H n e + ε)`. -/
theorem v5_eq (n : Fin 32768) : Read.val_main_v5 (F := Ideal) H (ix1 n) = Spec.dvG H (ix1 n) := by
  have e : ∀ k : Fin 8192, Read.idx_main_v0 (ix1 n) k = ix2 n k := fun k => idx2
  rw [Read.val_main_v5_apply, Read.val_main_v4_apply, Read.val_main_cst_1_apply, Read.val_main_v3_apply,
    Read.val_main_v2_apply, Read.val_main_v0_apply, Read.val_main_cst_apply, Read.val_main_v1_apply,
    Read.val_main_cst_0_apply]
  simp only [Ideal.hostDivf_def, Ideal.hostUnary_sqrt_def, Ideal.addf_def, Ideal.ofBits_def, Ideal.ofBits_zero_f32,
    zero_add, e]
  rfl

/-- Stage 10, the edge scaling `1 / (Σ_n H n e + ε)`. -/
theorem v10_eq (e : Fin 8192) : Read.val_main_v10 (F := Ideal) H (ix1 e) = Spec.deG H (ix1 e) := by
  have h : ∀ k : Fin 32768, Read.idx_main_v6 (ix1 e) k = ix2 k e := fun k => idx2
  rw [Read.val_main_v10_apply, Read.val_main_v9_apply, Read.val_main_cst_4_apply, Read.val_main_v8_apply,
    Read.val_main_v6_apply, Read.val_main_cst_2_apply, Read.val_main_v7_apply, Read.val_main_cst_3_apply]
  simp only [Ideal.hostDivf_def, Ideal.addf_def, Ideal.ofBits_def, Ideal.ofBits_zero_f32, zero_add, h]
  rfl

/-- Stage 11, `X W`. -/
theorem v11_eq (n : Fin 32768) (f : Fin 64) :
    Read.val_main_v11 (F := Ideal) X W (ix2 n f) = ∑ k : Fin 64, X (ix2 n k) * W (ix2 k f) := by
  rw [Read.val_main_v11_apply]
  refine Finset.sum_congr rfl fun k _ => ?_
  rw [show Read.lidx_main_v11 (ix2 n f) k = ix2 n k from idx2, show Read.ridx_main_v11 (ix2 n f) k = ix2 k f from idx2]

/-- Stage 13, the vertex scaling broadcast along the features. -/
theorem v13_eq (n : Fin 32768) (f : Fin 64) :
    Read.val_main_v13 (F := Ideal) H (ix2 n f) = Spec.dvG H (ix1 n) := by
  rw [Read.val_main_v13_apply, Read.val_main_v12_apply,
    show Read.idx_main_v12 (Read.idx_main_v13 (ix2 n f)) = ix1 n from idx1, v5_eq]

/-- Stage 14, `dv · X W`. -/
theorem v14_eq (n : Fin 32768) (f : Fin 64) :
    Read.val_main_v14 (F := Ideal) X H W (ix2 n f) = Spec.dvG H (ix1 n) * ∑ k : Fin 64, X (ix2 n k) * W (ix2 k f) := by
  rw [Read.val_main_v14_apply, v13_eq, v11_eq]
  exact Ideal.mulf_def _ _

/-- Stage 16, `Hᵀ (dv · X W)`. -/
theorem v16_eq (e : Fin 8192) (f : Fin 64) :
    Read.val_main_v16 (F := Ideal) X H W (ix2 e f)
      = ∑ n : Fin 32768, H (ix2 n e) * (Spec.dvG H (ix1 n) * ∑ k : Fin 64, X (ix2 n k) * W (ix2 k f)) := by
  rw [Read.val_main_v16_apply]
  refine Finset.sum_congr rfl fun k _ => ?_
  rw [show Read.lidx_main_v16 (ix2 e f) k = ix2 e k from idx2, show Read.ridx_main_v16 (ix2 e f) k = ix2 k f from idx2,
    Read.val_main_v15_apply, show Read.idx_main_v15 (ix2 e k) = ix2 k e from idx2, v14_eq]

/-- Stage 18, the edge scaling broadcast along the features. -/
theorem v18_eq (e : Fin 8192) (f : Fin 64) :
    Read.val_main_v18 (F := Ideal) H (ix2 e f) = Spec.deG H (ix1 e) := by
  rw [Read.val_main_v18_apply, Read.val_main_v17_apply,
    show Read.idx_main_v17 (Read.idx_main_v18 (ix2 e f)) = ix1 e from idx1, v10_eq]

/-- Stage 19 is the specification's `Z`. -/
theorem v19_eq (e : Fin 8192) (f : Fin 64) :
    Read.val_main_v19 (F := Ideal) X H W (ix2 e f) = Spec.zG H X W (Spec.dvG H) (Spec.deG H) (ix2 e f) := by
  rw [Read.val_main_v19_apply, v18_eq, v16_eq]
  exact Ideal.mulf_def _ _

/-- Stage 20, `H Z`. -/
theorem v20_eq (n : Fin 32768) (f : Fin 64) :
    Read.val_main_v20 (F := Ideal) X H W (ix2 n f)
      = ∑ e : Fin 8192, H (ix2 n e) * Spec.zG H X W (Spec.dvG H) (Spec.deG H) (ix2 e f) := by
  rw [Read.val_main_v20_apply]
  refine Finset.sum_congr rfl fun k _ => ?_
  rw [show Read.lidx_main_v20 (ix2 n f) k = ix2 n k from idx2, show Read.ridx_main_v20 (ix2 n f) k = ix2 k f from idx2,
    v19_eq]

/-- Stage 22, the vertex scaling broadcast along the features once more. -/
theorem v22_eq (n : Fin 32768) (f : Fin 64) :
    Read.val_main_v22 (F := Ideal) H (ix2 n f) = Spec.dvG H (ix1 n) := by
  rw [Read.val_main_v22_apply, Read.val_main_v21_apply,
    show Read.idx_main_v21 (Read.idx_main_v22 (ix2 n f)) = ix1 n from idx1, v5_eq]

/-- Stage 25, the bias broadcast along the vertices. -/
theorem v25_eq (n : Fin 32768) (f : Fin 64) : Read.val_main_v25 (F := Ideal) b (ix2 n f) = b (ix1 f) := by
  rw [Read.val_main_v25_apply, Read.val_main_v24_apply,
    show Read.idx_main_v24 (Read.idx_main_v25 (ix2 n f)) = ix1 f from idx1]

/-- The reference's last stage is the specification. -/
theorem ref_eq (X : (⟨S32768x64, .f32⟩ : BufTy).Contents (Elt Ideal)) (H : (⟨S32768x8192, .f32⟩ : BufTy).Contents (Elt Ideal))
    (W : (⟨S64x64, .f32⟩ : BufTy).Contents (Elt Ideal)) (b : (⟨S64, .f32⟩ : BufTy).Contents (Elt Ideal)) :
    Cert.ReferenceIdeal.Read.val_main_v26 (F := Ideal) X H W b = Cert.Spec.outG X H W b := by
  funext i
  obtain ⟨n, f, rfl⟩ : ∃ (n : Fin 32768) (f : Fin 64), i = ix2 n f := ⟨i 0, i 1, eq_ix2 i⟩
  rw [Read.val_main_v26_apply, Read.val_main_v23_apply, v22_eq, v20_eq, v25_eq]
  rfl

end Cert.ReferenceIdeal.RefValue

end
-- ==== Proof.lean ====
/- The certificate of the hypergraph convolution in three pallas_calls against its jnp reference.
   On the extended reals both programs compute
     dv n = 1 / √(Σ_e H n e + ε),  de e = 1 / (Σ_n H n e + ε),
     Z e f = de e · Σ_n H n e · (dv n · Σ_k X n k · W k f),  out n f = dv n · Σ_e H n e · Z e f + b f;
   the kernel sums the vertices tile by tile (128 tiles of 256 rows, the edge sums and Z carried in a buffer across
   the grid), the reference in one sum: the two agree by regrouping a finite sum, and the casts to a narrower float
   format are the identity there. No finiteness of the inputs is used.
   The frames: each region's body runs from its windows' blocks to the stated contents (one run per control case of
   the grid point), the three regions chain through the contents they leave, and no region writes an argument.
   The ideal pass rewrote nothing, so `preserves` is `True`. -/
import proofs.«156100_j87445534147336_1_alg».proof.Defs
import proofs.«156100_j87445534147336_1_alg».proof.Proof.Gen.Kernel
import proofs.«156100_j87445534147336_1_alg».proof.Proof.Gen.KernelIdeal
import proofs.«156100_j87445534147336_1_alg».proof.Proof.Gen.ReferenceIdeal
import proofs.«156100_j87445534147336_1_alg».proof.Proof.Gen.Pre_finite_inputs
import proofs.«156100_j87445534147336_1_alg».proof.Proof.Gen.ReferenceIdeal.Run
import proofs.«156100_j87445534147336_1_alg».proof.Proof.Gen.ReferenceIdeal.Read
import proofs.«156100_j87445534147336_1_alg».proof.Proof.K.Run
import proofs.«156100_j87445534147336_1_alg».proof.Proof.KI.Run
import proofs.«156100_j87445534147336_1_alg».proof.Proof.KI.Value
import proofs.«156100_j87445534147336_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel :=
  fun m ρ _ => Cert.Kernel.Fr.frame m ρ

theorem frame_ki : Cert.frame_KernelIdeal :=
  fun m ρ _ => Cert.KernelIdeal.Fr.frame m ρ

/-- The reference has no kernel: its frame is its run with the result dropped. -/
theorem frame_ri : Cert.frame_ReferenceIdeal :=
  fun m ρ _ => (θ_run Cert.ReferenceIdeal.defs _ _).mono (fun _ h c => (h c).2) (Cert.ReferenceIdeal.Value.run (F := Ideal) m ρ)

/-- Both runs end with the result at the ONE function `Spec.outG` of arguments that agree. -/
theorem algebraic : Cert.algebraic_KernelIdeal_ReferenceIdeal := by
  intro m ρ m' ρ' _ hagree
  refine ⟨_, Cert.KernelIdeal.Fr.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
